-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S4096x1024 : Shape := ⟨2, ![4096, 1024]⟩
abbrev S4096 : Shape := ⟨1, ![4096]⟩
abbrev S8x8x1024 : Shape := ⟨3, ![8, 8, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S8x8x1024 : S_.BroadcastsInDim S8x8x1024 (![] : Fin 0 → Fin S8x8x1024.rank)
  reducesTo_S8x8x1024_S_d0_1_2 : S8x8x1024.ReducesTo [0, 1, 2] S_

variable [Facts]

def fn_part1 {F : FTy → Type} [FloatOps F] (main_v13 : IVec S_ 1) (main_v16 : IVec S8x8x1024 1) : IVec S_ 1 :=
  let main_c_5 : IVec S_ 1 := constantI S_ 1 1#1
  let main_v17 : IVec S_ 1 := (fun x v => Host.reduce IntOp.andi x v reducesTo_S8x8x1024_S_d0_1_2 h_S_) main_v16 main_c_5
  let main_v18 : IVec S_ 1 := andi main_v13 main_v17
  main_v18

def fn {F : FTy → Type} [FloatOps F] (main_arg0 : FVec F S1x2048x1024 .f32) (main_arg1 : FVec F S4096x1024 .f32) (main_arg2 : FVec F S4096 .f32) (main_arg3 : FVec F S8x8x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x8x1024 .f32 := Host.absf main_arg3
  let main_cst_4 : FVec F S_ .f32 := constant S_ .f32 0x7F800000#32
  let main_v15 : FVec F S8x8x1024 .f32 := broadcastInDim S8x8x1024 ![] bcast_S_S8x8x1024 main_cst_4
  let main_v16 : IVec S8x8x1024 1 := cmpf .olt main_v14 main_v15
  fn_part1 (F := F) main_v13 main_v16
-- ==== Kernel.lean ====
abbrev S1x2048x1024 : Shape := ⟨3, ![1, 2048, 1024]⟩
abbrev S4096x1024 : Shape := ⟨2, ![4096, 1024]⟩
abbrev S4096 : Shape := ⟨1, ![4096]⟩
abbrev S8x8x1024 : Shape := ⟨3, ![8, 8, 1024]⟩
abbrev S8x64 : Shape := ⟨2, ![8, 64]⟩
abbrev S64x8 : Shape := ⟨2, ![64, 8]⟩
abbrev S2048x1024 : Shape := ⟨2, ![2048, 1024]⟩
abbrev S64x1024 : Shape := ⟨2, ![64, 1024]⟩
abbrev S1x4096 : Shape := ⟨2, ![1, 4096]⟩
abbrev S2048x4096 : Shape := ⟨2, ![2048, 4096]⟩
abbrev S1x2048x4096 : Shape := ⟨3, ![1, 2048, 4096]⟩
abbrev S512x1024 : Shape := ⟨2, ![512, 1024]⟩
abbrev S1x512 : Shape := ⟨2, ![1, 512]⟩
abbrev S2048x512 : Shape := ⟨2, ![2048, 512]⟩
abbrev S2048x2048 : Shape := ⟨2, ![2048, 2048]⟩
abbrev S512x64 : Shape := ⟨2, ![512, 64]⟩
abbrev S512x8 : Shape := ⟨2, ![512, 8]⟩
abbrev S512x256 : Shape := ⟨2, ![512, 256]⟩
abbrev S512x1 : Shape := ⟨2, ![512, 1]⟩
abbrev S8x512 : Shape := ⟨2, ![8, 512]⟩
abbrev S256x512 : Shape := ⟨2, ![256, 512]⟩
abbrev S512x512 : Shape := ⟨2, ![512, 512]⟩
abbrev S512x2048 : Shape := ⟨2, ![512, 2048]⟩

abbrev nBuf : Space → Nat
  | .hbm => 11
  | .vmem => 13
  | .smem => 0
  | _ => 0

abbrev bufTy : (tb : Table) → Fin (tcTables nBuf tb) → BufTy
  | .hbm, ⟨0, _⟩ => ⟨S1x2048x1024, .f32⟩
  | .hbm, ⟨1, _⟩ => ⟨S4096x1024, .f32⟩
  | .hbm, ⟨2, _⟩ => ⟨S4096, .f32⟩
  | .hbm, ⟨3, _⟩ => ⟨S8x8x1024, .f32⟩
  | .hbm, ⟨4, _⟩ => ⟨S8x64, .f32⟩
  | .hbm, ⟨5, _⟩ => ⟨S64x8, .f32⟩
  | .hbm, ⟨6, _⟩ => ⟨S2048x1024, .f32⟩
  | .hbm, ⟨7, _⟩ => ⟨S64x1024, .f32⟩
  | .hbm, ⟨8, _⟩ => ⟨S1x4096, .f32⟩
  | .hbm, ⟨9, _⟩ => ⟨S2048x4096, .f32⟩
  | .hbm, ⟨10, _⟩ => ⟨S1x2048x4096, .f32⟩
  | .local _ .vmem, ⟨0, _⟩ => ⟨S2048x1024, .f32⟩
  | .local _ .vmem, ⟨1, _⟩ => ⟨S512x1024, .f32⟩
  | .local _ .vmem, ⟨2, _⟩ => ⟨S512x1024, .f32⟩
  | .local _ .vmem, ⟨3, _⟩ => ⟨S1x512, .f32⟩
  | .local _ .vmem, ⟨4, _⟩ => ⟨S1x512, .f32⟩
  | .local _ .vmem, ⟨5, _⟩ => ⟨S64x1024, .f32⟩
  | .local _ .vmem, ⟨6, _⟩ => ⟨S64x8, .f32⟩
  | .local _ .vmem, ⟨7, _⟩ => ⟨S8x64, .f32⟩
  | .local _ .vmem, ⟨8, _⟩ => ⟨S2048x512, .f32⟩
  | .local _ .vmem, ⟨9, _⟩ => ⟨S2048x512, .f32⟩
  | .local _ .vmem, ⟨10, _⟩ => ⟨S2048x1024, .bf16⟩
  | .local _ .vmem, ⟨11, _⟩ => ⟨S2048x2048, .bf16⟩
  | .local _ .vmem, ⟨12, _⟩ => ⟨S2048x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x2048x1024_S2048x1024 : S1x2048x1024.ShapeCasts S2048x1024
  shapeCasts_S8x8x1024_S64x1024 : S8x8x1024.ShapeCasts S64x1024
  shapeCasts_S4096_S1x4096 : S4096.ShapeCasts S1x4096
  shapeCasts_S2048x4096_S1x2048x4096 : S2048x4096.ShapeCasts S1x2048x4096
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bitsLt_bf16_f32 : FTy.bits .bf16 < FTy.bits .f32
  inb_S2048x1024_S512x1024_0_0 : ∀ a, (![0, 0] : Fin 2 → Nat) a + S512x1024.size a ≤ S2048x1024.size a
  h_S512x1024 : 0 < S512x1024.numel
  shapeCasts_S512x1024_S512x1024 : S512x1024.ShapeCasts S512x1024
  packedbf16_S2048x1024_S512x1024_0_0 : (Rect.unit (s := S2048x1024) ![0, 0] S512x1024.size inb_S2048x1024_S512x1024_0_0).PackedRows (EltTy.packing .bf16)
  natLt_1_32 : 1 < 32
  inb_S64x8_S64x8_0_0 : ∀ a, (![0, 0] : Fin 2 → Nat) a + S64x8.size a ≤ S64x8.size a
  h_S64x8 : 0 < S64x8.numel
  iota_S512x256_d1_w32 : S512x256.Iotas .tc 32 [1]
  slices_S512x8_o0_0_S512x1 : S512x8.Slices ![0, 0] S512x1
  broadcasts_S512x1_S512x256 : S512x1.Broadcasts S512x256
  inb_S2048x2048_S512x256_0_0 : ∀ a, (![0, 0] : Fin 2 → Nat) a + S512x256.size a ≤ S2048x2048.size a
  h_S512x256 : 0 < S512x256.numel
  shapeCasts_S512x256_S512x256 : S512x256.ShapeCasts S512x256
  packedbf16_S2048x2048_S512x256_0_0 : (Rect.unit (s := S2048x2048) ![0, 0] S512x256.size inb_S2048x2048_S512x256_0_0).PackedRows (EltTy.packing .bf16)
  slices_S512x8_o0_1_S512x1 : S512x8.Slices ![0, 1] S512x1
  inb_S2048x2048_S512x256_0_256 : ∀ a, (![0, 256] : Fin 2 → Nat) a + S512x256.size a ≤ S2048x2048.size a
  packedbf16_S2048x2048_S512x256_0_256 : (Rect.unit (s := S2048x2048) ![0, 256] S512x256.size inb_S2048x2048_S512x256_0_256).PackedRows (EltTy.packing .bf16)
  slices_S512x8_o0_2_S512x1 : S512x8.Slices ![0, 2] S512x1
  inb_S2048x2048_S512x256_0_512 : ∀ a, (![0, 512] : Fin 2 → Nat) a + S512x256.size a ≤ S2048x2048.size a
  packedbf16_S2048x2048_S512x256_0_512 : (Rect.unit (s := S2048x2048) ![0, 512] S512x256.size inb_S2048x2048_S512x256_0_512).PackedRows (EltTy.packing .bf16)
  slices_S512x8_o0_3_S512x1 : S512x8.Slices ![0, 3] S512x1
  inb_S2048x2048_S512x256_0_768 : ∀ a, (![0, 768] : Fin 2 → Nat) a + S512x256.size a ≤ S2048x2048.size a
  packedbf16_S2048x2048_S512x256_0_768 : (Rect.unit (s := S2048x2048) ![0, 768] S512x256.size inb_S2048x2048_S512x256_0_768).PackedRows (EltTy.packing .bf16)
  slices_S512x8_o0_4_S512x1 : S512x8.Slices ![0, 4] S512x1
  inb_S2048x2048_S512x256_0_1024 : ∀ a, (![0, 1024] : Fin 2 → Nat) a + S512x256.size a ≤ S2048x2048.size a
  packedbf16_S2048x2048_S512x256_0_1024 : (Rect.unit (s := S2048x2048) ![0, 1024] S512x256.size inb_S2048x2048_S512x256_0_1024).PackedRows (EltTy.packing .bf16)
  slices_S512x8_o0_5_S512x1 : S512x8.Slices ![0, 5] S512x1
  inb_S2048x2048_S512x256_0_1280 : ∀ a, (![0, 1280] : Fin 2 → Nat) a + S512x256.size a ≤ S2048x2048.size a
  packedbf16_S2048x2048_S512x256_0_1280 : (Rect.unit (s := S2048x2048) ![0, 1280] S512x256.size inb_S2048x2048_S512x256_0_1280).PackedRows (EltTy.packing .bf16)
  slices_S512x8_o0_6_S512x1 : S512x8.Slices ![0, 6] S512x1
  inb_S2048x2048_S512x256_0_1536 : ∀ a, (![0, 1536] : Fin 2 → Nat) a + S512x256.size a ≤ S2048x2048.size a
  packedbf16_S2048x2048_S512x256_0_1536 : (Rect.unit (s := S2048x2048) ![0, 1536] S512x256.size inb_S2048x2048_S512x256_0_1536).PackedRows (EltTy.packing .bf16)
  slices_S512x8_o0_7_S512x1 : S512x8.Slices ![0, 7] S512x1
  inb_S2048x2048_S512x256_0_1792 : ∀ a, (![0, 1792] : Fin 2 → Nat) a + S512x256.size a ≤ S2048x2048.size a
  packedbf16_S2048x2048_S512x256_0_1792 : (Rect.unit (s := S2048x2048) ![0, 1792] S512x256.size inb_S2048x2048_S512x256_0_1792).PackedRows (EltTy.packing .bf16)
  inb_S2048x1024_S512x1024_512_0 : ∀ a, (![512, 0] : Fin 2 → Nat) a + S512x1024.size a ≤ S2048x1024.size a
  packedbf16_S2048x1024_S512x1024_512_0 : (Rect.unit (s := S2048x1024) ![512, 0] S512x1024.size inb_S2048x1024_S512x1024_512_0).PackedRows (EltTy.packing .bf16)
  inb_S2048x2048_S512x256_512_0 : ∀ a, (![512, 0] : Fin 2 → Nat) a + S512x256.size a ≤ S2048x2048.size a
  packedbf16_S2048x2048_S512x256_512_0 : (Rect.unit (s := S2048x2048) ![512, 0] S512x256.size inb_S2048x2048_S512x256_512_0).PackedRows (EltTy.packing .bf16)
  inb_S2048x2048_S512x256_512_256 : ∀ a, (![512, 256] : Fin 2 → Nat) a + S512x256.size a ≤ S2048x2048.size a
  packedbf16_S2048x2048_S512x256_512_256 : (Rect.unit (s := S2048x2048) ![512, 256] S512x256.size inb_S2048x2048_S512x256_512_256).PackedRows (EltTy.packing .bf16)
  inb_S2048x2048_S512x256_512_512 : ∀ a, (![512, 512] : Fin 2 → Nat) a + S512x256.size a ≤ S2048x2048.size a
  packedbf16_S2048x2048_S512x256_512_512 : (Rect.unit (s := S2048x2048) ![512, 512] S512x256.size inb_S2048x2048_S512x256_512_512).PackedRows (EltTy.packing .bf16)
  inb_S2048x2048_S512x256_512_768 : ∀ a, (![512, 768] : Fin 2 → Nat) a + S512x256.size a ≤ S2048x2048.size a
  packedbf16_S2048x2048_S512x256_512_768 : (Rect.unit (s := S2048x2048) ![512, 768] S512x256.size inb_S2048x2048_S512x256_512_768).PackedRows (EltTy.packing .bf16)
  inb_S2048x2048_S512x256_512_1024 : ∀ a, (![512, 1024] : Fin 2 → Nat) a + S512x256.size a ≤ S2048x2048.size a
  packedbf16_S2048x2048_S512x256_512_1024 : (Rect.unit (s := S2048x2048) ![512, 1024] S512x256.size inb_S2048x2048_S512x256_512_1024).PackedRows (EltTy.packing .bf16)
  inb_S2048x2048_S512x256_512_1280 : ∀ a, (![512, 1280] : Fin 2 → Nat) a + S512x256.size a ≤ S2048x2048.size a
  packedbf16_S2048x2048_S512x256_512_1280 : (Rect.unit (s := S2048x2048) ![512, 1280] S512x256.size inb_S2048x2048_S512x256_512_1280).PackedRows (EltTy.packing .bf16)
  inb_S2048x2048_S512x256_512_1536 : ∀ a, (![512, 1536] : Fin 2 → Nat) a + S512x256.size a ≤ S2048x2048.size a
  packedbf16_S2048x2048_S512x256_512_1536 : (Rect.unit (s := S2048x2048) ![512, 1536] S512x256.size inb_S2048x2048_S512x256_512_1536).PackedRows (EltTy.packing .bf16)
  inb_S2048x2048_S512x256_512_1792 : ∀ a, (![512, 1792] : Fin 2 → Nat) a + S512x256.size a ≤ S2048x2048.size a
  packedbf16_S2048x2048_S512x256_512_1792 : (Rect.unit (s := S2048x2048) ![512, 1792] S512x256.size inb_S2048x2048_S512x256_512_1792).PackedRows (EltTy.packing .bf16)
  inb_S2048x1024_S512x1024_1024_0 : ∀ a, (![1024, 0] : Fin 2 → Nat) a + S512x1024.size a ≤ S2048x1024.size a
  packedbf16_S2048x1024_S512x1024_1024_0 : (Rect.unit (s := S2048x1024) ![1024, 0] S512x1024.size inb_S2048x1024_S512x1024_1024_0).PackedRows (EltTy.packing .bf16)
  inb_S2048x2048_S512x256_1024_0 : ∀ a, (![1024, 0] : Fin 2 → Nat) a + S512x256.size a ≤ S2048x2048.size a
  packedbf16_S2048x2048_S512x256_1024_0 : (Rect.unit (s := S2048x2048) ![1024, 0] S512x256.size inb_S2048x2048_S512x256_1024_0).PackedRows (EltTy.packing .bf16)
  inb_S2048x2048_S512x256_1024_256 : ∀ a, (![1024, 256] : Fin 2 → Nat) a + S512x256.size a ≤ S2048x2048.size a
  packedbf16_S2048x2048_S512x256_1024_256 : (Rect.unit (s := S2048x2048) ![1024, 256] S512x256.size inb_S2048x2048_S512x256_1024_256).PackedRows (EltTy.packing .bf16)
  inb_S2048x2048_S512x256_1024_512 : ∀ a, (![1024, 512] : Fin 2 → Nat) a + S512x256.size a ≤ S2048x2048.size a
  packedbf16_S2048x2048_S512x256_1024_512 : (Rect.unit (s := S2048x2048) ![1024, 512] S512x256.size inb_S2048x2048_S512x256_1024_512).PackedRows (EltTy.packing .bf16)
  inb_S2048x2048_S512x256_1024_768 : ∀ a, (![1024, 768] : Fin 2 → Nat) a + S512x256.size a ≤ S2048x2048.size a
  packedbf16_S2048x2048_S512x256_1024_768 : (Rect.unit (s := S2048x2048) ![1024, 768] S512x256.size inb_S2048x2048_S512x256_1024_768).PackedRows (EltTy.packing .bf16)
  inb_S2048x2048_S512x256_1024_1024 : ∀ a, (![1024, 1024] : Fin 2 → Nat) a + S512x256.size a ≤ S2048x2048.size a
  packedbf16_S2048x2048_S512x256_1024_1024 : (Rect.unit (s := S2048x2048) ![1024, 1024] S512x256.size inb_S2048x2048_S512x256_1024_1024).PackedRows (EltTy.packing .bf16)
  inb_S2048x2048_S512x256_1024_1280 : ∀ a, (![1024, 1280] : Fin 2 → Nat) a + S512x256.size a ≤ S2048x2048.size a
  packedbf16_S2048x2048_S512x256_1024_1280 : (Rect.unit (s := S2048x2048) ![1024, 1280] S512x256.size inb_S2048x2048_S512x256_1024_1280).PackedRows (EltTy.packing .bf16)
  inb_S2048x2048_S512x256_1024_1536 : ∀ a, (![1024, 1536] : Fin 2 → Nat) a + S512x256.size a ≤ S2048x2048.size a
  packedbf16_S2048x2048_S512x256_1024_1536 : (Rect.unit (s := S2048x2048) ![1024, 1536] S512x256.size inb_S2048x2048_S512x256_1024_1536).PackedRows (EltTy.packing .bf16)
  inb_S2048x2048_S512x256_1024_1792 : ∀ a, (![1024, 1792] : Fin 2 → Nat) a + S512x256.size a ≤ S2048x2048.size a
  packedbf16_S2048x2048_S512x256_1024_1792 : (Rect.unit (s := S2048x2048) ![1024, 1792] S512x256.size inb_S2048x2048_S512x256_1024_1792).PackedRows (EltTy.packing .bf16)
  inb_S2048x1024_S512x1024_1536_0 : ∀ a, (![1536, 0] : Fin 2 → Nat) a + S512x1024.size a ≤ S2048x1024.size a
  packedbf16_S2048x1024_S512x1024_1536_0 : (Rect.unit (s := S2048x1024) ![1536, 0] S512x1024.size inb_S2048x1024_S512x1024_1536_0).PackedRows (EltTy.packing .bf16)
  inb_S2048x2048_S512x256_1536_0 : ∀ a, (![1536, 0] : Fin 2 → Nat) a + S512x256.size a ≤ S2048x2048.size a
  packedbf16_S2048x2048_S512x256_1536_0 : (Rect.unit (s := S2048x2048) ![1536, 0] S512x256.size inb_S2048x2048_S512x256_1536_0).PackedRows (EltTy.packing .bf16)
  inb_S2048x2048_S512x256_1536_256 : ∀ a, (![1536, 256] : Fin 2 → Nat) a + S512x256.size a ≤ S2048x2048.size a
  packedbf16_S2048x2048_S512x256_1536_256 : (Rect.unit (s := S2048x2048) ![1536, 256] S512x256.size inb_S2048x2048_S512x256_1536_256).PackedRows (EltTy.packing .bf16)
  inb_S2048x2048_S512x256_1536_512 : ∀ a, (![1536, 512] : Fin 2 → Nat) a + S512x256.size a ≤ S2048x2048.size a
  packedbf16_S2048x2048_S512x256_1536_512 : (Rect.unit (s := S2048x2048) ![1536, 512] S512x256.size inb_S2048x2048_S512x256_1536_512).PackedRows (EltTy.packing .bf16)
  inb_S2048x2048_S512x256_1536_768 : ∀ a, (![1536, 768] : Fin 2 → Nat) a + S512x256.size a ≤ S2048x2048.size a
  packedbf16_S2048x2048_S512x256_1536_768 : (Rect.unit (s := S2048x2048) ![1536, 768] S512x256.size inb_S2048x2048_S512x256_1536_768).PackedRows (EltTy.packing .bf16)
  inb_S2048x2048_S512x256_1536_1024 : ∀ a, (![1536, 1024] : Fin 2 → Nat) a + S512x256.size a ≤ S2048x2048.size a
  packedbf16_S2048x2048_S512x256_1536_1024 : (Rect.unit (s := S2048x2048) ![1536, 1024] S512x256.size inb_S2048x2048_S512x256_1536_1024).PackedRows (EltTy.packing .bf16)
  inb_S2048x2048_S512x256_1536_1280 : ∀ a, (![1536, 1280] : Fin 2 → Nat) a + S512x256.size a ≤ S2048x2048.size a
  packedbf16_S2048x2048_S512x256_1536_1280 : (Rect.unit (s := S2048x2048) ![1536, 1280] S512x256.size inb_S2048x2048_S512x256_1536_1280).PackedRows (EltTy.packing .bf16)
  inb_S2048x2048_S512x256_1536_1536 : ∀ a, (![1536, 1536] : Fin 2 → Nat) a + S512x256.size a ≤ S2048x2048.size a
  packedbf16_S2048x2048_S512x256_1536_1536 : (Rect.unit (s := S2048x2048) ![1536, 1536] S512x256.size inb_S2048x2048_S512x256_1536_1536).PackedRows (EltTy.packing .bf16)
  inb_S2048x2048_S512x256_1536_1792 : ∀ a, (![1536, 1792] : Fin 2 → Nat) a + S512x256.size a ≤ S2048x2048.size a
  packedbf16_S2048x2048_S512x256_1536_1792 : (Rect.unit (s := S2048x2048) ![1536, 1792] S512x256.size inb_S2048x2048_S512x256_1536_1792).PackedRows (EltTy.packing .bf16)
  inb_S512x1024_S512x1024_0_0 : ∀ a, (![0, 0] : Fin 2 → Nat) a + S512x1024.size a ≤ S512x1024.size a
  inb_S8x64_S8x64_0_0 : ∀ a, (![0, 0] : Fin 2 → Nat) a + S8x64.size a ≤ S8x64.size a
  h_S8x64 : 0 < S8x64.numel
  iota_S256x512_d0_w32 : S256x512.Iotas .tc 32 [0]
  slices_S8x512_o0_0_S1x512 : S8x512.Slices ![0, 0] S1x512
  broadcasts_S1x512_S256x512 : S1x512.Broadcasts S256x512
  inb_S2048x512_S256x512_0_0 : ∀ a, (![0, 0] : Fin 2 → Nat) a + S256x512.size a ≤ S2048x512.size a
  h_S256x512 : 0 < S256x512.numel
  shapeCasts_S256x512_S256x512 : S256x512.ShapeCasts S256x512
  packedbf16_S2048x512_S256x512_0_0 : (Rect.unit (s := S2048x512) ![0, 0] S256x512.size inb_S2048x512_S256x512_0_0).PackedRows (EltTy.packing .bf16)
  slices_S8x512_o1_0_S1x512 : S8x512.Slices ![1, 0] S1x512
  inb_S2048x512_S256x512_256_0 : ∀ a, (![256, 0] : Fin 2 → Nat) a + S256x512.size a ≤ S2048x512.size a
  packedbf16_S2048x512_S256x512_256_0 : (Rect.unit (s := S2048x512) ![256, 0] S256x512.size inb_S2048x512_S256x512_256_0).PackedRows (EltTy.packing .bf16)
  slices_S8x512_o2_0_S1x512 : S8x512.Slices ![2, 0] S1x512
  inb_S2048x512_S256x512_512_0 : ∀ a, (![512, 0] : Fin 2 → Nat) a + S256x512.size a ≤ S2048x512.size a
  packedbf16_S2048x512_S256x512_512_0 : (Rect.unit (s := S2048x512) ![512, 0] S256x512.size inb_S2048x512_S256x512_512_0).PackedRows (EltTy.packing .bf16)
  slices_S8x512_o3_0_S1x512 : S8x512.Slices ![3, 0] S1x512
  inb_S2048x512_S256x512_768_0 : ∀ a, (![768, 0] : Fin 2 → Nat) a + S256x512.size a ≤ S2048x512.size a
  packedbf16_S2048x512_S256x512_768_0 : (Rect.unit (s := S2048x512) ![768, 0] S256x512.size inb_S2048x512_S256x512_768_0).PackedRows (EltTy.packing .bf16)
  slices_S8x512_o4_0_S1x512 : S8x512.Slices ![4, 0] S1x512
  inb_S2048x512_S256x512_1024_0 : ∀ a, (![1024, 0] : Fin 2 → Nat) a + S256x512.size a ≤ S2048x512.size a
  packedbf16_S2048x512_S256x512_1024_0 : (Rect.unit (s := S2048x512) ![1024, 0] S256x512.size inb_S2048x512_S256x512_1024_0).PackedRows (EltTy.packing .bf16)
  slices_S8x512_o5_0_S1x512 : S8x512.Slices ![5, 0] S1x512
  inb_S2048x512_S256x512_1280_0 : ∀ a, (![1280, 0] : Fin 2 → Nat) a + S256x512.size a ≤ S2048x512.size a
  packedbf16_S2048x512_S256x512_1280_0 : (Rect.unit (s := S2048x512) ![1280, 0] S256x512.size inb_S2048x512_S256x512_1280_0).PackedRows (EltTy.packing .bf16)
  slices_S8x512_o6_0_S1x512 : S8x512.Slices ![6, 0] S1x512
  inb_S2048x512_S256x512_1536_0 : ∀ a, (![1536, 0] : Fin 2 → Nat) a + S256x512.size a ≤ S2048x512.size a
  packedbf16_S2048x512_S256x512_1536_0 : (Rect.unit (s := S2048x512) ![1536, 0] S256x512.size inb_S2048x512_S256x512_1536_0).PackedRows (EltTy.packing .bf16)
  slices_S8x512_o7_0_S1x512 : S8x512.Slices ![7, 0] S1x512
  inb_S2048x512_S256x512_1792_0 : ∀ a, (![1792, 0] : Fin 2 → Nat) a + S256x512.size a ≤ S2048x512.size a
  packedbf16_S2048x512_S256x512_1792_0 : (Rect.unit (s := S2048x512) ![1792, 0] S256x512.size inb_S2048x512_S256x512_1792_0).PackedRows (EltTy.packing .bf16)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2048x512_S2048x512_0_0 : ∀ a, (![0, 0] : Fin 2 → Nat) a + S2048x512.size a ≤ S2048x512.size a
  h_S2048x512 : 0 < S2048x512.numel
  broadcasts_S1x512_S512x512 : S1x512.Broadcasts S512x512
  inb_S2048x2048_S512x2048_0_0 : ∀ a, (![0, 0] : Fin 2 → Nat) a + S512x2048.size a ≤ S2048x2048.size a
  h_S512x2048 : 0 < S512x2048.numel
  inb_S2048x512_S512x512_0_0 : ∀ a, (![0, 0] : Fin 2 → Nat) a + S512x512.size a ≤ S2048x512.size a
  h_S512x512 : 0 < S512x512.numel
  inb_S2048x2048_S512x2048_512_0 : ∀ a, (![512, 0] : Fin 2 → Nat) a + S512x2048.size a ≤ S2048x2048.size a
  inb_S2048x512_S512x512_512_0 : ∀ a, (![512, 0] : Fin 2 → Nat) a + S512x512.size a ≤ S2048x512.size a
  inb_S2048x2048_S512x2048_1024_0 : ∀ a, (![1024, 0] : Fin 2 → Nat) a + S512x2048.size a ≤ S2048x2048.size a
  inb_S2048x512_S512x512_1024_0 : ∀ a, (![1024, 0] : Fin 2 → Nat) a + S512x512.size a ≤ S2048x512.size a
  inb_S2048x2048_S512x2048_1536_0 : ∀ a, (![1536, 0] : Fin 2 → Nat) a + S512x2048.size a ≤ S2048x2048.size a
  inb_S2048x512_S512x512_1536_0 : ∀ a, (![1536, 0] : Fin 2 → Nat) a + S512x512.size a ≤ S2048x512.size a
  dot_S512x1024_S64x1024_S512x64_1_1_0_0_n_n_wf : DotDims.WF S512x1024 S64x1024 S512x64 [1] [1] [0] [0] [] []
  dot_S512x64_S64x8_S512x8_1_0_0_1_n_n_wf : DotDims.WF S512x64 S64x8 S512x8 [1] [0] [0] [1] [] []
  dot_S8x64_S512x64_S8x512_1_1_0_0_n_n_wf : DotDims.WF S8x64 S512x64 S8x512 [1] [1] [0] [0] [] []
  dot_S512x1024_S512x1024_S512x512_1_1_0_0_n_n_wf : DotDims.WF S512x1024 S512x1024 S512x512 [1] [1] [0] [0] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S2048x1024.size a
  hwx0_0 : ∀ i : grid0.Coords, EltTy.bits .f32 = 32 ∨ (Rect.block (s := S2048x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x8.size a ≤ S64x8.size a
  hwx0_4 : ∀ i : grid0.Coords, EltTy.bits .f32 = 32 ∨ (Rect.block (s := S64x8) S64x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S8x64.size a
  hwx0_5 : ∀ i : grid0.Coords, EltTy.bits .f32 = 32 ∨ (Rect.block (s := S8x64) S8x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S2048x4096.size a
  hwx0_6 : ∀ i : grid0.Coords, EltTy.bits .f32 = 32 ∨ (Rect.block (s := S2048x4096) S2048x512.size (cc0_transform_6 i) (hinb0_6 i)).WholeWords (EltTy.packing .f32)

variable [Facts₀]

def dot_S512x1024_S64x1024_S512x64_1_1_0_0_n_n : DotDims S512x1024 S64x1024 S512x64 where
  lhsContracting := [1]
  rhsContracting := [1]
  lhsNonContracting := [0]
  rhsNonContracting := [0]
  lhsBatch := []
  rhsBatch := []
  wf := dot_S512x1024_S64x1024_S512x64_1_1_0_0_n_n_wf
def dot_S512x64_S64x8_S512x8_1_0_0_1_n_n : DotDims S512x64 S64x8 S512x8 where
  lhsContracting := [1]
  rhsContracting := [0]
  lhsNonContracting := [0]
  rhsNonContracting := [1]
  lhsBatch := []
  rhsBatch := []
  wf := dot_S512x64_S64x8_S512x8_1_0_0_1_n_n_wf
def dot_S8x64_S512x64_S8x512_1_1_0_0_n_n : DotDims S8x64 S512x64 S8x512 where
  lhsContracting := [1]
  rhsContracting := [1]
  lhsNonContracting := [0]
  rhsNonContracting := [0]
  lhsBatch := []
  rhsBatch := []
  wf := dot_S8x64_S512x64_S8x512_1_1_0_0_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_call0_v0) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_cst_0) S64x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_cst) S8x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S2048x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x2048x1024 : Shape := ⟨3, ![1, 2048, 1024]⟩
abbrev S4096x1024 : Shape := ⟨2, ![4096, 1024]⟩
abbrev S4096 : Shape := ⟨1, ![4096]⟩
abbrev S8x8x1024 : Shape := ⟨3, ![8, 8, 1024]⟩
abbrev S1x2048x8x8 : Shape := ⟨4, ![1, 2048, 8, 8]⟩
abbrev S_ : Shape := ⟨0, ![]⟩
abbrev S8 : Shape := ⟨1, ![8]⟩
abbrev S1x1x1x8 : Shape := ⟨4, ![1, 1, 1, 8]⟩
abbrev S1x2048x8 : Shape := ⟨3, ![1, 2048, 8]⟩
abbrev S4096x8x8 : Shape := ⟨3, ![4096, 8, 8]⟩
abbrev S1x1x8 : Shape := ⟨3, ![1, 1, 8]⟩
abbrev S4096x8 : Shape := ⟨2, ![4096, 8]⟩
abbrev S1x2048x1x8 : Shape := ⟨4, ![1, 2048, 1, 8]⟩
abbrev S1x1x4096x8 : Shape := ⟨4, ![1, 1, 4096, 8]⟩
abbrev S1x2048x4096x8 : Shape := ⟨4, ![1, 2048, 4096, 8]⟩
abbrev S1x2048x4096 : Shape := ⟨3, ![1, 2048, 4096]⟩
abbrev S1x1x4096 : Shape := ⟨3, ![1, 1, 4096]⟩

abbrev nBuf : Space → Nat
  | .hbm => 229
  | .vmem => 0
  | .smem => 0
  | _ => 0

abbrev hbmTy0_0 (i : Nat) : BufTy := match i % 128 with
  | 0 => ⟨S1x2048x1024, .f32⟩
  | 1 => ⟨S4096x1024, .f32⟩
  | 2 => ⟨S4096, .f32⟩
  | 3 => ⟨S8x8x1024, .f32⟩
  | 4 => ⟨S1x2048x8x8, .f32⟩
  | 5 => ⟨S_, .f32⟩
  | 6 => ⟨S1x2048x8x8, .f32⟩
  | 7 => ⟨S1x2048x8x8, .i1⟩
  | 8 => ⟨S8, .i32⟩
  | 9 => ⟨S_, .i32⟩
  | 10 => ⟨S_, .i32⟩
  | 11 => ⟨S_, .i1⟩
  | 12 => ⟨S_, .i32⟩
  | 13 => ⟨S8, .i32⟩
  | 14 => ⟨S8, .i1⟩
  | 15 => ⟨S8, .i1⟩
  | 16 => ⟨S8, .i1⟩
  | 17 => ⟨S_, .i32⟩
  | 18 => ⟨S_, .i32⟩
  | 19 => ⟨S8, .i32⟩
  | 20 => ⟨S8, .i32⟩
  | 21 => ⟨S8, .i32⟩
  | 22 => ⟨S_, .i32⟩
  | 23 => ⟨S8, .i32⟩
  | 24 => ⟨S8, .i32⟩
  | 25 => ⟨S_, .i32⟩
  | 26 => ⟨S8, .i32⟩
  | 27 => ⟨S8, .i32⟩
  | 28 => ⟨S_, .i32⟩
  | 29 => ⟨S8, .i32⟩
  | 30 => ⟨S8, .i1⟩
  | 31 => ⟨S8, .i32⟩
  | 32 => ⟨S_, .i32⟩
  | 33 => ⟨S_, .i32⟩
  | 34 => ⟨S_, .i32⟩
  | 35 => ⟨S_, .i32⟩
  | 36 => ⟨S8, .i32⟩
  | 37 => ⟨S8, .i32⟩
  | 38 => ⟨S_, .i32⟩
  | 39 => ⟨S8, .i32⟩
  | 40 => ⟨S8, .i32⟩
  | 41 => ⟨S8, .i32⟩
  | 42 => ⟨S8, .i32⟩
  | 43 => ⟨S_, .i32⟩
  | 44 => ⟨S8, .i32⟩
  | 45 => ⟨S8, .i1⟩
  | 46 => ⟨S8, .i32⟩
  | 47 => ⟨S_, .i32⟩
  | 48 => ⟨S_, .i32⟩
  | 49 => ⟨S8, .i32⟩
  | 50 => ⟨S8, .i32⟩
  | 51 => ⟨S_, .i32⟩
  | 52 => ⟨S8, .i32⟩
  | 53 => ⟨S8, .i32⟩
  | 54 => ⟨S8, .i32⟩
  | 55 => ⟨S8, .i32⟩
  | 56 => ⟨S_, .i32⟩
  | 57 => ⟨S8, .i32⟩
  | 58 => ⟨S8, .i1⟩
  | 59 => ⟨S8, .i32⟩
  | 60 => ⟨S_, .i32⟩
  | 61 => ⟨S_, .i32⟩
  | 62 => ⟨S8, .i32⟩
  | 63 => ⟨S8, .i32⟩
  | 64 => ⟨S_, .i32⟩
  | 65 => ⟨S8, .i32⟩
  | 66 => ⟨S8, .i32⟩
  | 67 => ⟨S8, .i32⟩
  | 68 => ⟨S8, .i32⟩
  | 69 => ⟨S_, .i32⟩
  | 70 => ⟨S8, .i32⟩
  | 71 => ⟨S8, .i1⟩
  | 72 => ⟨S8, .i32⟩
  | 73 => ⟨S_, .i32⟩
  | 74 => ⟨S_, .i32⟩
  | 75 => ⟨S8, .i32⟩
  | 76 => ⟨S8, .i32⟩
  | 77 => ⟨S_, .i32⟩
  | 78 => ⟨S8, .i32⟩
  | 79 => ⟨S8, .i32⟩
  | 80 => ⟨S8, .i32⟩
  | 81 => ⟨S8, .i32⟩
  | 82 => ⟨S_, .i32⟩
  | 83 => ⟨S8, .i32⟩
  | 84 => ⟨S8, .i1⟩
  | 85 => ⟨S8, .i32⟩
  | 86 => ⟨S_, .i32⟩
  | 87 => ⟨S_, .i32⟩
  | 88 => ⟨S8, .i32⟩
  | 89 => ⟨S8, .i32⟩
  | 90 => ⟨S_, .i32⟩
  | 91 => ⟨S8, .i32⟩
  | 92 => ⟨S8, .i32⟩
  | 93 => ⟨S8, .i32⟩
  | 94 => ⟨S8, .i32⟩
  | 95 => ⟨S_, .i32⟩
  | 96 => ⟨S8, .i32⟩
  | 97 => ⟨S8, .i1⟩
  | 98 => ⟨S8, .i32⟩
  | 99 => ⟨S_, .i32⟩
  | 100 => ⟨S_, .i32⟩
  | 101 => ⟨S8, .i32⟩
  | 102 => ⟨S8, .i32⟩
  | 103 => ⟨S1x2048x8x8, .i32⟩
  | 104 => ⟨S1x1x1x8, .i32⟩
  | 105 => ⟨S1x2048x8x8, .i32⟩
  | 106 => ⟨S1x2048x8x8, .i32⟩
  | 107 => ⟨S_, .i32⟩
  | 108 => ⟨S1x2048x8, .i32⟩
  | 109 => ⟨S4096x8x8, .f32⟩
  | 110 => ⟨S_, .f32⟩
  | 111 => ⟨S4096x8x8, .f32⟩
  | 112 => ⟨S4096x8x8, .i1⟩
  | 113 => ⟨S8, .i32⟩
  | 114 => ⟨S_, .i32⟩
  | 115 => ⟨S_, .i32⟩
  | 116 => ⟨S_, .i1⟩
  | 117 => ⟨S_, .i32⟩
  | 118 => ⟨S8, .i32⟩
  | 119 => ⟨S8, .i1⟩
  | 120 => ⟨S8, .i1⟩
  | 121 => ⟨S8, .i1⟩
  | 122 => ⟨S_, .i32⟩
  | 123 => ⟨S_, .i32⟩
  | 124 => ⟨S8, .i32⟩
  | 125 => ⟨S8, .i32⟩
  | 126 => ⟨S8, .i32⟩
  | 127 => ⟨S_, .i32⟩
  | _ => ⟨S1x2048x1024, .f32⟩

abbrev hbmTy0_1 (i : Nat) : BufTy := match i % 128 with
  | 0 => ⟨S8, .i32⟩
  | 1 => ⟨S8, .i32⟩
  | 2 => ⟨S_, .i32⟩
  | 3 => ⟨S8, .i32⟩
  | 4 => ⟨S8, .i32⟩
  | 5 => ⟨S_, .i32⟩
  | 6 => ⟨S8, .i32⟩
  | 7 => ⟨S8, .i1⟩
  | 8 => ⟨S8, .i32⟩
  | 9 => ⟨S_, .i32⟩
  | 10 => ⟨S_, .i32⟩
  | 11 => ⟨S_, .i32⟩
  | 12 => ⟨S_, .i32⟩
  | 13 => ⟨S8, .i32⟩
  | 14 => ⟨S8, .i32⟩
  | 15 => ⟨S_, .i32⟩
  | 16 => ⟨S8, .i32⟩
  | 17 => ⟨S8, .i32⟩
  | 18 => ⟨S8, .i32⟩
  | 19 => ⟨S8, .i32⟩
  | 20 => ⟨S_, .i32⟩
  | 21 => ⟨S8, .i32⟩
  | 22 => ⟨S8, .i1⟩
  | 23 => ⟨S8, .i32⟩
  | 24 => ⟨S_, .i32⟩
  | 25 => ⟨S_, .i32⟩
  | 26 => ⟨S8, .i32⟩
  | 27 => ⟨S8, .i32⟩
  | 28 => ⟨S_, .i32⟩
  | 29 => ⟨S8, .i32⟩
  | 30 => ⟨S8, .i32⟩
  | 31 => ⟨S8, .i32⟩
  | 32 => ⟨S8, .i32⟩
  | 33 => ⟨S_, .i32⟩
  | 34 => ⟨S8, .i32⟩
  | 35 => ⟨S8, .i1⟩
  | 36 => ⟨S8, .i32⟩
  | 37 => ⟨S_, .i32⟩
  | 38 => ⟨S_, .i32⟩
  | 39 => ⟨S8, .i32⟩
  | 40 => ⟨S8, .i32⟩
  | 41 => ⟨S_, .i32⟩
  | 42 => ⟨S8, .i32⟩
  | 43 => ⟨S8, .i32⟩
  | 44 => ⟨S8, .i32⟩
  | 45 => ⟨S8, .i32⟩
  | 46 => ⟨S_, .i32⟩
  | 47 => ⟨S8, .i32⟩
  | 48 => ⟨S8, .i1⟩
  | 49 => ⟨S8, .i32⟩
  | 50 => ⟨S_, .i32⟩
  | 51 => ⟨S_, .i32⟩
  | 52 => ⟨S8, .i32⟩
  | 53 => ⟨S8, .i32⟩
  | 54 => ⟨S_, .i32⟩
  | 55 => ⟨S8, .i32⟩
  | 56 => ⟨S8, .i32⟩
  | 57 => ⟨S8, .i32⟩
  | 58 => ⟨S8, .i32⟩
  | 59 => ⟨S_, .i32⟩
  | 60 => ⟨S8, .i32⟩
  | 61 => ⟨S8, .i1⟩
  | 62 => ⟨S8, .i32⟩
  | 63 => ⟨S_, .i32⟩
  | 64 => ⟨S_, .i32⟩
  | 65 => ⟨S8, .i32⟩
  | 66 => ⟨S8, .i32⟩
  | 67 => ⟨S_, .i32⟩
  | 68 => ⟨S8, .i32⟩
  | 69 => ⟨S8, .i32⟩
  | 70 => ⟨S8, .i32⟩
  | 71 => ⟨S8, .i32⟩
  | 72 => ⟨S_, .i32⟩
  | 73 => ⟨S8, .i32⟩
  | 74 => ⟨S8, .i1⟩
  | 75 => ⟨S8, .i32⟩
  | 76 => ⟨S_, .i32⟩
  | 77 => ⟨S_, .i32⟩
  | 78 => ⟨S8, .i32⟩
  | 79 => ⟨S8, .i32⟩
  | 80 => ⟨S4096x8x8, .i32⟩
  | 81 => ⟨S1x1x8, .i32⟩
  | 82 => ⟨S4096x8x8, .i32⟩
  | 83 => ⟨S4096x8x8, .i32⟩
  | 84 => ⟨S_, .i32⟩
  | 85 => ⟨S4096x8, .i32⟩
  | 86 => ⟨S1x2048x1x8, .i32⟩
  | 87 => ⟨S1x1x4096x8, .i32⟩
  | 88 => ⟨S1x2048x4096x8, .i32⟩
  | 89 => ⟨S1x2048x4096x8, .i32⟩
  | 90 => ⟨S1x2048x4096x8, .i1⟩
  | 91 => ⟨S_, .i1⟩
  | 92 => ⟨S1x2048x4096, .i1⟩
  | 93 => ⟨S1x2048x4096, .f32⟩
  | 94 => ⟨S1x1x4096, .f32⟩
  | 95 => ⟨S1x2048x4096, .f32⟩
  | 96 => ⟨S1x2048x4096, .f32⟩
  | 97 => ⟨S_, .f32⟩
  | 98 => ⟨S_, .f32⟩
  | 99 => ⟨S1x2048x4096, .f32⟩
  | 100 => ⟨S1x2048x4096, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_c_0 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_c_3 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_c_4 : Ref sig .tc := ⟨.hbm, 22, rfl⟩
abbrev main_v10 : Ref sig .tc := ⟨.hbm, 23, rfl⟩
abbrev main_v11 : Ref sig .tc := ⟨.hbm, 24, rfl⟩
abbrev main_c_5 : Ref sig .tc := ⟨.hbm, 25, rfl⟩
abbrev main_v12 : Ref sig .tc := ⟨.hbm, 26, rfl⟩
abbrev main_v13 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_c_6 : Ref sig .tc := ⟨.hbm, 32, rfl⟩
abbrev main_c_7 : Ref sig .tc := ⟨.hbm, 33, rfl⟩
abbrev main_v15 : Ref sig .tc := ⟨.hbm, 34, rfl⟩
abbrev main_c_8 : Ref sig .tc := ⟨.hbm, 35, rfl⟩
abbrev main_v16 : Ref sig .tc := ⟨.hbm, 36, rfl⟩
abbrev main_v17 : Ref sig .tc := ⟨.hbm, 37, rfl⟩
abbrev main_c_9 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_v22 : Ref sig .tc := ⟨.hbm, 46, rfl⟩
abbrev main_v23 : Ref sig .tc := ⟨.hbm, 47, rfl⟩
abbrev main_c_10 : Ref sig .tc := ⟨.hbm, 48, rfl⟩
abbrev main_v24 : Ref sig .tc := ⟨.hbm, 49, rfl⟩
abbrev main_v25 : Ref sig .tc := ⟨.hbm, 50, rfl⟩
abbrev main_c_11 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call3_c : Ref sig .tc := ⟨.hbm, 56, rfl⟩
abbrev main_call3_v0 : Ref sig .tc := ⟨.hbm, 57, rfl⟩
abbrev main_call3_v1 : Ref sig .tc := ⟨.hbm, 58, rfl⟩
abbrev main_v30 : Ref sig .tc := ⟨.hbm, 59, rfl⟩
abbrev main_v31 : Ref sig .tc := ⟨.hbm, 60, rfl⟩
abbrev main_c_12 : Ref sig .tc := ⟨.hbm, 61, rfl⟩
abbrev main_v32 : Ref sig .tc := ⟨.hbm, 62, rfl⟩
abbrev main_v33 : Ref sig .tc := ⟨.hbm, 63, rfl⟩
abbrev main_c_13 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_call4_c : Ref sig .tc := ⟨.hbm, 69, rfl⟩
abbrev main_call4_v0 : Ref sig .tc := ⟨.hbm, 70, rfl⟩
abbrev main_call4_v1 : Ref sig .tc := ⟨.hbm, 71, rfl⟩
abbrev main_v38 : Ref sig .tc := ⟨.hbm, 72, rfl⟩
abbrev main_v39 : Ref sig .tc := ⟨.hbm, 73, rfl⟩
abbrev main_c_14 : Ref sig .tc := ⟨.hbm, 74, rfl⟩
abbrev main_v40 : Ref sig .tc := ⟨.hbm, 75, rfl⟩
abbrev main_v41 : Ref sig .tc := ⟨.hbm, 76, rfl⟩
abbrev main_c_15 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_call5_c : Ref sig .tc := ⟨.hbm, 82, rfl⟩
abbrev main_call5_v0 : Ref sig .tc := ⟨.hbm, 83, rfl⟩
abbrev main_call5_v1 : Ref sig .tc := ⟨.hbm, 84, rfl⟩
abbrev main_v46 : Ref sig .tc := ⟨.hbm, 85, rfl⟩
abbrev main_v47 : Ref sig .tc := ⟨.hbm, 86, rfl⟩
abbrev main_c_16 : Ref sig .tc := ⟨.hbm, 87, rfl⟩
abbrev main_v48 : Ref sig .tc := ⟨.hbm, 88, rfl⟩
abbrev main_v49 : Ref sig .tc := ⟨.hbm, 89, rfl⟩
abbrev main_c_17 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_call6_c : Ref sig .tc := ⟨.hbm, 95, rfl⟩
abbrev main_call6_v0 : Ref sig .tc := ⟨.hbm, 96, rfl⟩
abbrev main_call6_v1 : Ref sig .tc := ⟨.hbm, 97, rfl⟩
abbrev main_v54 : Ref sig .tc := ⟨.hbm, 98, rfl⟩
abbrev main_v55 : Ref sig .tc := ⟨.hbm, 99, rfl⟩
abbrev main_c_18 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_19 : Ref sig .tc := ⟨.hbm, 107, rfl⟩
abbrev main_v62 : Ref sig .tc := ⟨.hbm, 108, rfl⟩
abbrev main_v63 : Ref sig .tc := ⟨.hbm, 109, rfl⟩
abbrev main_cst_20 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_c_21 : Ref sig .tc := ⟨.hbm, 114, rfl⟩
abbrev main_c_22 : Ref sig .tc := ⟨.hbm, 115, rfl⟩
abbrev main_v67 : Ref sig .tc := ⟨.hbm, 116, rfl⟩
abbrev main_c_23 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_24 : Ref sig .tc := ⟨.hbm, 122, rfl⟩
abbrev main_c_25 : Ref sig .tc := ⟨.hbm, 123, rfl⟩
abbrev main_call7_v0 : Ref sig .tc := ⟨.hbm, 124, rfl⟩
abbrev main_call7_v1 : Ref sig .tc := ⟨.hbm, 125, rfl⟩
abbrev main_v72 : Ref sig .tc := ⟨.hbm, 126, rfl⟩
abbrev main_c_26 : Ref sig .tc := ⟨.hbm, 127, rfl⟩
abbrev main_v73 : Ref sig .tc := ⟨.hbm, 128, rfl⟩
abbrev main_v74 : Ref sig .tc := ⟨.hbm, 129, rfl⟩
abbrev main_c_27 : Ref sig .tc := ⟨.hbm, 130, rfl⟩
abbrev main_v75 : Ref sig .tc := ⟨.hbm, 131, rfl⟩
abbrev main_v76 : Ref sig .tc := ⟨.hbm, 132, rfl⟩
abbrev main_call8_c : Ref sig .tc := ⟨.hbm, 133, rfl⟩
abbrev main_call8_v0 : Ref sig .tc := ⟨.hbm, 134, rfl⟩
abbrev main_call8_v1 : Ref sig .tc := ⟨.hbm, 135, rfl⟩
abbrev main_v77 : Ref sig .tc := ⟨.hbm, 136, rfl⟩
abbrev main_c_28 : Ref sig .tc := ⟨.hbm, 137, rfl⟩
abbrev main_c_29 : Ref sig .tc := ⟨.hbm, 138, rfl⟩
abbrev main_v78 : Ref sig .tc := ⟨.hbm, 139, rfl⟩
abbrev main_c_30 : Ref sig .tc := ⟨.hbm, 140, rfl⟩
abbrev main_v79 : Ref sig .tc := ⟨.hbm, 141, rfl⟩
abbrev main_v80 : Ref sig .tc := ⟨.hbm, 142, rfl⟩
abbrev main_c_31 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_call9_c : Ref sig .tc := ⟨.hbm, 148, rfl⟩
abbrev main_call9_v0 : Ref sig .tc := ⟨.hbm, 149, rfl⟩
abbrev main_call9_v1 : Ref sig .tc := ⟨.hbm, 150, rfl⟩
abbrev main_v85 : Ref sig .tc := ⟨.hbm, 151, rfl⟩
abbrev main_v86 : Ref sig .tc := ⟨.hbm, 152, rfl⟩
abbrev main_c_32 : Ref sig .tc := ⟨.hbm, 153, rfl⟩
abbrev main_v87 : Ref sig .tc := ⟨.hbm, 154, rfl⟩
abbrev main_v88 : Ref sig .tc := ⟨.hbm, 155, rfl⟩
abbrev main_c_33 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_call10_c : Ref sig .tc := ⟨.hbm, 161, rfl⟩
abbrev main_call10_v0 : Ref sig .tc := ⟨.hbm, 162, rfl⟩
abbrev main_call10_v1 : Ref sig .tc := ⟨.hbm, 163, rfl⟩
abbrev main_v93 : Ref sig .tc := ⟨.hbm, 164, rfl⟩
abbrev main_v94 : Ref sig .tc := ⟨.hbm, 165, rfl⟩
abbrev main_c_34 : Ref sig .tc := ⟨.hbm, 166, rfl⟩
abbrev main_v95 : Ref sig .tc := ⟨.hbm, 167, rfl⟩
abbrev main_v96 : Ref sig .tc := ⟨.hbm, 168, rfl⟩
abbrev main_c_35 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_call11_c : Ref sig .tc := ⟨.hbm, 174, rfl⟩
abbrev main_call11_v0 : Ref sig .tc := ⟨.hbm, 175, rfl⟩
abbrev main_call11_v1 : Ref sig .tc := ⟨.hbm, 176, rfl⟩
abbrev main_v101 : Ref sig .tc := ⟨.hbm, 177, rfl⟩
abbrev main_v102 : Ref sig .tc := ⟨.hbm, 178, rfl⟩
abbrev main_c_36 : Ref sig .tc := ⟨.hbm, 179, rfl⟩
abbrev main_v103 : Ref sig .tc := ⟨.hbm, 180, rfl⟩
abbrev main_v104 : Ref sig .tc := ⟨.hbm, 181, rfl⟩
abbrev main_c_37 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_call12_c : Ref sig .tc := ⟨.hbm, 187, rfl⟩
abbrev main_call12_v0 : Ref sig .tc := ⟨.hbm, 188, rfl⟩
abbrev main_call12_v1 : Ref sig .tc := ⟨.hbm, 189, rfl⟩
abbrev main_v109 : Ref sig .tc := ⟨.hbm, 190, rfl⟩
abbrev main_v110 : Ref sig .tc := ⟨.hbm, 191, rfl⟩
abbrev main_c_38 : Ref sig .tc := ⟨.hbm, 192, rfl⟩
abbrev main_v111 : Ref sig .tc := ⟨.hbm, 193, rfl⟩
abbrev main_v112 : Ref sig .tc := ⟨.hbm, 194, rfl⟩
abbrev main_c_39 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_call13_c : Ref sig .tc := ⟨.hbm, 200, rfl⟩
abbrev main_call13_v0 : Ref sig .tc := ⟨.hbm, 201, rfl⟩
abbrev main_call13_v1 : Ref sig .tc := ⟨.hbm, 202, rfl⟩
abbrev main_v117 : Ref sig .tc := ⟨.hbm, 203, rfl⟩
abbrev main_v118 : Ref sig .tc := ⟨.hbm, 204, rfl⟩
abbrev main_c_40 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_c_41 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_c_42 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_cst_43 : Ref sig .tc := ⟨.hbm, 225, rfl⟩
abbrev main_call14_v0 : Ref sig .tc := ⟨.hbm, 226, rfl⟩
abbrev main_call14_v1 : Ref sig .tc := ⟨.hbm, 227, rfl⟩
abbrev main_v136 : Ref sig .tc := ⟨.hbm, 228, rfl⟩

abbrev nD : Nat := 1
abbrev τ : Topo := Topo.v7x

variable {F : FTy → Type} [FloatOps F]

class Facts₀ : Prop where
  bcast_S_S1x2048x8x8 : S_.BroadcastsInDim S1x2048x8x8 (![] : Fin 0 → Fin S1x2048x8x8.rank)
  bcast_S_S8 : S_.BroadcastsInDim S8 (![] : Fin 0 → Fin S8.rank)
  natLt_1_32 : 1 < 32
  bcast_S8_S1x1x1x8_3 : S8.BroadcastsInDim S1x1x1x8 (![3] : Fin 1 → Fin S1x1x1x8.rank)
  bcast_S1x1x1x8_S1x2048x8x8_0_1_2_3 : S1x1x1x8.BroadcastsInDim S1x2048x8x8 (![0, 1, 2, 3] : Fin 4 → Fin S1x2048x8x8.rank)
  reducesTo_S1x2048x8x8_S1x2048x8_d3 : S1x2048x8x8.ReducesTo [3] S1x2048x8
  h_S_ : 0 < S_.numel
  bcast_S_S4096x8x8 : S_.BroadcastsInDim S4096x8x8 (![] : Fin 0 → Fin S4096x8x8.rank)
  bcast_S8_S1x1x8_2 : S8.BroadcastsInDim S1x1x8 (![2] : Fin 1 → Fin S1x1x8.rank)
  bcast_S1x1x8_S4096x8x8_0_1_2 : S1x1x8.BroadcastsInDim S4096x8x8 (![0, 1, 2] : Fin 3 → Fin S4096x8x8.rank)
  reducesTo_S4096x8x8_S4096x8_d2 : S4096x8x8.ReducesTo [2] S4096x8
  bcast_S1x2048x8_S1x2048x1x8_0_1_3 : S1x2048x8.BroadcastsInDim S1x2048x1x8 (![0, 1, 3] : Fin 3 → Fin S1x2048x1x8.rank)
  bcast_S4096x8_S1x1x4096x8_2_3 : S4096x8.BroadcastsInDim S1x1x4096x8 (![2, 3] : Fin 2 → Fin S1x1x4096x8.rank)
  bcast_S1x2048x1x8_S1x2048x4096x8_0_1_2_3 : S1x2048x1x8.BroadcastsInDim S1x2048x4096x8 (![0, 1, 2, 3] : Fin 4 → Fin S1x2048x4096x8.rank)
  bcast_S1x1x4096x8_S1x2048x4096x8_0_1_2_3 : S1x1x4096x8.BroadcastsInDim S1x2048x4096x8 (![0, 1, 2, 3] : Fin 4 → Fin S1x2048x4096x8.rank)
  reducesTo_S1x2048x4096x8_S1x2048x4096_d3 : S1x2048x4096x8.ReducesTo [3] S1x2048x4096
  bcast_S4096_S1x1x4096_2 : S4096.BroadcastsInDim S1x1x4096 (![2] : Fin 1 → Fin S1x1x4096.rank)
  bcast_S1x1x4096_S1x2048x4096_0_1_2 : S1x1x4096.BroadcastsInDim S1x2048x4096 (![0, 1, 2] : Fin 3 → Fin S1x2048x4096.rank)
  bcast_S_S1x2048x4096 : S_.BroadcastsInDim S1x2048x4096 (![] : Fin 0 → Fin S1x2048x4096.rank)
  dot_S1x2048x1024_S8x8x1024_S1x2048x8x8_2_2_01_01_n_n_wf : DotDims.WF S1x2048x1024 S8x8x1024 S1x2048x8x8 [2] [2] [0, 1] [0, 1] [] []
  dot_S4096x1024_S8x8x1024_S4096x8x8_1_2_0_01_n_n_wf : DotDims.WF S4096x1024 S8x8x1024 S4096x8x8 [1] [2] [0] [0, 1] [] []
  dot_S1x2048x1024_S4096x1024_S1x2048x4096_2_1_01_0_n_n_wf : DotDims.WF S1x2048x1024 S4096x1024 S1x2048x4096 [2] [1] [0, 1] [0] [] []

variable [Facts₀]

def dot_S1x2048x1024_S8x8x1024_S1x2048x8x8_2_2_01_01_n_n : DotDims S1x2048x1024 S8x8x1024 S1x2048x8x8 where
  lhsContracting := [2]
  rhsContracting := [2]
  lhsNonContracting := [0, 1]
  rhsNonContracting := [0, 1]
  lhsBatch := []
  rhsBatch := []
  wf := dot_S1x2048x1024_S8x8x1024_S1x2048x8x8_2_2_01_01_n_n_wf
def dot_S4096x1024_S8x8x1024_S4096x8x8_1_2_0_01_n_n : DotDims S4096x1024 S8x8x1024 S4096x8x8 where
  lhsContracting := [1]
  rhsContracting := [2]
  lhsNonContracting := [0]
  rhsNonContracting := [0, 1]
  lhsBatch := []
  rhsBatch := []
  wf := dot_S4096x1024_S8x8x1024_S4096x8x8_1_2_0_01_n_n_wf
def dot_S1x2048x1024_S4096x1024_S1x2048x4096_2_1_01_0_n_n : DotDims S1x2048x1024 S4096x1024 S1x2048x4096 where
  lhsContracting := [2]
  rhsContracting := [1]
  lhsNonContracting := [0, 1]
  rhsNonContracting := [0]
  lhsBatch := []
  rhsBatch := []
  wf := dot_S1x2048x1024_S4096x1024_S1x2048x4096_2_1_01_0_n_n_wf

class Facts : Prop extends Facts₀ where

variable [Facts]
-- ==== Proof.Spec.lean ====
/-
  The mathematics both programs compute, stated once over the extended reals, with no program in sight.

  A token row `x s` and a weight row `W o` are hashed by eight tables of eight signed random projections: table `t`
  gives the bucket number `code` = the sum of `2^h` over the hashes `h` whose projection is positive. The output
  element `(s, o)` is the inner product of the two rows plus the bias where the two rows fall in the same bucket in
  at least one table, and zero elsewhere (`G`).

  The second half states the same function the way a matrix unit computes it (`Gk`): the sign bits are floats 0/1,
  a bucket number is the product of the bit row with a packing matrix, each bucket number is expanded to a one-hot
  row of 256 entries per table, and the number of colliding tables is the product of the two one-hot matrices.
-/
import Idealize.ShloMosaic.PureOps.Ideal
import Idealize.ShloMosaic.Lib.ValueIdx

noncomputable section

open scoped BigOperators
open Idealize.ShloMosaic Idealize.ShloMosaic.ValueIdx

namespace Cert.Spec

/-- Index sets of the literal shapes. -/
abbrev I1 (n : Nat) : Type := (⟨1, ![n]⟩ : Shape).Idx
abbrev I2 (n0 n1 : Nat) : Type := (⟨2, ![n0, n1]⟩ : Shape).Idx
abbrev I3 (n0 n1 n2 : Nat) : Type := (⟨3, ![n0, n1, n2]⟩ : Shape).Idx

/-! ## The reference's form -/

/-- The bucket number of a sign pattern: bit `h` is set where `v h` is positive. -/
def code (v : Fin 8 → EReal) : ℕ := ∑ h : Fin 8, if 0 < v h then 2 ^ h.val else 0

/-- Token `s` projected on hash `h` of table `t`. -/
def projX (x : I3 1 2048 1024 → EReal) (p : I3 8 8 1024 → EReal) (s : Fin 2048) (t h : Fin 8) : EReal :=
  ∑ d : Fin 1024, x (ix3 0 s d) * p (ix3 t h d)

/-- Weight row `o` projected on hash `h` of table `t`. -/
def projW (W : I2 4096 1024 → EReal) (p : I3 8 8 1024 → EReal) (o : Fin 4096) (t h : Fin 8) : EReal :=
  ∑ d : Fin 1024, W (ix2 o d) * p (ix3 t h d)

/-- Token `s` and weight row `o` share a bucket in some table. -/
def hit (x : I3 1 2048 1024 → EReal) (W : I2 4096 1024 → EReal) (p : I3 8 8 1024 → EReal) (s : Fin 2048) (o : Fin 4096) : Prop :=
  ∃ t : Fin 8, code (projX x p s t) = code (projW W p o t)

/-- The dense layer's element: inner product plus bias. -/
def dense (x : I3 1 2048 1024 → EReal) (W : I2 4096 1024 → EReal) (b : I1 4096 → EReal) (s : Fin 2048) (o : Fin 4096) : EReal :=
  (∑ d : Fin 1024, x (ix3 0 s d) * W (ix2 o d)) + b (ix1 o)

open Classical in
/-- The result array: the dense element where the rows collide, zero elsewhere. -/
def G (x : I3 1 2048 1024 → EReal) (W : I2 4096 1024 → EReal) (b : I1 4096 → EReal) (p : I3 8 8 1024 → EReal) :
    I3 1 2048 4096 → EReal :=
  fun i => if hit x W p ⟨(i 1).val, (i 1).isLt⟩ ⟨(i 2).val, (i 2).isLt⟩
    then dense x W b ⟨(i 1).val, (i 1).isLt⟩ ⟨(i 2).val, (i 2).isLt⟩ else 0

/-! ## The matrix-unit form -/

open Classical in
/-- A sign bit as a float. -/
def bit01 (v : EReal) : EReal := if 0 < v then 1 else 0

/-- A bucket number as a float. -/
def iotaF (k : ℕ) : EReal := ((k : ℝ) : EReal)

/-- The packing matrix: row `8 t + h` has `2^h` in column `t` and zero elsewhere. -/
def pkv (j : Fin 64) (t : Fin 8) : EReal := if j.val / 8 = t.val then (((2 ^ (j.val % 8) : ℕ) : ℝ) : EReal) else 0

/-- The 64 projections of row `r` of a matrix against the 64 hash directions. -/
def proj2 {n : Nat} (a : I2 n 1024 → EReal) (p2 : I2 64 1024 → EReal) (r : Fin n) (j : Fin 64) : EReal :=
  ∑ d : Fin 1024, a (ix2 r d) * p2 (ix2 j d)

/-- Token bucket numbers as floats: the bit row times the packing matrix. -/
def codesK (x2 : I2 2048 1024 → EReal) (p2 : I2 64 1024 → EReal) (pk : I2 64 8 → EReal) (r : Fin 2048) (t : Fin 8) : EReal :=
  ∑ j : Fin 64, bit01 (proj2 x2 p2 r j) * pk (ix2 j t)

/-- Weight-row bucket numbers as floats, transposed: the transposed packing matrix times the bit rows. -/
def wctK (Wv : I2 4096 1024 → EReal) (p2 : I2 64 1024 → EReal) (pkt : I2 8 64 → EReal) (t : Fin 8) (o : Fin 4096) : EReal :=
  ∑ j : Fin 64, pkt (ix2 t j) * bit01 (proj2 Wv p2 o j)

open Classical in
/-- Token one-hot rows: column `256 t + k` is one where table `t`'s bucket number is `k`. -/
def xohK (x2 : I2 2048 1024 → EReal) (p2 : I2 64 1024 → EReal) (pk : I2 64 8 → EReal) : I2 2048 2048 → EReal :=
  fun y => if codesK x2 p2 pk ⟨(y 0).val, (y 0).isLt⟩ ⟨(y 1).val / 256, by have := (y 1).isLt; change _ < 2048 at this; omega⟩
      = iotaF ((y 1).val % 256) then 1 else 0

open Classical in
/-- Weight one-hot columns: row `256 t + k` is one where table `t`'s bucket number of the weight row is `k`. -/
def wohK (Wv : I2 4096 1024 → EReal) (p2 : I2 64 1024 → EReal) (pkt : I2 8 64 → EReal) : I2 2048 4096 → EReal :=
  fun y => if iotaF ((y 0).val % 256)
      = wctK Wv p2 pkt ⟨(y 0).val / 256, by have := (y 0).isLt; change _ < 2048 at this; omega⟩ ⟨(y 1).val, (y 1).isLt⟩ then 1 else 0

/-- The number of tables in which token `r` and weight row `o` collide, as the one-hot product. -/
def cntK (x2 : I2 2048 1024 → EReal) (Wv : I2 4096 1024 → EReal) (p2 : I2 64 1024 → EReal) (pk : I2 64 8 → EReal)
    (pkt : I2 8 64 → EReal) (r : Fin 2048) (o : Fin 4096) : EReal :=
  ∑ k : Fin 2048, xohK x2 p2 pk (ix2 r k) * wohK Wv p2 pkt (ix2 k o)

open Classical in
/-- The kernel's result as one function of its six operand arrays. -/
def Gk (x2 : I2 2048 1024 → EReal) (Wv : I2 4096 1024 → EReal) (b2 : I2 1 4096 → EReal) (p2 : I2 64 1024 → EReal)
    (pk : I2 64 8 → EReal) (pkt : I2 8 64 → EReal) : I2 2048 4096 → EReal :=
  fun y => if 0 < cntK x2 Wv p2 pk pkt ⟨(y 0).val, (y 0).isLt⟩ ⟨(y 1).val, (y 1).isLt⟩
    then (∑ d : Fin 1024, x2 (ix2 ⟨(y 0).val, (y 0).isLt⟩ d) * Wv (ix2 ⟨(y 1).val, (y 1).isLt⟩ d)) + b2 (ix2 0 ⟨(y 1).val, (y 1).isLt⟩)
    else 0

end Cert.Spec

end
-- ==== Proof.KSpec.lean ====
/-
  The kernel's block-level functions: what one grid point leaves in its output block, as a function of the point's
  operand blocks and of the two tables carried between points (the tokens in reduced precision, and their one-hot rows).
-/
import proofs.«163952_g61529701483102_cont_9to1_m_177_18_alg».proof.Proof.Spec

noncomputable section

open scoped BigOperators
open Idealize.ShloMosaic Idealize.ShloMosaic.ValueIdx

namespace Cert.Spec

open Classical in
/-- The one-hot columns of a block of 512 weight rows `w`: row `256 t + k` of column `q` is one where table `t`'s
    bucket number of weight row `q` (the transposed packing matrix `pkt` times the row's sign bits) is `k`. -/
def wohBlk (w : I2 512 1024 → EReal) (p2 : I2 64 1024 → EReal) (pkt : I2 8 64 → EReal) : I2 2048 512 → EReal :=
  fun y => if iotaF ((y 0).val % 256)
      = ∑ j : Fin 64, pkt (ix2 (⟨(y 0).val / 256, by have := (y 0).isLt; change _ < 2048 at this; omega⟩ : Fin 8) j)
          * bit01 (proj2 w p2 ⟨(y 1).val, (y 1).isLt⟩ j) then 1 else 0

open Classical in
/-- The output block of one grid point: for token `r` and the block's weight row `q`, the inner product of the
    carried token row `xs` with the weight row plus the bias where the carried one-hot row `oh` meets the block's
    one-hot column in some table, zero elsewhere. -/
def outBlk (w : I2 512 1024 → EReal) (bias : I2 1 512 → EReal) (p2 : I2 64 1024 → EReal) (pkt : I2 8 64 → EReal)
    (xs : I2 2048 1024 → EReal) (oh : I2 2048 2048 → EReal) : I2 2048 512 → EReal :=
  fun y => if 0 < ∑ k : Fin 2048, oh (ix2 ⟨(y 0).val, (y 0).isLt⟩ k) * wohBlk w p2 pkt (ix2 k ⟨(y 1).val, (y 1).isLt⟩)
    then (∑ d : Fin 1024, xs (ix2 ⟨(y 0).val, (y 0).isLt⟩ d) * w (ix2 ⟨(y 1).val, (y 1).isLt⟩ d)) + bias (ix2 0 ⟨(y 1).val, (y 1).isLt⟩)
    else 0

/-- A row of the weight block projects as the corresponding row of the whole weight matrix. -/
theorem proj2_blk (Wv : I2 4096 1024 → EReal) (p2 : I2 64 1024 → EReal) (t : Fin 8) (w : I2 512 1024 → EReal)
    (hw : ∀ (q : Fin 512) (d : Fin 1024), w (ix2 q d) = Wv (ix2 (⟨512 * t.val + q.val, by omega⟩ : Fin 4096) d))
    (q : Fin 512) (j : Fin 64) :
    proj2 w p2 q j = proj2 Wv p2 (⟨512 * t.val + q.val, by omega⟩ : Fin 4096) j := by
  unfold proj2
  exact Finset.sum_congr rfl fun d _ => by rw [hw]

/-- The one-hot columns of weight block `t` are columns `512 t + q` of the one-hot columns of all weight rows. -/
theorem wohBlk_eq (Wv : I2 4096 1024 → EReal) (p2 : I2 64 1024 → EReal) (pkt : I2 8 64 → EReal) (t : Fin 8)
    (w : I2 512 1024 → EReal)
    (hw : ∀ (q : Fin 512) (d : Fin 1024), w (ix2 q d) = Wv (ix2 (⟨512 * t.val + q.val, by omega⟩ : Fin 4096) d))
    (k : Fin 2048) (q : Fin 512) :
    wohBlk w p2 pkt (ix2 k q) = wohK Wv p2 pkt (ix2 k (⟨512 * t.val + q.val, by omega⟩ : Fin 4096)) := by
  classical
  unfold wohBlk wohK wctK
  refine if_congr ?_ rfl rfl
  show iotaF (k.val % 256) = ∑ j : Fin 64, pkt (ix2 (⟨k.val / 256, _⟩ : Fin 8) j) * bit01 (proj2 w p2 q j) ↔
    iotaF (k.val % 256)
      = ∑ j : Fin 64, pkt (ix2 (⟨k.val / 256, _⟩ : Fin 8) j) * bit01 (proj2 Wv p2 (⟨512 * t.val + q.val, _⟩ : Fin 4096) j)
  simp only [proj2_blk Wv p2 t w hw]

/-- Block `t` of the whole result is the block function of block `t` of the weights and of the bias. -/
theorem outBlk_eq_Gk (x2 : I2 2048 1024 → EReal) (Wv : I2 4096 1024 → EReal) (b2 : I2 1 4096 → EReal) (p2 : I2 64 1024 → EReal)
    (pk : I2 64 8 → EReal) (pkt : I2 8 64 → EReal) (t : Fin 8) (w : I2 512 1024 → EReal) (bias : I2 1 512 → EReal)
    (hw : ∀ (q : Fin 512) (d : Fin 1024), w (ix2 q d) = Wv (ix2 (⟨512 * t.val + q.val, by omega⟩ : Fin 4096) d))
    (hb : ∀ q : Fin 512, bias (ix2 0 q) = b2 (ix2 0 (⟨512 * t.val + q.val, by omega⟩ : Fin 4096)))
    (r : Fin 2048) (q : Fin 512) :
    outBlk w bias p2 pkt x2 (xohK x2 p2 pk) (ix2 r q) = Gk x2 Wv b2 p2 pk pkt (ix2 r (⟨512 * t.val + q.val, by omega⟩ : Fin 4096)) := by
  classical
  unfold outBlk Gk cntK
  refine if_congr ?_ ?_ rfl
  · show 0 < ∑ k : Fin 2048, xohK x2 p2 pk (ix2 r k) * wohBlk w p2 pkt (ix2 k q) ↔
      0 < ∑ k : Fin 2048, xohK x2 p2 pk (ix2 r k) * wohK Wv p2 pkt (ix2 k (⟨512 * t.val + q.val, _⟩ : Fin 4096))
    simp only [wohBlk_eq Wv p2 pkt t w hw]
  · show (∑ d : Fin 1024, x2 (ix2 r d) * w (ix2 q d)) + bias (ix2 0 q)
      = (∑ d : Fin 1024, x2 (ix2 r d) * Wv (ix2 (⟨512 * t.val + q.val, _⟩ : Fin 4096) d))
        + b2 (ix2 0 (⟨512 * t.val + q.val, _⟩ : Fin 4096))
    rw [hb]
    congr 1
    exact Finset.sum_congr rfl fun d _ => by rw [hw]

end Cert.Spec

end
-- ==== Proof.Prims.lean ====
/-
  The kernel's small operations read at one element, at the extended reals.

  A comparison gives one bit; widened to a word and converted to a float it is the real 0 or 1. So "projection
  positive" becomes the float sign bit `bit01`, "bucket number equals k" becomes a one-hot entry, and the column
  index converted to a float is the bucket number `iotaF`. The layout operations between them (take one column or
  one row, repeat it along the other axis) read through at an index.
-/
import proofs.«163952_g61529701483102_cont_9to1_m_177_18_alg».proof.Proof.Spec
import Idealize.ShloMosaic.Lib.Pipeline.Value
import Idealize.ShloMosaic.PureOps.Ideal.Laws
import Idealize.ShloMosaic.Lib.StableHlo.Predicate

noncomputable section

open scoped BigOperators
open Idealize.ShloMosaic Idealize.ShloMosaic.ValueIdx

namespace Cert.Prims

open Cert.Spec

/-- A one-bit word widened to 32 bits and read as a signed integer is 0 or 1. -/
theorem toInt_setWidth_ofBool (b : Bool) : ((BitVec.ofBool b).setWidth 32).toInt = if b then 1 else 0 := by
  cases b <;> decide

/-- The float of a widened comparison bit "v is positive" is the sign bit as a float. -/
theorem bit_val (v z : EReal) (hz : z = 0) :
    FloatOps.sitofp (F := Ideal) .f32 ((FloatOps.cmpf (F := Ideal) (φ := .f32) .ogt v z).setWidth 32) = bit01 v := by
  subst hz
  show (((((BitVec.ofBool (decide ((0 : EReal) < v))).setWidth 32).toInt : ℤ) : ℝ) : EReal) = bit01 v
  rw [toInt_setWidth_ofBool]
  unfold bit01
  by_cases h : (0 : EReal) < v <;> simp [h]

/-- The float of a widened comparison bit "a equals b" is a one-hot entry. -/
theorem onehot_val (a b : EReal) :
    FloatOps.sitofp (F := Ideal) .f32 ((FloatOps.cmpf (F := Ideal) (φ := .f32) .oeq a b).setWidth 32) = (open Classical in if a = b then (1 : EReal) else 0) := by
  show (((((BitVec.ofBool (decide (a = b))).setWidth 32).toInt : ℤ) : ℝ) : EReal) = _
  rw [toInt_setWidth_ofBool]
  by_cases h : a = b <;> simp [h]

/-- A small column index converted to a float is that number. -/
theorem iota_val (k : ℕ) (hk : k < 2 ^ 31) : FloatOps.sitofp (F := Ideal) .f32 (BitVec.ofNat 32 k) = iotaF k := by
  show ((((BitVec.ofNat 32 k).toInt : ℤ) : ℝ) : EReal) = ((k : ℝ) : EReal)
  rw [StableHlo.Predicate.toInt_ofNat_small k hk]
  simp

end Cert.Prims

end
-- ==== Proof.Payloads.lean ====
/-
  Every value the kernel body stores, read at one element, at the extended reals.

  The body's stored values are of five kinds: a change of float format (the identity here); the column index as a
  float; a bucket-number matrix (sign bits times the packing matrix); a one-hot tile (bucket number compared with
  the column, or row, index); and the masked dense tile (the inner products plus bias where the one-hot product is
  positive).
-/
import proofs.«163952_g61529701483102_cont_9to1_m_177_18_alg».proof.Proof.Gen.KernelIdeal.Skeleton
import proofs.«163952_g61529701483102_cont_9to1_m_177_18_alg».proof.Proof.Prims

noncomputable section

open scoped BigOperators
open Classical
open Idealize.ShloMosaic Idealize.ShloMosaic.ValueIdx

namespace Cert.KernelIdeal.Pay

open Cert.KernelIdeal Cert.KernelIdeal.Gen Cert.Spec Cert.Prims

/-! ## The operations at one element -/

/-! The operand indices of the product `S512x1024 · S64x1024 → S512x64`, coordinate by coordinate. -/
theorem lhs_A_0 (i : S512x64.Idx) (q : dot_S512x1024_S64x1024_S512x64_1_1_0_0_n_n.contr.Idx) : (dot_S512x1024_S64x1024_S512x64_1_1_0_0_n_n.lhsIdx i q 0).val = (i 0).val := by
  unfold DotDims.lhsIdx
  rw [dif_neg (show ¬(0 : Fin S512x1024.rank) ∈ dot_S512x1024_S64x1024_S512x64_1_1_0_0_n_n.lhsBatch by decide), dif_pos (show (0 : Fin S512x1024.rank) ∈ dot_S512x1024_S64x1024_S512x64_1_1_0_0_n_n.lhsNonContracting by decide)]
  rfl
theorem lhs_A_1 (i : S512x64.Idx) (q : dot_S512x1024_S64x1024_S512x64_1_1_0_0_n_n.contr.Idx) : (dot_S512x1024_S64x1024_S512x64_1_1_0_0_n_n.lhsIdx i q 1).val = (q ⟨0, by decide⟩).val :=
  dot_S512x1024_S64x1024_S512x64_1_1_0_0_n_n.lhsIdx_val_of_single rfl i q
theorem rhs_A_0 (i : S512x64.Idx) (q : dot_S512x1024_S64x1024_S512x64_1_1_0_0_n_n.contr.Idx) : (dot_S512x1024_S64x1024_S512x64_1_1_0_0_n_n.rhsIdx i q 0).val = (i 1).val := by
  unfold DotDims.rhsIdx
  rw [dif_neg (show ¬(0 : Fin S64x1024.rank) ∈ dot_S512x1024_S64x1024_S512x64_1_1_0_0_n_n.rhsBatch by decide), dif_pos (show (0 : Fin S64x1024.rank) ∈ dot_S512x1024_S64x1024_S512x64_1_1_0_0_n_n.rhsNonContracting by decide)]
  rfl
theorem rhs_A_1 (i : S512x64.Idx) (q : dot_S512x1024_S64x1024_S512x64_1_1_0_0_n_n.contr.Idx) : (dot_S512x1024_S64x1024_S512x64_1_1_0_0_n_n.rhsIdx i q 1).val = (q ⟨0, by decide⟩).val :=
  dot_S512x1024_S64x1024_S512x64_1_1_0_0_n_n.rhsIdx_val_of_single rfl i q

/-- The product into the zero accumulator, read at one element: the sum over the contracted axis. -/
theorem mm_A {φ₁ φ₂ : FTy} (prec : Option ContractPrecision) (lhs : FVec Ideal S512x1024 φ₁) (rhs : FVec Ideal S64x1024 φ₂) (r : Fin 512) (c : Fin 64) :
    matmul (F := Ideal) dot_S512x1024_S64x1024_S512x64_1_1_0_0_n_n prec lhs rhs (constant S512x64 .f32 0x00000000#32) (ix2 r c)
      = ∑ k : Fin 1024, (lhs (ix2 r k) : EReal) * (rhs (ix2 c k) : EReal) := by
  simp only [matmul]
  rw [Ideal.matmul_constant_zero_apply, ← Equiv.sum_comp (ValueIdx.contrEquiv1 dot_S512x1024_S64x1024_S512x64_1_1_0_0_n_n 1024 rfl rfl).symm]
  refine Finset.sum_congr rfl fun k _ => ?_
  have hk := ValueIdx.contrEquiv1_symm_val dot_S512x1024_S64x1024_S512x64_1_1_0_0_n_n 1024 rfl rfl k
  have el : dot_S512x1024_S64x1024_S512x64_1_1_0_0_n_n.lhsIdx (ix2 r c) ((ValueIdx.contrEquiv1 dot_S512x1024_S64x1024_S512x64_1_1_0_0_n_n 1024 rfl rfl).symm k) = ix2 r k := funext fun a => Fin.ext (by
    match a with
    | ⟨0, _⟩ => exact lhs_A_0 _ _
    | ⟨1, _⟩ => exact (lhs_A_1 _ _).trans hk)
  have er : dot_S512x1024_S64x1024_S512x64_1_1_0_0_n_n.rhsIdx (ix2 r c) ((ValueIdx.contrEquiv1 dot_S512x1024_S64x1024_S512x64_1_1_0_0_n_n 1024 rfl rfl).symm k) = ix2 c k := funext fun a => Fin.ext (by
    match a with
    | ⟨0, _⟩ => exact rhs_A_0 _ _
    | ⟨1, _⟩ => exact (rhs_A_1 _ _).trans hk)
  rw [el, er]

/-! The operand indices of the product `S512x64 · S64x8 → S512x8`, coordinate by coordinate. -/
theorem lhs_B_0 (i : S512x8.Idx) (q : dot_S512x64_S64x8_S512x8_1_0_0_1_n_n.contr.Idx) : (dot_S512x64_S64x8_S512x8_1_0_0_1_n_n.lhsIdx i q 0).val = (i 0).val := by
  unfold DotDims.lhsIdx
  rw [dif_neg (show ¬(0 : Fin S512x64.rank) ∈ dot_S512x64_S64x8_S512x8_1_0_0_1_n_n.lhsBatch by decide), dif_pos (show (0 : Fin S512x64.rank) ∈ dot_S512x64_S64x8_S512x8_1_0_0_1_n_n.lhsNonContracting by decide)]
  rfl
theorem lhs_B_1 (i : S512x8.Idx) (q : dot_S512x64_S64x8_S512x8_1_0_0_1_n_n.contr.Idx) : (dot_S512x64_S64x8_S512x8_1_0_0_1_n_n.lhsIdx i q 1).val = (q ⟨0, by decide⟩).val :=
  dot_S512x64_S64x8_S512x8_1_0_0_1_n_n.lhsIdx_val_of_single rfl i q
theorem rhs_B_1 (i : S512x8.Idx) (q : dot_S512x64_S64x8_S512x8_1_0_0_1_n_n.contr.Idx) : (dot_S512x64_S64x8_S512x8_1_0_0_1_n_n.rhsIdx i q 1).val = (i 1).val := by
  unfold DotDims.rhsIdx
  rw [dif_neg (show ¬(1 : Fin S64x8.rank) ∈ dot_S512x64_S64x8_S512x8_1_0_0_1_n_n.rhsBatch by decide), dif_pos (show (1 : Fin S64x8.rank) ∈ dot_S512x64_S64x8_S512x8_1_0_0_1_n_n.rhsNonContracting by decide)]
  rfl
theorem rhs_B_0 (i : S512x8.Idx) (q : dot_S512x64_S64x8_S512x8_1_0_0_1_n_n.contr.Idx) : (dot_S512x64_S64x8_S512x8_1_0_0_1_n_n.rhsIdx i q 0).val = (q ⟨0, by decide⟩).val :=
  dot_S512x64_S64x8_S512x8_1_0_0_1_n_n.rhsIdx_val_of_single rfl i q

/-- The product into the zero accumulator, read at one element: the sum over the contracted axis. -/
theorem mm_B {φ₁ φ₂ : FTy} (prec : Option ContractPrecision) (lhs : FVec Ideal S512x64 φ₁) (rhs : FVec Ideal S64x8 φ₂) (r : Fin 512) (c : Fin 8) :
    matmul (F := Ideal) dot_S512x64_S64x8_S512x8_1_0_0_1_n_n prec lhs rhs (constant S512x8 .f32 0x00000000#32) (ix2 r c)
      = ∑ k : Fin 64, (lhs (ix2 r k) : EReal) * (rhs (ix2 k c) : EReal) := by
  simp only [matmul]
  rw [Ideal.matmul_constant_zero_apply, ← Equiv.sum_comp (ValueIdx.contrEquiv1 dot_S512x64_S64x8_S512x8_1_0_0_1_n_n 64 rfl rfl).symm]
  refine Finset.sum_congr rfl fun k _ => ?_
  have hk := ValueIdx.contrEquiv1_symm_val dot_S512x64_S64x8_S512x8_1_0_0_1_n_n 64 rfl rfl k
  have el : dot_S512x64_S64x8_S512x8_1_0_0_1_n_n.lhsIdx (ix2 r c) ((ValueIdx.contrEquiv1 dot_S512x64_S64x8_S512x8_1_0_0_1_n_n 64 rfl rfl).symm k) = ix2 r k := funext fun a => Fin.ext (by
    match a with
    | ⟨0, _⟩ => exact lhs_B_0 _ _
    | ⟨1, _⟩ => exact (lhs_B_1 _ _).trans hk)
  have er : dot_S512x64_S64x8_S512x8_1_0_0_1_n_n.rhsIdx (ix2 r c) ((ValueIdx.contrEquiv1 dot_S512x64_S64x8_S512x8_1_0_0_1_n_n 64 rfl rfl).symm k) = ix2 k c := funext fun a => Fin.ext (by
    match a with
    | ⟨1, _⟩ => exact rhs_B_1 _ _
    | ⟨0, _⟩ => exact (rhs_B_0 _ _).trans hk)
  rw [el, er]

/-! The operand indices of the product `S8x64 · S512x64 → S8x512`, coordinate by coordinate. -/
theorem lhs_C_0 (i : S8x512.Idx) (q : dot_S8x64_S512x64_S8x512_1_1_0_0_n_n.contr.Idx) : (dot_S8x64_S512x64_S8x512_1_1_0_0_n_n.lhsIdx i q 0).val = (i 0).val := by
  unfold DotDims.lhsIdx
  rw [dif_neg (show ¬(0 : Fin S8x64.rank) ∈ dot_S8x64_S512x64_S8x512_1_1_0_0_n_n.lhsBatch by decide), dif_pos (show (0 : Fin S8x64.rank) ∈ dot_S8x64_S512x64_S8x512_1_1_0_0_n_n.lhsNonContracting by decide)]
  rfl
theorem lhs_C_1 (i : S8x512.Idx) (q : dot_S8x64_S512x64_S8x512_1_1_0_0_n_n.contr.Idx) : (dot_S8x64_S512x64_S8x512_1_1_0_0_n_n.lhsIdx i q 1).val = (q ⟨0, by decide⟩).val :=
  dot_S8x64_S512x64_S8x512_1_1_0_0_n_n.lhsIdx_val_of_single rfl i q
theorem rhs_C_0 (i : S8x512.Idx) (q : dot_S8x64_S512x64_S8x512_1_1_0_0_n_n.contr.Idx) : (dot_S8x64_S512x64_S8x512_1_1_0_0_n_n.rhsIdx i q 0).val = (i 1).val := by
  unfold DotDims.rhsIdx
  rw [dif_neg (show ¬(0 : Fin S512x64.rank) ∈ dot_S8x64_S512x64_S8x512_1_1_0_0_n_n.rhsBatch by decide), dif_pos (show (0 : Fin S512x64.rank) ∈ dot_S8x64_S512x64_S8x512_1_1_0_0_n_n.rhsNonContracting by decide)]
  rfl
theorem rhs_C_1 (i : S8x512.Idx) (q : dot_S8x64_S512x64_S8x512_1_1_0_0_n_n.contr.Idx) : (dot_S8x64_S512x64_S8x512_1_1_0_0_n_n.rhsIdx i q 1).val = (q ⟨0, by decide⟩).val :=
  dot_S8x64_S512x64_S8x512_1_1_0_0_n_n.rhsIdx_val_of_single rfl i q

/-- The product into the zero accumulator, read at one element: the sum over the contracted axis. -/
theorem mm_C {φ₁ φ₂ : FTy} (prec : Option ContractPrecision) (lhs : FVec Ideal S8x64 φ₁) (rhs : FVec Ideal S512x64 φ₂) (r : Fin 8) (c : Fin 512) :
    matmul (F := Ideal) dot_S8x64_S512x64_S8x512_1_1_0_0_n_n prec lhs rhs (constant S8x512 .f32 0x00000000#32) (ix2 r c)
      = ∑ k : Fin 64, (lhs (ix2 r k) : EReal) * (rhs (ix2 c k) : EReal) := by
  simp only [matmul]
  rw [Ideal.matmul_constant_zero_apply, ← Equiv.sum_comp (ValueIdx.contrEquiv1 dot_S8x64_S512x64_S8x512_1_1_0_0_n_n 64 rfl rfl).symm]
  refine Finset.sum_congr rfl fun k _ => ?_
  have hk := ValueIdx.contrEquiv1_symm_val dot_S8x64_S512x64_S8x512_1_1_0_0_n_n 64 rfl rfl k
  have el : dot_S8x64_S512x64_S8x512_1_1_0_0_n_n.lhsIdx (ix2 r c) ((ValueIdx.contrEquiv1 dot_S8x64_S512x64_S8x512_1_1_0_0_n_n 64 rfl rfl).symm k) = ix2 r k := funext fun a => Fin.ext (by
    match a with
    | ⟨0, _⟩ => exact lhs_C_0 _ _
    | ⟨1, _⟩ => exact (lhs_C_1 _ _).trans hk)
  have er : dot_S8x64_S512x64_S8x512_1_1_0_0_n_n.rhsIdx (ix2 r c) ((ValueIdx.contrEquiv1 dot_S8x64_S512x64_S8x512_1_1_0_0_n_n 64 rfl rfl).symm k) = ix2 c k := funext fun a => Fin.ext (by
    match a with
    | ⟨0, _⟩ => exact rhs_C_0 _ _
    | ⟨1, _⟩ => exact (rhs_C_1 _ _).trans hk)
  rw [el, er]

/-- The float of the widened comparison "positive" against the zero splat is the sign bit, at every element. -/
theorem signbit_at {s : Shape} (a : FVec Ideal s .f32) (h : 1 < 32) (i : s.Idx) :
    (sitofp (F := Ideal) .f32 (extui 32 (cmpf .ogt a (broadcast s (Scalar.ofBits (F := Ideal) .f32 0x00000000#32))) h) : FVec Ideal s .f32) i
      = bit01 (a i) :=
  bit_val _ _ Ideal.ofBits_zero_f32

/-- A one-hot tile by columns: column `c` of `x`, repeated along the row, compared for equality with `y`. -/
theorem onehot_col_at (x : FVec Ideal S512x8 .f32) (y : FVec Ideal S512x256 .f32) (c : Fin 8) (off : Fin 2 → ℕ)
    (hoff0 : off 0 = 0) (hoff1 : off 1 = c.val) (hs : S512x8.Slices off S512x1) (hb : S512x1.Broadcasts S512x256)
    (h132 : 1 < 32) (hbits : FTy.bf16.bits < FTy.f32.bits) (r : Fin 512) (k : Fin 256) :
    (truncf (F := Ideal) .bf16 (sitofp (F := Ideal) .f32 (extui 32 (cmpf .oeq (broadcastTo S512x256 (extractStridedSlice S512x1 off x hs) hb) y) h132)) hbits
        : FVec Ideal S512x256 .bf16) (ix2 r k)
      = if (x (ix2 r c) : EReal) = (y (ix2 r k) : EReal) then 1 else 0 := by
  show FloatOps.sitofp (F := Ideal) .f32 ((FloatOps.cmpf (F := Ideal) (φ := .f32) .oeq
      (broadcastTo S512x256 (extractStridedSlice S512x1 off x hs) hb (ix2 r k)) (y (ix2 r k))).setWidth 32) = _
  rw [onehot_val,
    broadcastTo_apply _ hb (ix2 r k) (ix2 r (0 : Fin 1)) (fun a => match a with
      | ⟨0, _⟩ => by show r.val = if (512 : Nat) = 1 then 0 else r.val; rw [if_neg (by decide)]
      | ⟨1, _⟩ => by show 0 = if (1 : Nat) = 1 then 0 else k.val; rw [if_pos rfl]),
    extractStridedSlice_apply off x hs (ix2 r (0 : Fin 1)) (ix2 r c) (fun a => match a with
      | ⟨0, _⟩ => by show r.val = off 0 + r.val; omega
      | ⟨1, _⟩ => by show c.val = off 1 + 0; omega)]

/-- A one-hot tile by rows: `y` compared for equality with row `c` of `x`, repeated along the column. -/
theorem onehot_row_at (x : FVec Ideal S8x512 .f32) (y : FVec Ideal S256x512 .f32) (c : Fin 8) (off : Fin 2 → ℕ)
    (hoff0 : off 0 = c.val) (hoff1 : off 1 = 0) (hs : S8x512.Slices off S1x512) (hb : S1x512.Broadcasts S256x512)
    (h132 : 1 < 32) (hbits : FTy.bf16.bits < FTy.f32.bits) (k : Fin 256) (q : Fin 512) :
    (truncf (F := Ideal) .bf16 (sitofp (F := Ideal) .f32 (extui 32 (cmpf .oeq y (broadcastTo S256x512 (extractStridedSlice S1x512 off x hs) hb)) h132)) hbits
        : FVec Ideal S256x512 .bf16) (ix2 k q)
      = if (y (ix2 k q) : EReal) = (x (ix2 c q) : EReal) then 1 else 0 := by
  show FloatOps.sitofp (F := Ideal) .f32 ((FloatOps.cmpf (F := Ideal) (φ := .f32) .oeq (y (ix2 k q))
      (broadcastTo S256x512 (extractStridedSlice S1x512 off x hs) hb (ix2 k q))).setWidth 32) = _
  rw [onehot_val,
    broadcastTo_apply _ hb (ix2 k q) (ix2 (0 : Fin 1) q) (fun a => match a with
      | ⟨0, _⟩ => by show 0 = if (1 : Nat) = 1 then 0 else k.val; rw [if_pos rfl]
      | ⟨1, _⟩ => by show q.val = if (512 : Nat) = 1 then 0 else q.val; rw [if_neg (by decide)]),
    extractStridedSlice_apply off x hs (ix2 (0 : Fin 1) q) (ix2 c q) (fun a => match a with
      | ⟨0, _⟩ => by show c.val = off 0 + 0; omega
      | ⟨1, _⟩ => by show q.val = off 1 + q.val; omega)]

/-! The operand indices of the product `S512x1024 · S512x1024 → S512x512`, coordinate by coordinate. -/
theorem lhs_D_0 (i : S512x512.Idx) (q : dot_S512x1024_S512x1024_S512x512_1_1_0_0_n_n.contr.Idx) : (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_D_1 (i : S512x512.Idx) (q : dot_S512x1024_S512x1024_S512x512_1_1_0_0_n_n.contr.Idx) : (dot_S512x1024_S512x1024_S512x512_1_1_0_0_n_n.lhsIdx i q 1).val = (q ⟨0, by decide⟩).val :=
  dot_S512x1024_S512x1024_S512x512_1_1_0_0_n_n.lhsIdx_val_of_single rfl i q
theorem rhs_D_0 (i : S512x512.Idx) (q : dot_S512x1024_S512x1024_S512x512_1_1_0_0_n_n.contr.Idx) : (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_D_1 (i : S512x512.Idx) (q : dot_S512x1024_S512x1024_S512x512_1_1_0_0_n_n.contr.Idx) : (dot_S512x1024_S512x1024_S512x512_1_1_0_0_n_n.rhsIdx i q 1).val = (q ⟨0, by decide⟩).val :=
  dot_S512x1024_S512x1024_S512x512_1_1_0_0_n_n.rhsIdx_val_of_single rfl i q

/-- The product into the zero accumulator, read at one element: the sum over the contracted axis. -/
theorem mm_D {φ₁ φ₂ : FTy} (prec : Option ContractPrecision) (lhs : FVec Ideal S512x1024 φ₁) (rhs : FVec Ideal S512x1024 φ₂) (r : Fin 512) (c : Fin 512) :
    matmul (F := Ideal) dot_S512x1024_S512x1024_S512x512_1_1_0_0_n_n prec lhs rhs (constant S512x512 .f32 0x00000000#32) (ix2 r c)
      = ∑ k : Fin 1024, (lhs (ix2 r k) : EReal) * (rhs (ix2 c k) : EReal) := by
  simp only [matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 r c) ((ValueIdx.contrEquiv1 dot_S512x1024_S512x1024_S512x512_1_1_0_0_n_n 1024 rfl rfl).symm k) = ix2 r k := funext fun a => Fin.ext (by
    match a with
    | ⟨0, _⟩ => exact lhs_D_0 _ _
    | ⟨1, _⟩ => exact (lhs_D_1 _ _).trans hk)
  have er : dot_S512x1024_S512x1024_S512x512_1_1_0_0_n_n.rhsIdx (ix2 r c) ((ValueIdx.contrEquiv1 dot_S512x1024_S512x1024_S512x512_1_1_0_0_n_n 1024 rfl rfl).symm k) = ix2 c k := funext fun a => Fin.ext (by
    match a with
    | ⟨0, _⟩ => exact rhs_D_0 _ _
    | ⟨1, _⟩ => exact (rhs_D_1 _ _).trans hk)
  rw [el, er]

/-! The operand indices of the product `S512x2048 · S2048x512 → S512x512`, coordinate by coordinate. -/
theorem lhs_E_0 (i : S512x512.Idx) (q : dot_S512x2048_S2048x512_S512x512_1_0_0_1_n_n.contr.Idx) : (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_E_1 (i : S512x512.Idx) (q : dot_S512x2048_S2048x512_S512x512_1_0_0_1_n_n.contr.Idx) : (dot_S512x2048_S2048x512_S512x512_1_0_0_1_n_n.lhsIdx i q 1).val = (q ⟨0, by decide⟩).val :=
  dot_S512x2048_S2048x512_S512x512_1_0_0_1_n_n.lhsIdx_val_of_single rfl i q
theorem rhs_E_1 (i : S512x512.Idx) (q : dot_S512x2048_S2048x512_S512x512_1_0_0_1_n_n.contr.Idx) : (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl
theorem rhs_E_0 (i : S512x512.Idx) (q : dot_S512x2048_S2048x512_S512x512_1_0_0_1_n_n.contr.Idx) : (dot_S512x2048_S2048x512_S512x512_1_0_0_1_n_n.rhsIdx i q 0).val = (q ⟨0, by decide⟩).val :=
  dot_S512x2048_S2048x512_S512x512_1_0_0_1_n_n.rhsIdx_val_of_single rfl i q

/-- The product into the zero accumulator, read at one element: the sum over the contracted axis. -/
theorem mm_E {φ₁ φ₂ : FTy} (prec : Option ContractPrecision) (lhs : FVec Ideal S512x2048 φ₁) (rhs : FVec Ideal S2048x512 φ₂) (r : Fin 512) (c : Fin 512) :
    matmul (F := Ideal) dot_S512x2048_S2048x512_S512x512_1_0_0_1_n_n prec lhs rhs (constant S512x512 .f32 0x00000000#32) (ix2 r c)
      = ∑ k : Fin 2048, (lhs (ix2 r k) : EReal) * (rhs (ix2 k c) : EReal) := by
  simp only [matmul]
  rw [Ideal.matmul_constant_zero_apply, ← Equiv.sum_comp (ValueIdx.contrEquiv1 dot_S512x2048_S2048x512_S512x512_1_0_0_1_n_n 2048 rfl rfl).symm]
  refine Finset.sum_congr rfl fun k _ => ?_
  have hk := ValueIdx.contrEquiv1_symm_val dot_S512x2048_S2048x512_S512x512_1_0_0_1_n_n 2048 rfl rfl k
  have el : dot_S512x2048_S2048x512_S512x512_1_0_0_1_n_n.lhsIdx (ix2 r c) ((ValueIdx.contrEquiv1 dot_S512x2048_S2048x512_S512x512_1_0_0_1_n_n 2048 rfl rfl).symm k) = ix2 r k := funext fun a => Fin.ext (by
    match a with
    | ⟨0, _⟩ => exact lhs_E_0 _ _
    | ⟨1, _⟩ => exact (lhs_E_1 _ _).trans hk)
  have er : dot_S512x2048_S2048x512_S512x512_1_0_0_1_n_n.rhsIdx (ix2 r c) ((ValueIdx.contrEquiv1 dot_S512x2048_S2048x512_S512x512_1_0_0_1_n_n 2048 rfl rfl).symm k) = ix2 k c := funext fun a => Fin.ext (by
    match a with
    | ⟨1, _⟩ => exact rhs_E_1 _ _
    | ⟨0, _⟩ => exact (rhs_E_0 _ _).trans hk)
  rw [el, er]

/-- A select on the comparison bit "positive" is the `if`. -/
theorem select_ogt_zero (v a b : EReal) :
    Scalar.select (FloatOps.cmpf (F := Ideal) (φ := .f32) .ogt v (0 : EReal)) a b = if (0 : EReal) < v then a else b := by
  show Scalar.select (BitVec.ofBool (decide ((0 : EReal) < v))) a b = _
  by_cases h : (0 : EReal) < v
  · rw [if_pos h, decide_eq_true h]
    exact select_one a b
  · rw [if_neg h, decide_eq_false h]
    exact select_zero a b

/-- The masked dense tile at one element: the inner product plus the bias where the one-hot product is positive. -/
theorem masked_dense_at (w : FVec Ideal S512x1024 .bf16) (bias : FVec Ideal S1x512 .f32) (woh : FVec Ideal S2048x512 .bf16)
    (xs : FVec Ideal S512x1024 .bf16) (oh : FVec Ideal S512x2048 .bf16) (hb : S1x512.Broadcasts S512x512) (r q : Fin 512) :
    (select (cmpf .ogt (matmul (F := Ideal) dot_S512x2048_S2048x512_S512x512_1_0_0_1_n_n none oh woh (constant S512x512 .f32 0x00000000#32))
          (broadcast S512x512 (Scalar.ofBits (F := Ideal) .f32 0x00000000#32)))
        (addf (matmul (F := Ideal) dot_S512x1024_S512x1024_S512x512_1_1_0_0_n_n none xs w (constant S512x512 .f32 0x00000000#32))
          (broadcastTo S512x512 bias hb))
        (broadcast S512x512 (Scalar.ofBits (F := Ideal) .f32 0x00000000#32)) : FVec Ideal S512x512 .f32) (ix2 r q)
      = if (0 : EReal) < ∑ k : Fin 2048, (oh (ix2 r k) : EReal) * (woh (ix2 k q) : EReal)
        then (∑ d : Fin 1024, (xs (ix2 r d) : EReal) * (w (ix2 q d) : EReal)) + (bias (ix2 0 q) : EReal) else 0 := by
  show Scalar.select (FloatOps.cmpf (F := Ideal) (φ := .f32) .ogt
        (matmul (F := Ideal) dot_S512x2048_S2048x512_S512x512_1_0_0_1_n_n none oh woh (constant S512x512 .f32 0x00000000#32) (ix2 r q))
        (Ideal.ofBits .f32 0x00000000#32))
      ((matmul (F := Ideal) dot_S512x1024_S512x1024_S512x512_1_1_0_0_n_n none xs w (constant S512x512 .f32 0x00000000#32) (ix2 r q) : EReal)
        + (broadcastTo S512x512 bias hb (ix2 r q) : EReal))
      (Ideal.ofBits .f32 0x00000000#32) = _
  rw [mm_E, mm_D, Ideal.ofBits_zero_f32, select_ogt_zero,
    broadcastTo_apply bias hb (ix2 r q) (ix2 (0 : Fin 1) q) (fun a => match a with
      | ⟨0, _⟩ => by show 0 = if (1 : Nat) = 1 then 0 else r.val; rw [if_pos rfl]
      | ⟨1, _⟩ => by show q.val = if (512 : Nat) = 1 then 0 else q.val; rw [if_neg (by decide)])]

/-! ## The stored values -/

theorem pay1_at (v7 : FVec Ideal S512x1024 .bf16) (v90 : FVec Ideal S1x512 .f32) (v91 : Vec Ideal S2048x512 .bf16) (v114 : Vec Ideal S512x1024 .bf16) (v118 : Vec Ideal S512x2048 .bf16) (r q : Fin 512) :
    (k0_pay1 (F := Ideal) v7 v90 v91 v114 v118 (ix2 r q) : EReal) = if (0 : EReal) < ∑ k : Fin 2048, (v118 (ix2 r k) : EReal) * (v91 (ix2 k q) : EReal)
      then (∑ d : Fin 1024, (v114 (ix2 r d) : EReal) * (v7 (ix2 q d) : EReal)) + (v90 (ix2 0 q) : EReal) else 0 := by
  unfold k0_pay1
  exact masked_dense_at v7 v90 v91 v114 v118 _ r q

theorem pay2_at (v7 : FVec Ideal S512x1024 .bf16) (v90 : FVec Ideal S1x512 .f32) (v91 : Vec Ideal S2048x512 .bf16) (v125 : Vec Ideal S512x1024 .bf16) (v129 : Vec Ideal S512x2048 .bf16) (r q : Fin 512) :
    (k0_pay2 (F := Ideal) v7 v90 v91 v125 v129 (ix2 r q) : EReal) = if (0 : EReal) < ∑ k : Fin 2048, (v129 (ix2 r k) : EReal) * (v91 (ix2 k q) : EReal)
      then (∑ d : Fin 1024, (v125 (ix2 r d) : EReal) * (v7 (ix2 q d) : EReal)) + (v90 (ix2 0 q) : EReal) else 0 := by
  unfold k0_pay2
  exact masked_dense_at v7 v90 v91 v125 v129 _ r q

theorem pay3_at (v136 : Vec Ideal S512x1024 .f32) (y : S512x1024.Idx) : (k0_pay3 (F := Ideal) v136 y : EReal) = (v136 y : EReal) := by
  unfold k0_pay3
  simp only [shapeCast_self]
  rfl

theorem pay4_at (v136 : Vec Ideal S512x1024 .f32) (y : S512x1024.Idx) : (k0_pay4 (F := Ideal) v136 y : EReal) = (v136 y : EReal) := by
  unfold k0_pay4
  simp only [shapeCast_self]
  exact pay3_at v136 y

theorem pay5_at (v2 : FVec Ideal S64x1024 .bf16) (v136 : Vec Ideal S512x1024 .f32) (v147 : Vec Ideal S64x8 .f32) (r : Fin 512) (t : Fin 8) :
    (k0_pay5 (F := Ideal) v2 v136 v147 (ix2 r t) : EReal) = ∑ j : Fin 64, bit01 (proj2 v136 v2 r j) * (v147 (ix2 j t) : EReal) := by
  unfold k0_pay5
  simp only [mm_B, signbit_at, mm_A, pay3_at]
  rfl

theorem pay6_at (r : Fin 512) (k : Fin 256) : (k0_pay6 (F := Ideal) (ix2 r k) : EReal) = iotaF k.val := by
  unfold k0_pay6
  show FloatOps.sitofp (F := Ideal) .f32 (iota .tc S512x256 32 [1] iota_S512x256_d1_w32 (ix2 r k)) = iotaF k.val
  rw [iota_single_apply]
  exact iota_val k.val (by omega)

theorem pay7_at (v2 : FVec Ideal S64x1024 .bf16) (v136 : Vec Ideal S512x1024 .f32) (v147 : Vec Ideal S64x8 .f32) (r : Fin 512) (k : Fin 256) :
    (k0_pay7 (F := Ideal) v2 v136 v147 (ix2 r k) : EReal) = if (k0_pay5 (F := Ideal) v2 v136 v147 (ix2 r (0 : Fin 8)) : EReal) = (k0_pay6 (F := Ideal) (ix2 r k) : EReal) then 1 else 0 := by
  unfold k0_pay7
  simp only [shapeCast_self]
  exact onehot_col_at (k0_pay5 v2 v136 v147) k0_pay6 (0 : Fin 8) _ rfl rfl _ _ _ _ r k

theorem pay8_at (v2 : FVec Ideal S64x1024 .bf16) (v136 : Vec Ideal S512x1024 .f32) (v147 : Vec Ideal S64x8 .f32) (r : Fin 512) (k : Fin 256) :
    (k0_pay8 (F := Ideal) v2 v136 v147 (ix2 r k) : EReal) = if (k0_pay5 (F := Ideal) v2 v136 v147 (ix2 r (1 : Fin 8)) : EReal) = (k0_pay6 (F := Ideal) (ix2 r k) : EReal) then 1 else 0 := by
  unfold k0_pay8
  simp only [shapeCast_self]
  exact onehot_col_at (k0_pay5 v2 v136 v147) k0_pay6 (1 : Fin 8) _ rfl rfl _ _ _ _ r k

theorem pay9_at (v2 : FVec Ideal S64x1024 .bf16) (v136 : Vec Ideal S512x1024 .f32) (v147 : Vec Ideal S64x8 .f32) (r : Fin 512) (k : Fin 256) :
    (k0_pay9 (F := Ideal) v2 v136 v147 (ix2 r k) : EReal) = if (k0_pay5 (F := Ideal) v2 v136 v147 (ix2 r (2 : Fin 8)) : EReal) = (k0_pay6 (F := Ideal) (ix2 r k) : EReal) then 1 else 0 := by
  unfold k0_pay9
  simp only [shapeCast_self]
  exact onehot_col_at (k0_pay5 v2 v136 v147) k0_pay6 (2 : Fin 8) _ rfl rfl _ _ _ _ r k

theorem pay10_at (v148 : FVec Ideal S512x8 .f32) (v150 : FVec Ideal S512x256 .f32) (r : Fin 512) (k : Fin 256) :
    (k0_pay10 (F := Ideal) v148 v150 (ix2 r k) : EReal) = if (v148 (ix2 r (3 : Fin 8)) : EReal) = (v150 (ix2 r k) : EReal) then 1 else 0 := by
  unfold k0_pay10
  simp only [shapeCast_self]
  exact onehot_col_at v148 v150 (3 : Fin 8) _ rfl rfl _ _ _ _ r k

theorem pay11_at (v148 : FVec Ideal S512x8 .f32) (v150 : FVec Ideal S512x256 .f32) (r : Fin 512) (k : Fin 256) :
    (k0_pay11 (F := Ideal) v148 v150 (ix2 r k) : EReal) = if (v148 (ix2 r (4 : Fin 8)) : EReal) = (v150 (ix2 r k) : EReal) then 1 else 0 := by
  unfold k0_pay11
  simp only [shapeCast_self]
  exact onehot_col_at v148 v150 (4 : Fin 8) _ rfl rfl _ _ _ _ r k

theorem pay12_at (v148 : FVec Ideal S512x8 .f32) (v150 : FVec Ideal S512x256 .f32) (r : Fin 512) (k : Fin 256) :
    (k0_pay12 (F := Ideal) v148 v150 (ix2 r k) : EReal) = if (v148 (ix2 r (5 : Fin 8)) : EReal) = (v150 (ix2 r k) : EReal) then 1 else 0 := by
  unfold k0_pay12
  simp only [shapeCast_self]
  exact onehot_col_at v148 v150 (5 : Fin 8) _ rfl rfl _ _ _ _ r k

theorem pay13_at (v148 : FVec Ideal S512x8 .f32) (v150 : FVec Ideal S512x256 .f32) (r : Fin 512) (k : Fin 256) :
    (k0_pay13 (F := Ideal) v148 v150 (ix2 r k) : EReal) = if (v148 (ix2 r (6 : Fin 8)) : EReal) = (v150 (ix2 r k) : EReal) then 1 else 0 := by
  unfold k0_pay13
  simp only [shapeCast_self]
  exact onehot_col_at v148 v150 (6 : Fin 8) _ rfl rfl _ _ _ _ r k

theorem pay14_at (v148 : FVec Ideal S512x8 .f32) (v150 : FVec Ideal S512x256 .f32) (r : Fin 512) (k : Fin 256) :
    (k0_pay14 (F := Ideal) v148 v150 (ix2 r k) : EReal) = if (v148 (ix2 r (7 : Fin 8)) : EReal) = (v150 (ix2 r k) : EReal) then 1 else 0 := by
  unfold k0_pay14
  simp only [shapeCast_self]
  exact onehot_col_at v148 v150 (7 : Fin 8) _ rfl rfl _ _ _ _ r k

theorem pay15_at (v223 : Vec Ideal S512x1024 .f32) (y : S512x1024.Idx) : (k0_pay15 (F := Ideal) v223 y : EReal) = (v223 y : EReal) := by
  unfold k0_pay15
  simp only [shapeCast_self]
  rfl

theorem pay16_at (v223 : Vec Ideal S512x1024 .f32) (y : S512x1024.Idx) : (k0_pay16 (F := Ideal) v223 y : EReal) = (v223 y : EReal) := by
  unfold k0_pay16
  simp only [shapeCast_self]
  exact pay15_at v223 y

theorem pay17_at (v2 : FVec Ideal S64x1024 .bf16) (v223 : Vec Ideal S512x1024 .f32) (v234 : Vec Ideal S64x8 .f32) (r : Fin 512) (t : Fin 8) :
    (k0_pay17 (F := Ideal) v2 v223 v234 (ix2 r t) : EReal) = ∑ j : Fin 64, bit01 (proj2 v223 v2 r j) * (v234 (ix2 j t) : EReal) := by
  unfold k0_pay17
  simp only [mm_B, signbit_at, mm_A, pay15_at]
  rfl

theorem pay18_at (r : Fin 512) (k : Fin 256) : (k0_pay18 (F := Ideal) (ix2 r k) : EReal) = iotaF k.val := by
  unfold k0_pay18
  show FloatOps.sitofp (F := Ideal) .f32 (iota .tc S512x256 32 [1] iota_S512x256_d1_w32 (ix2 r k)) = iotaF k.val
  rw [iota_single_apply]
  exact iota_val k.val (by omega)

theorem pay19_at (v2 : FVec Ideal S64x1024 .bf16) (v223 : Vec Ideal S512x1024 .f32) (v234 : Vec Ideal S64x8 .f32) (r : Fin 512) (k : Fin 256) :
    (k0_pay19 (F := Ideal) v2 v223 v234 (ix2 r k) : EReal) = if (k0_pay17 (F := Ideal) v2 v223 v234 (ix2 r (0 : Fin 8)) : EReal) = (k0_pay18 (F := Ideal) (ix2 r k) : EReal) then 1 else 0 := by
  unfold k0_pay19
  simp only [shapeCast_self]
  exact onehot_col_at (k0_pay17 v2 v223 v234) k0_pay18 (0 : Fin 8) _ rfl rfl _ _ _ _ r k

theorem pay20_at (v2 : FVec Ideal S64x1024 .bf16) (v223 : Vec Ideal S512x1024 .f32) (v234 : Vec Ideal S64x8 .f32) (r : Fin 512) (k : Fin 256) :
    (k0_pay20 (F := Ideal) v2 v223 v234 (ix2 r k) : EReal) = if (k0_pay17 (F := Ideal) v2 v223 v234 (ix2 r (1 : Fin 8)) : EReal) = (k0_pay18 (F := Ideal) (ix2 r k) : EReal) then 1 else 0 := by
  unfold k0_pay20
  simp only [shapeCast_self]
  exact onehot_col_at (k0_pay17 v2 v223 v234) k0_pay18 (1 : Fin 8) _ rfl rfl _ _ _ _ r k

theorem pay21_at (v2 : FVec Ideal S64x1024 .bf16) (v223 : Vec Ideal S512x1024 .f32) (v234 : Vec Ideal S64x8 .f32) (r : Fin 512) (k : Fin 256) :
    (k0_pay21 (F := Ideal) v2 v223 v234 (ix2 r k) : EReal) = if (k0_pay17 (F := Ideal) v2 v223 v234 (ix2 r (2 : Fin 8)) : EReal) = (k0_pay18 (F := Ideal) (ix2 r k) : EReal) then 1 else 0 := by
  unfold k0_pay21
  exact onehot_col_at (k0_pay17 v2 v223 v234) k0_pay18 (2 : Fin 8) _ rfl rfl _ _ _ _ r k

theorem pay22_at (v261 : FVec Ideal S512x256 .bf16) (y : S512x256.Idx) : (k0_pay22 (F := Ideal) v261 y : EReal) = (v261 y : EReal) := by
  unfold k0_pay22
  simp only [shapeCast_self]

theorem pay23_at (v235 : FVec Ideal S512x8 .f32) (v237 : FVec Ideal S512x256 .f32) (r : Fin 512) (k : Fin 256) :
    (k0_pay23 (F := Ideal) v235 v237 (ix2 r k) : EReal) = if (v235 (ix2 r (3 : Fin 8)) : EReal) = (v237 (ix2 r k) : EReal) then 1 else 0 := by
  unfold k0_pay23
  simp only [shapeCast_self]
  exact onehot_col_at v235 v237 (3 : Fin 8) _ rfl rfl _ _ _ _ r k

theorem pay24_at (v235 : FVec Ideal S512x8 .f32) (v237 : FVec Ideal S512x256 .f32) (r : Fin 512) (k : Fin 256) :
    (k0_pay24 (F := Ideal) v235 v237 (ix2 r k) : EReal) = if (v235 (ix2 r (4 : Fin 8)) : EReal) = (v237 (ix2 r k) : EReal) then 1 else 0 := by
  unfold k0_pay24
  simp only [shapeCast_self]
  exact onehot_col_at v235 v237 (4 : Fin 8) _ rfl rfl _ _ _ _ r k

theorem pay25_at (v235 : FVec Ideal S512x8 .f32) (v237 : FVec Ideal S512x256 .f32) (r : Fin 512) (k : Fin 256) :
    (k0_pay25 (F := Ideal) v235 v237 (ix2 r k) : EReal) = if (v235 (ix2 r (5 : Fin 8)) : EReal) = (v237 (ix2 r k) : EReal) then 1 else 0 := by
  unfold k0_pay25
  simp only [shapeCast_self]
  exact onehot_col_at v235 v237 (5 : Fin 8) _ rfl rfl _ _ _ _ r k

theorem pay26_at (v235 : FVec Ideal S512x8 .f32) (v237 : FVec Ideal S512x256 .f32) (r : Fin 512) (k : Fin 256) :
    (k0_pay26 (F := Ideal) v235 v237 (ix2 r k) : EReal) = if (v235 (ix2 r (6 : Fin 8)) : EReal) = (v237 (ix2 r k) : EReal) then 1 else 0 := by
  unfold k0_pay26
  simp only [shapeCast_self]
  exact onehot_col_at v235 v237 (6 : Fin 8) _ rfl rfl _ _ _ _ r k

theorem pay27_at (v235 : FVec Ideal S512x8 .f32) (v237 : FVec Ideal S512x256 .f32) (r : Fin 512) (k : Fin 256) :
    (k0_pay27 (F := Ideal) v235 v237 (ix2 r k) : EReal) = if (v235 (ix2 r (7 : Fin 8)) : EReal) = (v237 (ix2 r k) : EReal) then 1 else 0 := by
  unfold k0_pay27
  exact onehot_col_at v235 v237 (7 : Fin 8) _ rfl rfl _ _ _ _ r k

theorem pay28_at (v306 : FVec Ideal S512x256 .bf16) (y : S512x256.Idx) : (k0_pay28 (F := Ideal) v306 y : EReal) = (v306 y : EReal) := by
  unfold k0_pay28
  simp only [shapeCast_self]

theorem pay29_at (v310 : Vec Ideal S512x1024 .f32) (y : S512x1024.Idx) : (k0_pay29 (F := Ideal) v310 y : EReal) = (v310 y : EReal) := by
  unfold k0_pay29
  simp only [shapeCast_self]
  rfl

theorem pay30_at (v310 : Vec Ideal S512x1024 .f32) (y : S512x1024.Idx) : (k0_pay30 (F := Ideal) v310 y : EReal) = (v310 y : EReal) := by
  unfold k0_pay30
  simp only [shapeCast_self]
  exact pay29_at v310 y

theorem pay31_at (v2 : FVec Ideal S64x1024 .bf16) (v310 : Vec Ideal S512x1024 .f32) (v321 : Vec Ideal S64x8 .f32) (r : Fin 512) (t : Fin 8) :
    (k0_pay31 (F := Ideal) v2 v310 v321 (ix2 r t) : EReal) = ∑ j : Fin 64, bit01 (proj2 v310 v2 r j) * (v321 (ix2 j t) : EReal) := by
  unfold k0_pay31
  simp only [mm_B, signbit_at, mm_A, pay29_at]
  rfl

theorem pay32_at (r : Fin 512) (k : Fin 256) : (k0_pay32 (F := Ideal) (ix2 r k) : EReal) = iotaF k.val := by
  unfold k0_pay32
  show FloatOps.sitofp (F := Ideal) .f32 (iota .tc S512x256 32 [1] iota_S512x256_d1_w32 (ix2 r k)) = iotaF k.val
  rw [iota_single_apply]
  exact iota_val k.val (by omega)

theorem pay33_at (v2 : FVec Ideal S64x1024 .bf16) (v310 : Vec Ideal S512x1024 .f32) (v321 : Vec Ideal S64x8 .f32) (r : Fin 512) (k : Fin 256) :
    (k0_pay33 (F := Ideal) v2 v310 v321 (ix2 r k) : EReal) = if (k0_pay31 (F := Ideal) v2 v310 v321 (ix2 r (0 : Fin 8)) : EReal) = (k0_pay32 (F := Ideal) (ix2 r k) : EReal) then 1 else 0 := by
  unfold k0_pay33
  simp only [shapeCast_self]
  exact onehot_col_at (k0_pay31 v2 v310 v321) k0_pay32 (0 : Fin 8) _ rfl rfl _ _ _ _ r k

theorem pay34_at (v2 : FVec Ideal S64x1024 .bf16) (v310 : Vec Ideal S512x1024 .f32) (v321 : Vec Ideal S64x8 .f32) (r : Fin 512) (k : Fin 256) :
    (k0_pay34 (F := Ideal) v2 v310 v321 (ix2 r k) : EReal) = if (k0_pay31 (F := Ideal) v2 v310 v321 (ix2 r (1 : Fin 8)) : EReal) = (k0_pay32 (F := Ideal) (ix2 r k) : EReal) then 1 else 0 := by
  unfold k0_pay34
  simp only [shapeCast_self]
  exact onehot_col_at (k0_pay31 v2 v310 v321) k0_pay32 (1 : Fin 8) _ rfl rfl _ _ _ _ r k

theorem pay35_at (v2 : FVec Ideal S64x1024 .bf16) (v310 : Vec Ideal S512x1024 .f32) (v321 : Vec Ideal S64x8 .f32) (r : Fin 512) (k : Fin 256) :
    (k0_pay35 (F := Ideal) v2 v310 v321 (ix2 r k) : EReal) = if (k0_pay31 (F := Ideal) v2 v310 v321 (ix2 r (2 : Fin 8)) : EReal) = (k0_pay32 (F := Ideal) (ix2 r k) : EReal) then 1 else 0 := by
  unfold k0_pay35
  exact onehot_col_at (k0_pay31 v2 v310 v321) k0_pay32 (2 : Fin 8) _ rfl rfl _ _ _ _ r k

theorem pay36_at (v348 : FVec Ideal S512x256 .bf16) (y : S512x256.Idx) : (k0_pay36 (F := Ideal) v348 y : EReal) = (v348 y : EReal) := by
  unfold k0_pay36
  simp only [shapeCast_self]

theorem pay37_at (v322 : FVec Ideal S512x8 .f32) (v324 : FVec Ideal S512x256 .f32) (r : Fin 512) (k : Fin 256) :
    (k0_pay37 (F := Ideal) v322 v324 (ix2 r k) : EReal) = if (v322 (ix2 r (3 : Fin 8)) : EReal) = (v324 (ix2 r k) : EReal) then 1 else 0 := by
  unfold k0_pay37
  simp only [shapeCast_self]
  exact onehot_col_at v322 v324 (3 : Fin 8) _ rfl rfl _ _ _ _ r k

theorem pay38_at (v322 : FVec Ideal S512x8 .f32) (v324 : FVec Ideal S512x256 .f32) (r : Fin 512) (k : Fin 256) :
    (k0_pay38 (F := Ideal) v322 v324 (ix2 r k) : EReal) = if (v322 (ix2 r (4 : Fin 8)) : EReal) = (v324 (ix2 r k) : EReal) then 1 else 0 := by
  unfold k0_pay38
  simp only [shapeCast_self]
  exact onehot_col_at v322 v324 (4 : Fin 8) _ rfl rfl _ _ _ _ r k

theorem pay39_at (v322 : FVec Ideal S512x8 .f32) (v324 : FVec Ideal S512x256 .f32) (r : Fin 512) (k : Fin 256) :
    (k0_pay39 (F := Ideal) v322 v324 (ix2 r k) : EReal) = if (v322 (ix2 r (5 : Fin 8)) : EReal) = (v324 (ix2 r k) : EReal) then 1 else 0 := by
  unfold k0_pay39
  simp only [shapeCast_self]
  exact onehot_col_at v322 v324 (5 : Fin 8) _ rfl rfl _ _ _ _ r k

theorem pay40_at (v322 : FVec Ideal S512x8 .f32) (v324 : FVec Ideal S512x256 .f32) (r : Fin 512) (k : Fin 256) :
    (k0_pay40 (F := Ideal) v322 v324 (ix2 r k) : EReal) = if (v322 (ix2 r (6 : Fin 8)) : EReal) = (v324 (ix2 r k) : EReal) then 1 else 0 := by
  unfold k0_pay40
  simp only [shapeCast_self]
  exact onehot_col_at v322 v324 (6 : Fin 8) _ rfl rfl _ _ _ _ r k

theorem pay41_at (v322 : FVec Ideal S512x8 .f32) (v324 : FVec Ideal S512x256 .f32) (r : Fin 512) (k : Fin 256) :
    (k0_pay41 (F := Ideal) v322 v324 (ix2 r k) : EReal) = if (v322 (ix2 r (7 : Fin 8)) : EReal) = (v324 (ix2 r k) : EReal) then 1 else 0 := by
  unfold k0_pay41
  exact onehot_col_at v322 v324 (7 : Fin 8) _ rfl rfl _ _ _ _ r k

theorem pay42_at (v393 : FVec Ideal S512x256 .bf16) (y : S512x256.Idx) : (k0_pay42 (F := Ideal) v393 y : EReal) = (v393 y : EReal) := by
  unfold k0_pay42
  simp only [shapeCast_self]

theorem pay43_at (v397 : Vec Ideal S512x1024 .f32) (y : S512x1024.Idx) : (k0_pay43 (F := Ideal) v397 y : EReal) = (v397 y : EReal) := by
  unfold k0_pay43
  simp only [shapeCast_self]
  rfl

theorem pay44_at (v397 : Vec Ideal S512x1024 .f32) (y : S512x1024.Idx) : (k0_pay44 (F := Ideal) v397 y : EReal) = (v397 y : EReal) := by
  unfold k0_pay44
  simp only [shapeCast_self]
  exact pay43_at v397 y

theorem pay45_at (v2 : FVec Ideal S64x1024 .bf16) (v397 : Vec Ideal S512x1024 .f32) (v408 : Vec Ideal S64x8 .f32) (r : Fin 512) (t : Fin 8) :
    (k0_pay45 (F := Ideal) v2 v397 v408 (ix2 r t) : EReal) = ∑ j : Fin 64, bit01 (proj2 v397 v2 r j) * (v408 (ix2 j t) : EReal) := by
  unfold k0_pay45
  simp only [mm_B, signbit_at, mm_A, pay43_at]
  rfl

theorem pay46_at (r : Fin 512) (k : Fin 256) : (k0_pay46 (F := Ideal) (ix2 r k) : EReal) = iotaF k.val := by
  unfold k0_pay46
  show FloatOps.sitofp (F := Ideal) .f32 (iota .tc S512x256 32 [1] iota_S512x256_d1_w32 (ix2 r k)) = iotaF k.val
  rw [iota_single_apply]
  exact iota_val k.val (by omega)

theorem pay47_at (v2 : FVec Ideal S64x1024 .bf16) (v397 : Vec Ideal S512x1024 .f32) (v408 : Vec Ideal S64x8 .f32) (r : Fin 512) (k : Fin 256) :
    (k0_pay47 (F := Ideal) v2 v397 v408 (ix2 r k) : EReal) = if (k0_pay45 (F := Ideal) v2 v397 v408 (ix2 r (0 : Fin 8)) : EReal) = (k0_pay46 (F := Ideal) (ix2 r k) : EReal) then 1 else 0 := by
  unfold k0_pay47
  simp only [shapeCast_self]
  exact onehot_col_at (k0_pay45 v2 v397 v408) k0_pay46 (0 : Fin 8) _ rfl rfl _ _ _ _ r k

theorem pay48_at (v2 : FVec Ideal S64x1024 .bf16) (v397 : Vec Ideal S512x1024 .f32) (v408 : Vec Ideal S64x8 .f32) (r : Fin 512) (k : Fin 256) :
    (k0_pay48 (F := Ideal) v2 v397 v408 (ix2 r k) : EReal) = if (k0_pay45 (F := Ideal) v2 v397 v408 (ix2 r (1 : Fin 8)) : EReal) = (k0_pay46 (F := Ideal) (ix2 r k) : EReal) then 1 else 0 := by
  unfold k0_pay48
  simp only [shapeCast_self]
  exact onehot_col_at (k0_pay45 v2 v397 v408) k0_pay46 (1 : Fin 8) _ rfl rfl _ _ _ _ r k

theorem pay49_at (v2 : FVec Ideal S64x1024 .bf16) (v397 : Vec Ideal S512x1024 .f32) (v408 : Vec Ideal S64x8 .f32) (r : Fin 512) (k : Fin 256) :
    (k0_pay49 (F := Ideal) v2 v397 v408 (ix2 r k) : EReal) = if (k0_pay45 (F := Ideal) v2 v397 v408 (ix2 r (2 : Fin 8)) : EReal) = (k0_pay46 (F := Ideal) (ix2 r k) : EReal) then 1 else 0 := by
  unfold k0_pay49
  exact onehot_col_at (k0_pay45 v2 v397 v408) k0_pay46 (2 : Fin 8) _ rfl rfl _ _ _ _ r k

theorem pay50_at (v435 : FVec Ideal S512x256 .bf16) (y : S512x256.Idx) : (k0_pay50 (F := Ideal) v435 y : EReal) = (v435 y : EReal) := by
  unfold k0_pay50
  simp only [shapeCast_self]

theorem pay51_at (v409 : FVec Ideal S512x8 .f32) (v411 : FVec Ideal S512x256 .f32) (r : Fin 512) (k : Fin 256) :
    (k0_pay51 (F := Ideal) v409 v411 (ix2 r k) : EReal) = if (v409 (ix2 r (3 : Fin 8)) : EReal) = (v411 (ix2 r k) : EReal) then 1 else 0 := by
  unfold k0_pay51
  simp only [shapeCast_self]
  exact onehot_col_at v409 v411 (3 : Fin 8) _ rfl rfl _ _ _ _ r k

theorem pay52_at (v409 : FVec Ideal S512x8 .f32) (v411 : FVec Ideal S512x256 .f32) (r : Fin 512) (k : Fin 256) :
    (k0_pay52 (F := Ideal) v409 v411 (ix2 r k) : EReal) = if (v409 (ix2 r (4 : Fin 8)) : EReal) = (v411 (ix2 r k) : EReal) then 1 else 0 := by
  unfold k0_pay52
  simp only [shapeCast_self]
  exact onehot_col_at v409 v411 (4 : Fin 8) _ rfl rfl _ _ _ _ r k

theorem pay53_at (v409 : FVec Ideal S512x8 .f32) (v411 : FVec Ideal S512x256 .f32) (r : Fin 512) (k : Fin 256) :
    (k0_pay53 (F := Ideal) v409 v411 (ix2 r k) : EReal) = if (v409 (ix2 r (5 : Fin 8)) : EReal) = (v411 (ix2 r k) : EReal) then 1 else 0 := by
  unfold k0_pay53
  simp only [shapeCast_self]
  exact onehot_col_at v409 v411 (5 : Fin 8) _ rfl rfl _ _ _ _ r k

theorem pay54_at (v409 : FVec Ideal S512x8 .f32) (v411 : FVec Ideal S512x256 .f32) (r : Fin 512) (k : Fin 256) :
    (k0_pay54 (F := Ideal) v409 v411 (ix2 r k) : EReal) = if (v409 (ix2 r (6 : Fin 8)) : EReal) = (v411 (ix2 r k) : EReal) then 1 else 0 := by
  unfold k0_pay54
  simp only [shapeCast_self]
  exact onehot_col_at v409 v411 (6 : Fin 8) _ rfl rfl _ _ _ _ r k

theorem pay55_at (v409 : FVec Ideal S512x8 .f32) (v411 : FVec Ideal S512x256 .f32) (r : Fin 512) (k : Fin 256) :
    (k0_pay55 (F := Ideal) v409 v411 (ix2 r k) : EReal) = if (v409 (ix2 r (7 : Fin 8)) : EReal) = (v411 (ix2 r k) : EReal) then 1 else 0 := by
  unfold k0_pay55
  exact onehot_col_at v409 v411 (7 : Fin 8) _ rfl rfl _ _ _ _ r k

theorem pay56_at (v0 : Vec Ideal S64x1024 .f32) (y : S64x1024.Idx) : (k0_pay56 (F := Ideal) v0 y : EReal) = (v0 y : EReal) := by
  unfold k0_pay56
  simp only [shapeCast_self]
  rfl

theorem pay57_at (v480 : FVec Ideal S512x256 .bf16) (y : S512x256.Idx) : (k0_pay57 (F := Ideal) v480 y : EReal) = (v480 y : EReal) := by
  unfold k0_pay57
  simp only [shapeCast_self]

theorem pay58_at (v6 : Vec Ideal S512x1024 .f32) (y : S512x1024.Idx) : (k0_pay58 (F := Ideal) v6 y : EReal) = (v6 y : EReal) := by
  unfold k0_pay58
  rfl

theorem pay59_at (v0 : Vec Ideal S64x1024 .f32) (v6 : Vec Ideal S512x1024 .f32) (v13 : Vec Ideal S8x64 .f32) (t : Fin 8) (q : Fin 512) :
    (k0_pay59 (F := Ideal) v0 v6 v13 (ix2 t q) : EReal) = ∑ j : Fin 64, (v13 (ix2 t j) : EReal) * bit01 (proj2 v6 v0 q j) := by
  unfold k0_pay59
  simp only [mm_C, signbit_at, mm_A, pay58_at, pay56_at]
  rfl

theorem pay60_at (k : Fin 256) (q : Fin 512) : (k0_pay60 (F := Ideal) (ix2 k q) : EReal) = iotaF k.val := by
  unfold k0_pay60
  show FloatOps.sitofp (F := Ideal) .f32 (iota .tc S256x512 32 [0] iota_S256x512_d0_w32 (ix2 k q)) = iotaF k.val
  rw [iota_single_apply]
  exact iota_val k.val (by omega)

theorem pay61_at (v0 : Vec Ideal S64x1024 .f32) (v6 : Vec Ideal S512x1024 .f32) (v13 : Vec Ideal S8x64 .f32) (k : Fin 256) (q : Fin 512) :
    (k0_pay61 (F := Ideal) v0 v6 v13 (ix2 k q) : EReal) = if (k0_pay60 (F := Ideal) (ix2 k q) : EReal) = (k0_pay59 (F := Ideal) v0 v6 v13 (ix2 (0 : Fin 8) q) : EReal) then 1 else 0 := by
  unfold k0_pay61
  simp only [shapeCast_self]
  exact onehot_row_at (k0_pay59 v0 v6 v13) k0_pay60 (0 : Fin 8) _ rfl rfl _ _ _ _ k q

theorem pay62_at (v0 : Vec Ideal S64x1024 .f32) (v6 : Vec Ideal S512x1024 .f32) (v13 : Vec Ideal S8x64 .f32) (k : Fin 256) (q : Fin 512) :
    (k0_pay62 (F := Ideal) v0 v6 v13 (ix2 k q) : EReal) = if (k0_pay60 (F := Ideal) (ix2 k q) : EReal) = (k0_pay59 (F := Ideal) v0 v6 v13 (ix2 (1 : Fin 8) q) : EReal) then 1 else 0 := by
  unfold k0_pay62
  simp only [shapeCast_self]
  exact onehot_row_at (k0_pay59 v0 v6 v13) k0_pay60 (1 : Fin 8) _ rfl rfl _ _ _ _ k q

theorem pay63_at (v0 : Vec Ideal S64x1024 .f32) (v6 : Vec Ideal S512x1024 .f32) (v13 : Vec Ideal S8x64 .f32) (k : Fin 256) (q : Fin 512) :
    (k0_pay63 (F := Ideal) v0 v6 v13 (ix2 k q) : EReal) = if (k0_pay60 (F := Ideal) (ix2 k q) : EReal) = (k0_pay59 (F := Ideal) v0 v6 v13 (ix2 (2 : Fin 8) q) : EReal) then 1 else 0 := by
  unfold k0_pay63
  exact onehot_row_at (k0_pay59 v0 v6 v13) k0_pay60 (2 : Fin 8) _ rfl rfl _ _ _ _ k q

theorem pay64_at (v40 : FVec Ideal S256x512 .bf16) (y : S256x512.Idx) : (k0_pay64 (F := Ideal) v40 y : EReal) = (v40 y : EReal) := by
  unfold k0_pay64
  simp only [shapeCast_self]

theorem pay65_at (v14 : FVec Ideal S8x512 .f32) (v16 : FVec Ideal S256x512 .f32) (k : Fin 256) (q : Fin 512) :
    (k0_pay65 (F := Ideal) v14 v16 (ix2 k q) : EReal) = if (v16 (ix2 k q) : EReal) = (v14 (ix2 (3 : Fin 8) q) : EReal) then 1 else 0 := by
  unfold k0_pay65
  simp only [shapeCast_self]
  exact onehot_row_at v14 v16 (3 : Fin 8) _ rfl rfl _ _ _ _ k q

theorem pay66_at (v14 : FVec Ideal S8x512 .f32) (v16 : FVec Ideal S256x512 .f32) (k : Fin 256) (q : Fin 512) :
    (k0_pay66 (F := Ideal) v14 v16 (ix2 k q) : EReal) = if (v16 (ix2 k q) : EReal) = (v14 (ix2 (4 : Fin 8) q) : EReal) then 1 else 0 := by
  unfold k0_pay66
  simp only [shapeCast_self]
  exact onehot_row_at v14 v16 (4 : Fin 8) _ rfl rfl _ _ _ _ k q

theorem pay67_at (v14 : FVec Ideal S8x512 .f32) (v16 : FVec Ideal S256x512 .f32) (k : Fin 256) (q : Fin 512) :
    (k0_pay67 (F := Ideal) v14 v16 (ix2 k q) : EReal) = if (v16 (ix2 k q) : EReal) = (v14 (ix2 (5 : Fin 8) q) : EReal) then 1 else 0 := by
  unfold k0_pay67
  simp only [shapeCast_self]
  exact onehot_row_at v14 v16 (5 : Fin 8) _ rfl rfl _ _ _ _ k q

theorem pay68_at (v14 : FVec Ideal S8x512 .f32) (v16 : FVec Ideal S256x512 .f32) (k : Fin 256) (q : Fin 512) :
    (k0_pay68 (F := Ideal) v14 v16 (ix2 k q) : EReal) = if (v16 (ix2 k q) : EReal) = (v14 (ix2 (6 : Fin 8) q) : EReal) then 1 else 0 := by
  unfold k0_pay68
  simp only [shapeCast_self]
  exact onehot_row_at v14 v16 (6 : Fin 8) _ rfl rfl _ _ _ _ k q

theorem pay69_at (v14 : FVec Ideal S8x512 .f32) (v16 : FVec Ideal S256x512 .f32) (k : Fin 256) (q : Fin 512) :
    (k0_pay69 (F := Ideal) v14 v16 (ix2 k q) : EReal) = if (v16 (ix2 k q) : EReal) = (v14 (ix2 (7 : Fin 8) q) : EReal) then 1 else 0 := by
  unfold k0_pay69
  exact onehot_row_at v14 v16 (7 : Fin 8) _ rfl rfl _ _ _ _ k q

theorem pay70_at (v85 : FVec Ideal S256x512 .bf16) (y : S256x512.Idx) : (k0_pay70 (F := Ideal) v85 y : EReal) = (v85 y : EReal) := by
  unfold k0_pay70
  simp only [shapeCast_self]

theorem pay71_at (v89 : Vec Ideal S1x512 .f32) (y : S1x512.Idx) : (k0_pay71 (F := Ideal) v89 y : EReal) = (v89 y : EReal) := by
  unfold k0_pay71
  simp only [shapeCast_self]

theorem pay72_at (v7 : FVec Ideal S512x1024 .bf16) (v89 : Vec Ideal S1x512 .f32) (v91 : Vec Ideal S2048x512 .bf16) (v92 : Vec Ideal S512x1024 .bf16) (v96 : Vec Ideal S512x2048 .bf16) (r q : Fin 512) :
    (k0_pay72 (F := Ideal) v7 v89 v91 v92 v96 (ix2 r q) : EReal) = if (0 : EReal) < ∑ k : Fin 2048, (v96 (ix2 r k) : EReal) * (v91 (ix2 k q) : EReal)
      then (∑ d : Fin 1024, (v92 (ix2 r d) : EReal) * (v7 (ix2 q d) : EReal)) + (v89 (ix2 0 q) : EReal) else 0 := by
  unfold k0_pay72
  refine (masked_dense_at v7 (k0_pay71 v89) v91 v92 v96 _ r q).trans ?_
  rw [pay71_at]

theorem pay73_at (v7 : FVec Ideal S512x1024 .bf16) (v89 : Vec Ideal S1x512 .f32) (v91 : Vec Ideal S2048x512 .bf16) (v103 : Vec Ideal S512x1024 .bf16) (v107 : Vec Ideal S512x2048 .bf16) (r q : Fin 512) :
    (k0_pay73 (F := Ideal) v7 v89 v91 v103 v107 (ix2 r q) : EReal) = if (0 : EReal) < ∑ k : Fin 2048, (v107 (ix2 r k) : EReal) * (v91 (ix2 k q) : EReal)
      then (∑ d : Fin 1024, (v103 (ix2 r d) : EReal) * (v7 (ix2 q d) : EReal)) + (v89 (ix2 0 q) : EReal) else 0 := by
  unfold k0_pay73
  refine (masked_dense_at v7 (k0_pay71 v89) v91 v103 v107 _ r q).trans ?_
  rw [pay71_at]

end Cert.KernelIdeal.Pay

end
-- ==== Proof.Pieces.lean ====
/-
  What one run of the kernel body leaves behind, as closed functions of the blocks it was given.

  At the first grid point the body writes the tokens (in reduced precision: the same extended reals) into the first
  carried table, the tokens' one-hot rows into the second, and then the output block; at every later point it only
  reads the two tables and writes the output block. Each table and each output block is written tile by tile; every
  tile is the restriction of ONE function of the buffer's index (`xohK`, `wohBlk`, `outBlk`), so the buffer read
  back is that function.
-/
import proofs.«163952_g61529701483102_cont_9to1_m_177_18_alg».proof.Proof.Gen.KernelIdeal.Frame
import proofs.«163952_g61529701483102_cont_9to1_m_177_18_alg».proof.Proof.KSpec
import proofs.«163952_g61529701483102_cont_9to1_m_177_18_alg».proof.Proof.Payloads
import Idealize.ShloMosaic.Lib.Pipeline.Value
import Idealize.ShloMosaic.Lib.Tactic

set_option maxRecDepth 16384

noncomputable section

open scoped BigOperators
open Classical
open Idealize.ShloMosaic Idealize.ShloMosaic.TcCoe Idealize.SL.Sem Idealize.ShloMosaic.Tactic Idealize.ShloMosaic.ValueIdx

namespace Cert.KernelIdeal.Pieces

open Cert.KernelIdeal Cert.KernelIdeal.Gen Cert.Spec Cert.KernelIdeal.Pay

/-- A load through a rectangle of a whole buffer reads the contents at the rectangle's indices. -/
theorem readAt_whole {S : Shape} {e : EltTy} (a : Memref sig .tc .vmem S e) (h : a.IsWhole) (X : S.Idx → Elt Ideal e)
    (r : LoadRect S) (j : r.shape.Idx) :
    View.readAt (Elt Ideal) a.view r (h.unread X) j = X (r.idx j) := by
  rw [View.readAt_apply, h.read_unread]

/-- One tile of the one-hot table: the tile's entry `(r, k)` of table `t`, computed from a block of 512 token
    rows, is the whole table's entry at the tile's place. -/
theorem xoh_tile (x0 : I2 2048 1024 → EReal) (x3 : I2 64 1024 → EReal) (x4 : I2 64 8 → EReal)
    (X1 : I2 512 1024 → EReal) (X3 : I2 64 1024 → EReal) (X4 : I2 64 8 → EReal)
    (t : Fin 8) (r : Fin 512) (k : Fin 256) (y : I2 2048 2048)
    (hX1 : ∀ d : Fin 1024, X1 (ix2 r d) = x0 (ix2 ⟨(y 0).val, (y 0).isLt⟩ d))
    (hX3 : ∀ (j : Fin 64) (d : Fin 1024), X3 (ix2 j d) = x3 (ix2 j d))
    (hX4 : ∀ j : Fin 64, X4 (ix2 j t) = x4 (ix2 j t))
    (hy1 : (y 1).val = 256 * t.val + k.val) :
    (if (∑ j : Fin 64, bit01 (proj2 X1 X3 r j) * X4 (ix2 j t)) = iotaF k.val then (1 : EReal) else 0) = xohK x0 x3 x4 y := by
  unfold xohK codesK
  have ht : (⟨(y 1).val / 256, by have := (y 1).isLt; change _ < 2048 at this; omega⟩ : Fin 8) = t := by
    apply Fin.ext; show (y 1).val / 256 = t.val; have := k.isLt; omega
  have hk : (y 1).val % 256 = k.val := by have := k.isLt; omega
  rw [ht, hk]
  have hs : ∀ j : Fin 64, bit01 (proj2 X1 X3 r j) * X4 (ix2 j t)
      = bit01 (proj2 x0 x3 ⟨(y 0).val, (y 0).isLt⟩ j) * x4 (ix2 j t) := by
    intro j
    rw [hX4]
    congr 2
    unfold proj2
    exact Finset.sum_congr rfl fun d _ => by rw [hX1, hX3]
  rw [Finset.sum_congr rfl fun j _ => hs j]

/-- One tile of a weight block's one-hot columns is the block's one-hot function at the tile's place. -/
theorem woh_tile (x1 : I2 512 1024 → EReal) (x3 : I2 64 1024 → EReal) (x5 : I2 8 64 → EReal)
    (X1 : I2 512 1024 → EReal) (X3 : I2 64 1024 → EReal) (X5 : I2 8 64 → EReal)
    (t : Fin 8) (k : Fin 256) (q : Fin 512) (y : I2 2048 512)
    (hX1 : ∀ d : Fin 1024, X1 (ix2 q d) = x1 (ix2 ⟨(y 1).val, (y 1).isLt⟩ d))
    (hX3 : ∀ (j : Fin 64) (d : Fin 1024), X3 (ix2 j d) = x3 (ix2 j d))
    (hX5 : ∀ j : Fin 64, X5 (ix2 t j) = x5 (ix2 t j))
    (hy0 : (y 0).val = 256 * t.val + k.val) :
    (if iotaF k.val = ∑ j : Fin 64, X5 (ix2 t j) * bit01 (proj2 X1 X3 q j) then (1 : EReal) else 0) = wohBlk x1 x3 x5 y := by
  unfold wohBlk
  have ht : (⟨(y 0).val / 256, by have := (y 0).isLt; change _ < 2048 at this; omega⟩ : Fin 8) = t := by
    apply Fin.ext; show (y 0).val / 256 = t.val; have := k.isLt; omega
  have hk : (y 0).val % 256 = k.val := by have := k.isLt; omega
  rw [ht, hk]
  have hs : ∀ j : Fin 64, X5 (ix2 t j) * bit01 (proj2 X1 X3 q j)
      = x5 (ix2 t j) * bit01 (proj2 x1 x3 ⟨(y 1).val, (y 1).isLt⟩ j) := by
    intro j
    rw [hX5]
    congr 2
    unfold proj2
    exact Finset.sum_congr rfl fun d _ => by rw [hX1, hX3]
  rw [Finset.sum_congr rfl fun j _ => hs j]

/-- One tile of 512 token rows of the output block is the block function at the tile's place. -/
theorem out_tile (w : I2 512 1024 → EReal) (bias : I2 1 512 → EReal) (p2 : I2 64 1024 → EReal) (pkt : I2 8 64 → EReal)
    (xs : I2 2048 1024 → EReal) (oh : I2 2048 2048 → EReal)
    (A B : Fin 2048 → EReal) (C D : Fin 1024 → EReal) (E : EReal) (y : I2 2048 512)
    (hA : ∀ k : Fin 2048, A k = oh (ix2 ⟨(y 0).val, (y 0).isLt⟩ k))
    (hB : ∀ k : Fin 2048, B k = wohBlk w p2 pkt (ix2 k ⟨(y 1).val, (y 1).isLt⟩))
    (hC : ∀ d : Fin 1024, C d = xs (ix2 ⟨(y 0).val, (y 0).isLt⟩ d))
    (hD : ∀ d : Fin 1024, D d = w (ix2 ⟨(y 1).val, (y 1).isLt⟩ d))
    (hE : E = bias (ix2 0 ⟨(y 1).val, (y 1).isLt⟩)) :
    (if (0 : EReal) < ∑ k : Fin 2048, A k * B k then (∑ d : Fin 1024, C d * D d) + E else 0) = outBlk w bias p2 pkt xs oh y := by
  unfold outBlk
  have e1 : ∑ k : Fin 2048, A k * B k
      = ∑ k : Fin 2048, oh (ix2 ⟨(y 0).val, (y 0).isLt⟩ k) * wohBlk w p2 pkt (ix2 k ⟨(y 1).val, (y 1).isLt⟩) :=
    Finset.sum_congr rfl fun k _ => by rw [hA k, hB k]
  have e2 : ∑ d : Fin 1024, C d * D d
      = ∑ d : Fin 1024, xs (ix2 ⟨(y 0).val, (y 0).isLt⟩ d) * w (ix2 ⟨(y 1).val, (y 1).isLt⟩ d) :=
    Finset.sum_congr rfl fun d _ => by rw [hC d, hD d]
  rw [e1, e2, hE]

/-- First point: the first carried table ends holding the tokens (each of its four row tiles is a change of float
    format of the tokens' tile, the identity at the extended reals). -/
theorem tokens_A (c : Dev nD) (i : grid0.Coords) (arg1 : Memref sig .tc .vmem S2048x1024 .f32) (harg1 : arg1.IsWhole) (arg2 : Memref sig .tc .vmem S512x1024 .f32) (harg2 : arg2.IsWhole) (arg3 : Memref sig .tc .vmem S1x512 .f32) (harg3 : arg3.IsWhole) (arg4 : Memref sig .tc .vmem S64x1024 .f32) (harg4 : arg4.IsWhole) (arg5 : Memref sig .tc .vmem S64x8 .f32) (harg5 : arg5.IsWhole) (arg6 : Memref sig .tc .vmem S8x64 .f32) (harg6 : arg6.IsWhole) (arg7 : Memref sig .tc .vmem S2048x512 .f32) (harg7 : arg7.IsWhole) (arg8 : Memref sig .tc .vmem S2048x1024 .bf16) (harg8 : arg8.IsWhole) (arg9 : Memref sig .tc .vmem S2048x2048 .bf16) (harg9 : arg9.IsWhole) (arg10 : Memref sig .tc .vmem S2048x512 .bf16) (harg10 : arg10.IsWhole) (hc0 : cond0_0 i)
    (x0 : Vec Ideal S2048x1024 .f32) (x1 : Vec Ideal S512x1024 .f32) (x2 : Vec Ideal S1x512 .f32) (x3 : Vec Ideal S64x1024 .f32) (x4 : Vec Ideal S64x8 .f32) (x5 : Vec Ideal S8x64 .f32) :
    sout0_A_0 (F := Ideal) c i arg1 harg1 arg2 harg2 arg3 harg3 arg4 harg4 arg5 harg5 arg6 harg6 arg7 harg7 arg8 harg8 arg9 harg9 arg10 harg10 hc0 x0 x1 x2 x3 x4 x5 = x0 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5)]
  funext y
  refine View.canon_apply_of_pieces (fun y => x0 y) _ ?_ y (scover0_A_0 c i arg1 harg1 arg2 harg2 arg3 harg3 arg4 harg4 arg5 harg5 arg6 harg6 arg7 harg7 arg8 harg8 arg9 harg9 arg10 harg10 hc0 x0 x1 x2 x3 x4 x5 y)
  unfold kernelRun0_A
  dsimp only
  sl_unfold_words
  intro p hp
  simp only [List.mem_cons, List.mem_nil_iff, or_false] at hp
  rcases hp with rfl | rfl | rfl | rfl
  all_goals
    intro x
    dsimp only at x ⊢
    first
      | rw [pay44_at, readAt_whole]; rfl
      | rw [pay30_at, readAt_whole]; rfl
      | rw [pay16_at, readAt_whole]; rfl
      | rw [pay4_at, readAt_whole]; rfl

/-- First point: the second carried table ends holding the tokens' one-hot rows (32 tiles: four blocks of token
    rows by eight tables). -/
theorem onehot_A (c : Dev nD) (i : grid0.Coords) (arg1 : Memref sig .tc .vmem S2048x1024 .f32) (harg1 : arg1.IsWhole) (arg2 : Memref sig .tc .vmem S512x1024 .f32) (harg2 : arg2.IsWhole) (arg3 : Memref sig .tc .vmem S1x512 .f32) (harg3 : arg3.IsWhole) (arg4 : Memref sig .tc .vmem S64x1024 .f32) (harg4 : arg4.IsWhole) (arg5 : Memref sig .tc .vmem S64x8 .f32) (harg5 : arg5.IsWhole) (arg6 : Memref sig .tc .vmem S8x64 .f32) (harg6 : arg6.IsWhole) (arg7 : Memref sig .tc .vmem S2048x512 .f32) (harg7 : arg7.IsWhole) (arg8 : Memref sig .tc .vmem S2048x1024 .bf16) (harg8 : arg8.IsWhole) (arg9 : Memref sig .tc .vmem S2048x2048 .bf16) (harg9 : arg9.IsWhole) (arg10 : Memref sig .tc .vmem S2048x512 .bf16) (harg10 : arg10.IsWhole) (hc0 : cond0_0 i)
    (x0 : Vec Ideal S2048x1024 .f32) (x1 : Vec Ideal S512x1024 .f32) (x2 : Vec Ideal S1x512 .f32) (x3 : Vec Ideal S64x1024 .f32) (x4 : Vec Ideal S64x8 .f32) (x5 : Vec Ideal S8x64 .f32) :
    sout0_A_1 (F := Ideal) c i arg1 harg1 arg2 harg2 arg3 harg3 arg4 harg4 arg5 harg5 arg6 harg6 arg7 harg7 arg8 harg8 arg9 harg9 arg10 harg10 hc0 x0 x1 x2 x3 x4 x5 = xohK x0 x3 x4 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 x0 x1 x2 x3 x4 x5)]
  funext y
  refine View.canon_apply_of_pieces (xohK x0 x3 x4) _ ?_ y (scover0_A_1 c i arg1 harg1 arg2 harg2 arg3 harg3 arg4 harg4 arg5 harg5 arg6 harg6 arg7 harg7 arg8 harg8 arg9 harg9 arg10 harg10 hc0 x0 x1 x2 x3 x4 x5 y)
  unfold kernelRun0_A
  dsimp only
  sl_unfold_words
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro x
    dsimp only at x ⊢
    obtain ⟨r, k, rfl⟩ : ∃ (r : Fin 512) (k : Fin 256), x = ix2 r k := ⟨x 0, x 1, eq_ix2 x⟩
    simp only [pay7_at, pay8_at, pay9_at, pay10_at, pay11_at, pay12_at, pay13_at, pay14_at, pay19_at, pay20_at, pay21_at, pay23_at, pay24_at, pay25_at, pay26_at, pay27_at, pay33_at, pay34_at, pay35_at, pay37_at, pay38_at, pay39_at, pay40_at, pay41_at, pay47_at, pay48_at, pay49_at, pay51_at, pay52_at, pay53_at, pay54_at, pay55_at, pay22_at, pay28_at, pay36_at, pay42_at, pay50_at, pay57_at, pay5_at, pay17_at, pay31_at, pay45_at, pay6_at, pay18_at, pay32_at, pay46_at]
    refine xoh_tile x0 x3 x4 _ _ _ _ r k _ ?_ ?_ ?_ ?_
    · intro d
      rw [readAt_whole]
      refine congrArg x0 (funext fun a => Fin.ext ?_)
      match a with
      | ⟨0, _⟩ => rfl
      | ⟨1, _⟩ => exact (by omega : ∀ n : ℕ, 0 + 1 * n = n) _
    · intro j d
      rw [pay56_at, readAt_whole]
      refine congrArg x3 (funext fun a => Fin.ext ?_)
      match a with
      | ⟨0, _⟩ => exact (by omega : ∀ n : ℕ, 0 + 1 * n = n) _
      | ⟨1, _⟩ => exact (by omega : ∀ n : ℕ, 0 + 1 * n = n) _
    · intro j
      rw [readAt_whole]
      refine congrArg x4 (funext fun a => Fin.ext ?_)
      match a with
      | ⟨0, _⟩ => exact (by omega : ∀ n : ℕ, 0 + 1 * n = n) _
      | ⟨1, _⟩ => exact (by omega : ∀ n : ℕ, 0 + 1 * n = n) _
    · show _ + 1 * k.val = _
      first | (simp; done) | (simp; omega)

/-- First point: the output block. The body reads back the two tables it has just written — read back, they are the
    tokens and their one-hot rows — and the one-hot columns of the point's weight rows. -/
theorem out_A (c : Dev nD) (i : grid0.Coords) (arg1 : Memref sig .tc .vmem S2048x1024 .f32) (harg1 : arg1.IsWhole) (arg2 : Memref sig .tc .vmem S512x1024 .f32) (harg2 : arg2.IsWhole) (arg3 : Memref sig .tc .vmem S1x512 .f32) (harg3 : arg3.IsWhole) (arg4 : Memref sig .tc .vmem S64x1024 .f32) (harg4 : arg4.IsWhole) (arg5 : Memref sig .tc .vmem S64x8 .f32) (harg5 : arg5.IsWhole) (arg6 : Memref sig .tc .vmem S8x64 .f32) (harg6 : arg6.IsWhole) (arg7 : Memref sig .tc .vmem S2048x512 .f32) (harg7 : arg7.IsWhole) (arg8 : Memref sig .tc .vmem S2048x1024 .bf16) (harg8 : arg8.IsWhole) (arg9 : Memref sig .tc .vmem S2048x2048 .bf16) (harg9 : arg9.IsWhole) (arg10 : Memref sig .tc .vmem S2048x512 .bf16) (harg10 : arg10.IsWhole) (hc0 : cond0_0 i)
    (x0 : Vec Ideal S2048x1024 .f32) (x1 : Vec Ideal S512x1024 .f32) (x2 : Vec Ideal S1x512 .f32) (x3 : Vec Ideal S64x1024 .f32) (x4 : Vec Ideal S64x8 .f32) (x5 : Vec Ideal S8x64 .f32) :
    out0_A_6 (F := Ideal) c i arg1 harg1 arg2 harg2 arg3 harg3 arg4 harg4 arg5 harg5 arg6 harg6 arg7 harg7 arg8 harg8 arg9 harg9 arg10 harg10 hc0 x0 x1 x2 x3 x4 x5 = outBlk x1 x2 x3 x5 x0 (xohK x0 x3 x4) := by
  have hcan0 := tokens_A c i arg1 harg1 arg2 harg2 arg3 harg3 arg4 harg4 arg5 harg5 arg6 harg6 arg7 harg7 arg8 harg8 arg9 harg9 arg10 harg10 hc0 x0 x1 x2 x3 x4 x5
  have hcan1 := onehot_A c i arg1 harg1 arg2 harg2 arg3 harg3 arg4 harg4 arg5 harg5 arg6 harg6 arg7 harg7 arg8 harg8 arg9 harg9 arg10 harg10 hc0 x0 x1 x2 x3 x4 x5
  unfold sout0_A_0 at hcan0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5)] at hcan0
  unfold sout0_A_1 at hcan1
  rw [View.read_writes_eq_canon _ _ _ (scover0_A_1 c i arg1 harg1 arg2 harg2 arg3 harg3 arg4 harg4 arg5 harg5 arg6 harg6 arg7 harg7 arg8 harg8 arg9 harg9 arg10 harg10 hc0 x0 x1 x2 x3 x4 x5)] at hcan1
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4 x5)]
  funext y
  refine View.canon_apply_of_pieces (outBlk x1 x2 x3 x5 x0 (xohK x0 x3 x4)) _ ?_ y (cover0_A_6 c i arg1 harg1 arg2 harg2 arg3 harg3 arg4 harg4 arg5 harg5 arg6 harg6 arg7 harg7 arg8 harg8 arg9 harg9 arg10 harg10 hc0 x0 x1 x2 x3 x4 x5 y)
  revert hcan0 hcan1
  unfold kernelRun0_A
  dsimp only
  sl_unfold_words
  intro hcan0 hcan1
  generalize hL : View.readCov (Val := Elt Ideal) arg10.view _ _ = RC
  have hRC : ∀ (k : Fin 2048) (q : Fin 512), (RC (ix2 k q) : EReal) = wohBlk x1 x3 x5 (ix2 k q) := by
    subst hL
    intro k q
    rw [View.readCov_eq_canon']
    refine View.canon_apply_of_pieces (wohBlk x1 x3 x5) _ ?_ _ (View.cover_of_tiledL (s := S2048x512) _ S256x512.size (by sl_kernel_rfl) _) |>.trans ?_
    · intro p hp
      simp only [List.mem_cons, List.mem_nil_iff, or_false] at hp
      rcases hp with rfl | rfl | rfl | rfl | rfl | rfl | rfl | rfl
      all_goals
        intro x
        dsimp only at x ⊢
        obtain ⟨k', q', rfl⟩ : ∃ (k' : Fin 256) (q' : Fin 512), x = ix2 k' q' := ⟨x 0, x 1, eq_ix2 x⟩
        simp only [pay61_at, pay62_at, pay63_at, pay64_at, pay65_at, pay66_at, pay67_at, pay68_at, pay69_at, pay70_at, pay59_at, pay60_at]
        refine woh_tile x1 x3 x5 _ _ _ _ k' q' _ ?_ ?_ ?_ ?_
        · intro d
          rw [readAt_whole]
          refine congrArg x1 (funext fun a => Fin.ext ?_)
          match a with
          | ⟨0, _⟩ => exact (by omega : ∀ n : ℕ, 0 + 1 * n = 0 + 1 * n) _
          | ⟨1, _⟩ => exact (by omega : ∀ n : ℕ, 0 + 1 * n = n) _
        · intro j d
          rw [readAt_whole]
          refine congrArg x3 (funext fun a => Fin.ext ?_)
          match a with
          | ⟨0, _⟩ => exact (by omega : ∀ n : ℕ, 0 + 1 * n = n) _
          | ⟨1, _⟩ => exact (by omega : ∀ n : ℕ, 0 + 1 * n = n) _
        · intro j
          rw [readAt_whole]
          refine congrArg x5 (funext fun a => Fin.ext ?_)
          match a with
          | ⟨0, _⟩ => exact (by omega : ∀ n : ℕ, 0 + 1 * n = n) _
          | ⟨1, _⟩ => exact (by omega : ∀ n : ℕ, 0 + 1 * n = n) _
        · show _ + 1 * k'.val = _
          first | (simp; done) | (simp; omega)
    · refine congrArg (wohBlk x1 x3 x5) (funext fun a => Fin.ext ?_)
      match a with
      | ⟨0, _⟩ => exact (by omega : ∀ n : ℕ, 0 + 1 * n = n) _
      | ⟨1, _⟩ => exact (by omega : ∀ n : ℕ, 0 + 1 * n = n) _
  simp only [View.readCov_eq_canon', hcan0, hcan1]
  intro p hp
  simp only [List.mem_cons, List.mem_nil_iff, or_false] at hp
  rcases hp with rfl | rfl | rfl | rfl
  all_goals
    intro x
    dsimp only at x ⊢
    obtain ⟨r, q, rfl⟩ : ∃ (r q : Fin 512), x = ix2 r q := ⟨x 0, x 1, eq_ix2 x⟩
    simp only [pay1_at, pay2_at, pay72_at, pay73_at]
    refine out_tile x1 x2 x3 x5 x0 (xohK x0 x3 x4) _ _ _ _ _ _ ?_ ?_ ?_ ?_ ?_
    · intro k
      refine congrArg (xohK x0 x3 x4) (funext fun a => Fin.ext ?_)
      match a with
      | ⟨0, _⟩ => rfl
      | ⟨1, _⟩ => exact (by omega : ∀ n : ℕ, 0 + 1 * n = n) _
    · intro k
      rw [hRC]
      refine congrArg (wohBlk x1 x3 x5) (funext fun a => Fin.ext ?_)
      match a with
      | ⟨0, _⟩ => rfl
      | ⟨1, _⟩ => exact (by omega : ∀ n : ℕ, n = 0 + 1 * n) _
    · intro d
      refine congrArg x0 (funext fun a => Fin.ext ?_)
      match a with
      | ⟨0, _⟩ => rfl
      | ⟨1, _⟩ => exact (by omega : ∀ n : ℕ, 0 + 1 * n = n) _
    · intro d
      rw [pay58_at, readAt_whole]
      refine congrArg x1 (funext fun a => Fin.ext ?_)
      match a with
      | ⟨0, _⟩ => exact (by omega : ∀ n : ℕ, 0 + 1 * n = 0 + 1 * n) _
      | ⟨1, _⟩ => exact (by omega : ∀ n : ℕ, 0 + 1 * n = n) _
    · first | rw [pay71_at, readAt_whole] | rw [readAt_whole]
      refine congrArg x2 (funext fun a => Fin.ext ?_)
      match a with
      | ⟨0, _⟩ => exact (by omega : ∀ n : ℕ, 0 + 1 * n = n) _
      | ⟨1, _⟩ => exact (by omega : ∀ n : ℕ, 0 + 1 * n = 0 + 1 * n) _

/-- Later points: the output block, over the tables the point before left. -/
theorem out_B (c : Dev nD) (i : grid0.Coords) (arg1 : Memref sig .tc .vmem S2048x1024 .f32) (harg1 : arg1.IsWhole) (arg2 : Memref sig .tc .vmem S512x1024 .f32) (harg2 : arg2.IsWhole) (arg3 : Memref sig .tc .vmem S1x512 .f32) (harg3 : arg3.IsWhole) (arg4 : Memref sig .tc .vmem S64x1024 .f32) (harg4 : arg4.IsWhole) (arg5 : Memref sig .tc .vmem S64x8 .f32) (harg5 : arg5.IsWhole) (arg6 : Memref sig .tc .vmem S8x64 .f32) (harg6 : arg6.IsWhole) (arg7 : Memref sig .tc .vmem S2048x512 .f32) (harg7 : arg7.IsWhole) (arg8 : Memref sig .tc .vmem S2048x1024 .bf16) (harg8 : arg8.IsWhole) (arg9 : Memref sig .tc .vmem S2048x2048 .bf16) (harg9 : arg9.IsWhole) (arg10 : Memref sig .tc .vmem S2048x512 .bf16) (harg10 : arg10.IsWhole) (hc0 : ¬cond0_0 i)
    (x0 : Vec Ideal S2048x1024 .f32) (x1 : Vec Ideal S512x1024 .f32) (x2 : Vec Ideal S1x512 .f32) (x3 : Vec Ideal S64x1024 .f32) (x4 : Vec Ideal S64x8 .f32) (x5 : Vec Ideal S8x64 .f32) (xs0 : Vec Ideal S2048x1024 .bf16) (xs1 : Vec Ideal S2048x2048 .bf16) :
    out0_B_6 (F := Ideal) c i arg1 harg1 arg2 harg2 arg3 harg3 arg4 harg4 arg5 harg5 arg6 harg6 arg7 harg7 arg8 harg8 arg9 harg9 arg10 harg10 hc0 x0 x1 x2 x3 x4 x5 xs0 xs1 = outBlk x1 x2 x3 x5 xs0 xs1 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 x5 xs0 xs1)]
  funext y
  refine View.canon_apply_of_pieces (outBlk x1 x2 x3 x5 xs0 xs1) _ ?_ y (cover0_B_6 c i arg1 harg1 arg2 harg2 arg3 harg3 arg4 harg4 arg5 harg5 arg6 harg6 arg7 harg7 arg8 harg8 arg9 harg9 arg10 harg10 hc0 x0 x1 x2 x3 x4 x5 xs0 xs1 y)
  unfold kernelRun0_B
  dsimp only
  sl_unfold_words
  generalize hL : View.readCov (Val := Elt Ideal) arg10.view _ _ = RC
  have hRC : ∀ (k : Fin 2048) (q : Fin 512), (RC (ix2 k q) : EReal) = wohBlk x1 x3 x5 (ix2 k q) := by
    subst hL
    intro k q
    rw [View.readCov_eq_canon']
    refine View.canon_apply_of_pieces (wohBlk x1 x3 x5) _ ?_ _ (View.cover_of_tiledL (s := S2048x512) _ S256x512.size (by sl_kernel_rfl) _) |>.trans ?_
    · intro p hp
      simp only [List.mem_cons, List.mem_nil_iff, or_false] at hp
      rcases hp with rfl | rfl | rfl | rfl | rfl | rfl | rfl | rfl
      all_goals
        intro x
        dsimp only at x ⊢
        obtain ⟨k', q', rfl⟩ : ∃ (k' : Fin 256) (q' : Fin 512), x = ix2 k' q' := ⟨x 0, x 1, eq_ix2 x⟩
        simp only [pay61_at, pay62_at, pay63_at, pay64_at, pay65_at, pay66_at, pay67_at, pay68_at, pay69_at, pay70_at, pay59_at, pay60_at]
        refine woh_tile x1 x3 x5 _ _ _ _ k' q' _ ?_ ?_ ?_ ?_
        · intro d
          rw [readAt_whole]
          refine congrArg x1 (funext fun a => Fin.ext ?_)
          match a with
          | ⟨0, _⟩ => exact (by omega : ∀ n : ℕ, 0 + 1 * n = 0 + 1 * n) _
          | ⟨1, _⟩ => exact (by omega : ∀ n : ℕ, 0 + 1 * n = n) _
        · intro j d
          rw [readAt_whole]
          refine congrArg x3 (funext fun a => Fin.ext ?_)
          match a with
          | ⟨0, _⟩ => exact (by omega : ∀ n : ℕ, 0 + 1 * n = n) _
          | ⟨1, _⟩ => exact (by omega : ∀ n : ℕ, 0 + 1 * n = n) _
        · intro j
          rw [readAt_whole]
          refine congrArg x5 (funext fun a => Fin.ext ?_)
          match a with
          | ⟨0, _⟩ => exact (by omega : ∀ n : ℕ, 0 + 1 * n = n) _
          | ⟨1, _⟩ => exact (by omega : ∀ n : ℕ, 0 + 1 * n = n) _
        · show _ + 1 * k'.val = _
          first | (simp; done) | (simp; omega)
    · refine congrArg (wohBlk x1 x3 x5) (funext fun a => Fin.ext ?_)
      match a with
      | ⟨0, _⟩ => exact (by omega : ∀ n : ℕ, 0 + 1 * n = n) _
      | ⟨1, _⟩ => exact (by omega : ∀ n : ℕ, 0 + 1 * n = n) _
  intro p hp
  simp only [List.mem_cons, List.mem_nil_iff, or_false] at hp
  rcases hp with rfl | rfl | rfl | rfl
  all_goals
    intro x
    dsimp only at x ⊢
    obtain ⟨r, q, rfl⟩ : ∃ (r q : Fin 512), x = ix2 r q := ⟨x 0, x 1, eq_ix2 x⟩
    simp only [pay1_at, pay2_at, pay72_at, pay73_at]
    refine out_tile x1 x2 x3 x5 xs0 xs1 _ _ _ _ _ _ ?_ ?_ ?_ ?_ ?_
    · intro k
      rw [readAt_whole]
      refine congrArg xs1 (funext fun a => Fin.ext ?_)
      match a with
      | ⟨0, _⟩ => rfl
      | ⟨1, _⟩ => exact (by omega : ∀ n : ℕ, 0 + 1 * n = n) _
    · intro k
      rw [hRC]
      refine congrArg (wohBlk x1 x3 x5) (funext fun a => Fin.ext ?_)
      match a with
      | ⟨0, _⟩ => rfl
      | ⟨1, _⟩ => exact (by omega : ∀ n : ℕ, n = 0 + 1 * n) _
    · intro d
      rw [readAt_whole]
      refine congrArg xs0 (funext fun a => Fin.ext ?_)
      match a with
      | ⟨0, _⟩ => rfl
      | ⟨1, _⟩ => exact (by omega : ∀ n : ℕ, 0 + 1 * n = n) _
    · intro d
      rw [pay58_at, readAt_whole]
      refine congrArg x1 (funext fun a => Fin.ext ?_)
      match a with
      | ⟨0, _⟩ => exact (by omega : ∀ n : ℕ, 0 + 1 * n = 0 + 1 * n) _
      | ⟨1, _⟩ => exact (by omega : ∀ n : ℕ, 0 + 1 * n = n) _
    · first | rw [pay71_at, readAt_whole] | rw [readAt_whole]
      refine congrArg x2 (funext fun a => Fin.ext ?_)
      match a with
      | ⟨0, _⟩ => exact (by omega : ∀ n : ℕ, 0 + 1 * n = n) _
      | ⟨1, _⟩ => exact (by omega : ∀ n : ℕ, 0 + 1 * n = 0 + 1 * n) _

end Cert.KernelIdeal.Pieces

end
-- ==== Proof.KernelArr.lean ====
/-
  The kernel's result array after the last grid point.

  The two carried tables hold, after every point, the tokens and the tokens' one-hot rows (they are written at the
  first point and only read afterwards); so the block each point writes back is the block function of that point's
  weight rows and bias; the eight blocks tile the result array, which is therefore the matrix-unit form `Gk` of the
  six operand arrays as the region finds them.
-/
import proofs.«163952_g61529701483102_cont_9to1_m_177_18_alg».proof.Proof.Pieces
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.Spec

variable (m : (ℓ : Loc nD τ sig) → Buf (Elt Ideal) ℓ) (ρ : Dev nD → PrngReg)

/-- The six operand arrays as the region finds them, at their literal types. -/
abbrev X2 (c : Dev nD) : I2 2048 1024 → EReal := V m c main_call0_v0
abbrev WV (c : Dev nD) : I2 4096 1024 → EReal := V m c main_arg1
abbrev B2 (c : Dev nD) : I2 1 4096 → EReal := V m c main_call0_v2
abbrev P2 (c : Dev nD) : I2 64 1024 → EReal := V m c main_call0_v1
abbrev PK (c : Dev nD) : I2 64 8 → EReal := V m c main_call0_cst_0
abbrev PKT (c : Dev nD) : I2 8 64 → EReal := V m c main_call0_cst

/-- The windows' block indices at every point of the grid: the whole-array windows stay at block zero; the weight rows,
    the bias columns and the result columns move with the point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- The operand blocks of point `t`, at their literal types. -/
abbrev xblk (c : Dev nD) (t : Fin cfg0.N) : Vec Ideal S2048x1024 .f32 := iblk m c 0 t
abbrev wblk (c : Dev nD) (t : Fin cfg0.N) : Vec Ideal S512x1024 .f32 := iblk m c 1 t
abbrev bblk (c : Dev nD) (t : Fin cfg0.N) : Vec Ideal S1x512 .f32 := iblk m c 2 t
abbrev pblk (c : Dev nD) (t : Fin cfg0.N) : Vec Ideal S64x1024 .f32 := iblk m c 3 t
abbrev pkblk (c : Dev nD) (t : Fin cfg0.N) : Vec Ideal S64x8 .f32 := iblk m c 4 t
abbrev pktblk (c : Dev nD) (t : Fin cfg0.N) : Vec Ideal S8x64 .f32 := iblk m c 5 t

/-- The tokens' window is the whole array at every point. -/
theorem xblk_eq (c : Dev nD) (t : Fin cfg0.N) : xblk m c t = X2 m c := by
  obtain ⟨e0, e1, -⟩ := idx_facts t
  funext j
  unfold xblk iblk
  rw [View.read_apply]
  show V m c main_call0_v0 _ = V m c main_call0_v0 j
  congr 1
  funext a
  apply Fin.ext
  match a with
  | ⟨0, _⟩ => show win0_0.index t 0 * 2048 + 1 * (j 0).val = (j 0).val; rw [e0]; omega
  | ⟨1, _⟩ => show win0_0.index t 1 * 1024 + 1 * (j 1).val = (j 1).val; rw [e1]; omega

/-- The projections' window is the whole array at every point. -/
theorem pblk_eq (c : Dev nD) (t : Fin cfg0.N) : pblk m c t = P2 m c := by
  obtain ⟨-, -, -, -, -, -, e0, e1, -⟩ := idx_facts t
  funext j
  unfold pblk iblk
  rw [View.read_apply]
  show V m c main_call0_v1 _ = V m c main_call0_v1 j
  congr 1
  funext a
  apply Fin.ext
  match a with
  | ⟨0, _⟩ => show win0_3.index t 0 * 64 + 1 * (j 0).val = (j 0).val; rw [e0]; omega
  | ⟨1, _⟩ => show win0_3.index t 1 * 1024 + 1 * (j 1).val = (j 1).val; rw [e1]; omega

/-- The packing matrix's window is the whole array at every point. -/
theorem pkblk_eq (c : Dev nD) (t : Fin cfg0.N) : pkblk m c t = PK m c := by
  obtain ⟨-, -, -, -, -, -, -, -, e0, e1, -⟩ := idx_facts t
  funext j
  unfold pkblk iblk
  rw [View.read_apply]
  show V m c main_call0_cst_0 _ = V m c main_call0_cst_0 j
  congr 1
  funext a
  apply Fin.ext
  match a with
  | ⟨0, _⟩ => show win0_4.index t 0 * 64 + 1 * (j 0).val = (j 0).val; rw [e0]; omega
  | ⟨1, _⟩ => show win0_4.index t 1 * 8 + 1 * (j 1).val = (j 1).val; rw [e1]; omega

/-- The transposed packing matrix's window is the whole array at every point. -/
theorem pktblk_eq (c : Dev nD) (t : Fin cfg0.N) : pktblk m c t = PKT m c := by
  obtain ⟨-, -, -, -, -, -, -, -, -, -, e0, e1, -⟩ := idx_facts t
  funext j
  unfold pktblk iblk
  rw [View.read_apply]
  show V m c main_call0_cst _ = V m c main_call0_cst j
  congr 1
  funext a
  apply Fin.ext
  match a with
  | ⟨0, _⟩ => show win0_5.index t 0 * 8 + 1 * (j 0).val = (j 0).val; rw [e0]; omega
  | ⟨1, _⟩ => show win0_5.index t 1 * 64 + 1 * (j 1).val = (j 1).val; rw [e1]; omega

/-- The grid has eight points. -/
theorem tlt (t : Fin cfg0.N) : t.val < 8 := lt_of_lt_of_eq t.isLt (show cfg0.N = 8 from N_0)

/-- Row `q` of the weight block of point `t` is row `512 t + q` of the weight matrix. -/
theorem wblk_apply (c : Dev nD) (t : Fin cfg0.N) (q : Fin 512) (d : Fin 1024) :
    wblk m c t (ix2 q d) = WV m c (ix2 (⟨512 * t.val + q.val, by have := tlt t; omega⟩ : Fin 4096) d) := by
  obtain ⟨-, -, e0, e1, -⟩ := idx_facts t
  unfold wblk iblk
  rw [View.read_apply]
  show V m c main_arg1 _ = V m c main_arg1 _
  congr 1
  funext a
  apply Fin.ext
  match a with
  | ⟨0, _⟩ => show win0_1.index t 0 * 512 + 1 * q.val = 512 * t.val + q.val; rw [e0]; omega
  | ⟨1, _⟩ => show win0_1.index t 1 * 1024 + 1 * d.val = d.val; rw [e1]; omega

/-- Column `q` of the bias block of point `t` is column `512 t + q` of the bias row. -/
theorem bblk_apply (c : Dev nD) (t : Fin cfg0.N) (q : Fin 512) :
    bblk m c t (ix2 0 q) = B2 m c (ix2 0 (⟨512 * t.val + q.val, by have := tlt t; omega⟩ : Fin 4096)) := by
  obtain ⟨-, -, -, -, e0, e1, -⟩ := idx_facts t
  unfold bblk iblk
  rw [View.read_apply]
  show V m c main_call0_v2 _ = V m c main_call0_v2 _
  congr 1
  funext a
  apply Fin.ext
  match a with
  | ⟨0, _⟩ => show win0_2.index t 0 * 1 + 1 * 0 = 0; rw [e0]
  | ⟨1, _⟩ => show win0_2.index t 1 * 512 + 1 * q.val = 512 * t.val + q.val; rw [e1]; omega

/-- The tables of the tokens and of their one-hot rows, as the operand arrays give them. -/
abbrev XOH (c : Dev nD) : I2 2048 2048 → EReal := xohK (X2 m c) (P2 m c) (PK m c)

/-- The block a point leaves, as a function of its weight rows and bias columns over the two tables. -/
abbrev OB (c : Dev nD) (t : Fin cfg0.N) : I2 2048 512 → EReal :=
  outBlk (wblk m c t) (bblk m c t) (P2 m c) (PKT m c) (X2 m c) (XOH m c)

/-- A point that writes the tables leaves the tokens in the first, -/
theorem tokens_at (c : Dev nD) (t : Fin cfg0.N) (h0 : t.val % 8 = 0) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) = X2 m c :=
  (Pieces.tokens_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t)).trans (xblk_eq m c t)

/-- their one-hot rows in the second, -/
theorem onehot_at (c : Dev nD) (t : Fin cfg0.N) (h0 : t.val % 8 = 0) :
    sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) = XOH m c :=
  (Pieces.onehot_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t)).trans (by
    show xohK (xblk m c t) (pblk m c t) (pkblk m c t) = _
    rw [xblk_eq, pblk_eq, pkblk_eq])

/-- and the block function of its weight rows and bias columns in the output block. -/
theorem outA_at (c : Dev nD) (t : Fin cfg0.N) (h0 : t.val % 8 = 0) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) = OB m c t :=
  (Pieces.out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t)).trans (by
    show outBlk (wblk m c t) (bblk m c t) (pblk m c t) (pktblk m c t) (xblk m c t) (xohK (xblk m c t) (pblk m c t) (pkblk m c t)) = _
    rw [xblk_eq, pblk_eq, pkblk_eq, pktblk_eq])

/-- A point that only reads the tables, finding them as above, leaves the same block function. -/
theorem outB_at (c : Dev nD) (t : Fin cfg0.N) (h0 : ¬t.val % 8 = 0)
    (xs0 : Vec Ideal S2048x1024 .bf16) (xs1 : Vec Ideal S2048x2048 .bf16) (e0 : xs0 = X2 m c) (e1 : xs1 = XOH m c) :
    out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) xs0 xs1 = OB m c t :=
  (Pieces.out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) xs0 xs1).trans (by
    show outBlk (wblk m c t) (bblk m c t) (pblk m c t) (pktblk m c t) xs0 xs1 = _
    rw [pblk_eq, pktblk_eq, e0, e1])

/-- THE INVARIANT: after every point the two tables hold the tokens and their one-hot rows, and the output block the
    block function of the point's weight rows and bias columns — by induction on the point. -/
theorem outsAt_inv (c : Dev nD) : ∀ (n : ℕ) (h : n < cfg0.N),
    (outsAt0 m c n h).2.1 = X2 m c ∧ (outsAt0 m c n h).2.2 = XOH m c ∧ (outsAt0 m c n h).1 = OB m c ⟨n, h⟩
  | 0, h => by
    rw [outsAt0_A m c ⟨0, h⟩ rfl]
    dsimp only
    exact ⟨tokens_at m c ⟨0, h⟩ rfl, onehot_at m c ⟨0, h⟩ rfl, outA_at m c ⟨0, h⟩ rfl⟩
  | n + 1, h => by
    obtain ⟨i0, i1, -⟩ := outsAt_inv c n (Nat.lt_of_succ_lt h)
    have hB : ¬(⟨n + 1, h⟩ : Fin cfg0.N).val % 8 = 0 := by
      have := tlt ⟨n + 1, h⟩
      dsimp only at this ⊢
      omega
    rw [outsAt0_B m c ⟨n + 1, h⟩ hB]
    dsimp only
    refine ⟨?_, ?_, ?_⟩
    · unfold sout0_B_0
      exact i0
    · unfold sout0_B_1
      exact i1
    · exact outB_at m c ⟨n + 1, h⟩ hB _ _ i0 i1

/-- The matrix-unit form of the result, of the operand arrays as the region finds them. -/
abbrev GK (c : Dev nD) : I2 2048 4096 → EReal := Gk (X2 m c) (WV m c) (B2 m c) (P2 m c) (PK m c) (PKT m c)

/-- WHAT POINT `t` WRITES BACK is block `t` of the matrix-unit form: element `(r, q)` of the block is the form's element
    `(r, 512 t + q)`. -/
theorem flushed_eq (c : Dev nD) (t : Fin cfg0.N) :
    (dats m 0 c).flushed 6 t = ((cfg0.win 6).blk t).view.read (Elt Ideal) (GK m c) := by
  show (cfg0.win 6).cut (grid0.coords t) ((dats m 0 c).after 6 t) = _
  rw [after0_6, (outsAt_inv m c t.val t.isLt).2.2]
  obtain ⟨-, -, -, -, -, -, -, -, -, -, -, -, e0, e1⟩ := idx_facts t
  have ht := tlt t
  funext y
  rw [View.read_apply]
  have hy0 : (y 0).val < 2048 := (y 0).isLt
  have hy1 : (y 1).val < 512 := (y 1).isLt
  show OB m c t (ix2 (⟨(y 0).val, hy0⟩ : Fin 2048) (⟨(y 1).val, hy1⟩ : Fin 512)) = GK m c (((cfg0.win 6).blk t).view.emb y)
  refine (outBlk_eq_Gk (X2 m c) (WV m c) (B2 m c) (P2 m c) (PK m c) (PKT m c) ⟨t.val, ht⟩ (wblk m c t) (bblk m c t)
    (wblk_apply m c t) (bblk_apply m c t) ⟨(y 0).val, hy0⟩ ⟨(y 1).val, hy1⟩).trans ?_
  show GK m c _ = GK m c _
  congr 1
  funext a
  apply Fin.ext
  match a with
  | ⟨0, _⟩ => show (y 0).val = win0_6.index t 0 * 2048 + 1 * (y 0).val; rw [e0]; omega
  | ⟨1, _⟩ => show 512 * t.val + (y 1).val = win0_6.index t 1 * 512 + 1 * (y 1).val; rw [e1]; omega

/-- The result array (window 6's array) after the last point is `Gk` of the operand arrays. -/
theorem final_out (c : Dev nD) :
    (dats m 0 c).arrAt 6 cfg0.N = (Gk (X2 m c) (WV m c) (B2 m c) (P2 m c) (PK m c) (PKT m c) : I2 2048 4096 → EReal) :=
  (dats m 0 c).arrAt_eq_of_cover 6 (GK m c) (fun t _ => flushed_eq m c t) fun i => by
    have hi0 : (i 0 : Nat) < 2048 := (i 0).isLt
    have hi1 : (i 1 : Nat) < 4096 := (i 1).isLt
    have hN : cfg0.N = 8 := N_0
    obtain ⟨t, ht⟩ : ∃ t : Fin cfg0.N, t.val = (i 1 : Nat) / 512 := ⟨⟨(i 1 : Nat) / 512, by rw [hN]; omega⟩, rfl⟩
    obtain ⟨-, -, -, -, -, -, -, -, -, -, -, -, e0, e1⟩ := idx_facts t
    refine ⟨t, flush0_6 t, ?_⟩
    show i ∈ ((View.whole main_call0_v3).slice (win0_6.rect t)).set
    rw [View.set_slice_whole, Rect.mem_set_unit]
    intro a
    match a with
    | ⟨0, _⟩ =>
      show win0_6.index t 0 * 2048 ≤ (i 0 : Nat) ∧ (i 0 : Nat) < win0_6.index t 0 * 2048 + 2048
      rw [e0]; omega
    | ⟨1, _⟩ =>
      show win0_6.index t 1 * 512 ≤ (i 1 : Nat) ∧ (i 1 : Nat) < win0_6.index t 1 * 512 + 512
      rw [e1, ht]; omega

end Cert.KernelIdeal.Arr

end
-- ==== Proof.Bridge.lean ====
/-
  The matrix-unit form of the result is the reference's form.

  With the packing matrix as stated, the product of a token's 64 sign bits with column `t` is the bucket number of
  table `t` (a natural number below 256, read as a real); an equality test against the float `k` is the test
  `code = k`; and the product of the two one-hot matrices counts the tables whose bucket numbers agree, so it is
  positive exactly when some table collides.
-/
import proofs.«163952_g61529701483102_cont_9to1_m_177_18_alg».proof.Proof.Spec
import Mathlib.Data.EReal.Basic
import Mathlib.Logic.Equiv.Fin.Basic
import Mathlib.Algebra.BigOperators.Fin
import Mathlib.Data.Fintype.BigOperators
import Mathlib.Algebra.Order.BigOperators.Group.Finset

noncomputable section

open scoped BigOperators
open Idealize.ShloMosaic Idealize.ShloMosaic.ValueIdx

namespace Cert.Spec

/-! ## Bucket numbers read as extended reals -/

theorem iotaF_zero : iotaF 0 = 0 := by simp [iotaF]

theorem iotaF_add (a b : ℕ) : iotaF (a + b) = iotaF a + iotaF b := by
  simp [iotaF, Nat.cast_add, EReal.coe_add]

/-- The reading of a natural number as an extended real commutes with finite sums. -/
theorem iotaF_sum {ι : Type} (s : Finset ι) (g : ι → ℕ) : iotaF (∑ i ∈ s, g i) = ∑ i ∈ s, iotaF (g i) := by
  classical
  induction s using Finset.induction_on with
  | empty => simp [iotaF_zero]
  | insert a s ha ih => rw [Finset.sum_insert ha, Finset.sum_insert ha, iotaF_add, ih]

/-- Two natural numbers read as extended reals are equal only if they are equal. -/
theorem iotaF_inj {a b : ℕ} : iotaF a = iotaF b ↔ a = b := by
  unfold iotaF
  rw [EReal.coe_eq_coe_iff, Nat.cast_inj]

/-! ## The packing product is the bucket number -/

/-- A sum over 64 indices is the double sum over 8 blocks of 8: `j = 8 t + h`. -/
theorem sum_fin64 {M : Type} [AddCommMonoid M] (f : Fin 64 → M) :
    ∑ j : Fin 64, f j = ∑ t : Fin 8, ∑ h : Fin 8, f ⟨8 * t.val + h.val, by omega⟩ := by
  calc ∑ j : Fin 64, f j
      = ∑ x : Fin 8 × Fin 8, f (finProdFinEquiv x) := (Equiv.sum_comp (finProdFinEquiv (m := 8) (n := 8)) f).symm
    _ = ∑ t : Fin 8, ∑ h : Fin 8, f (finProdFinEquiv (t, h)) := Fintype.sum_prod_type _
    _ = _ := by
      refine Finset.sum_congr rfl fun t _ => Finset.sum_congr rfl fun h _ => ?_
      congr 1
      apply Fin.ext
      simp only [finProdFinEquiv, Equiv.coe_fn_mk]
      omega

/-- Row `8 t' + h` of the packing matrix has `2^h` in column `t'` and zero in the other columns. -/
theorem pkv_block (t' h t : Fin 8) :
    pkv ⟨8 * t'.val + h.val, by omega⟩ t = if t' = t then iotaF (2 ^ h.val) else 0 := by
  unfold pkv iotaF
  have h1 : (8 * t'.val + h.val) / 8 = t'.val := by omega
  have h2 : (8 * t'.val + h.val) % 8 = h.val := by omega
  by_cases e : t' = t
  · subst e
    simp [h1, h2]
  · have e' : t'.val ≠ t.val := fun hh => e (Fin.ext hh)
    simp [h1, e, e']

/-- A sign bit times a natural number is that number or zero. -/
theorem bit01_mul_iotaF (w : EReal) (n : ℕ) : bit01 w * iotaF n = iotaF (if 0 < w then n else 0) := by
  unfold bit01
  by_cases hw : 0 < w
  · simp [hw]
  · simp [hw, iotaF_zero]

/-- The 64 sign bits times column `t` of the packing matrix: the bucket number of block `t`. -/
theorem codes_sum (v : Fin 64 → EReal) (t : Fin 8) :
    ∑ j : Fin 64, bit01 (v j) * pkv j t
      = iotaF (code (fun h : Fin 8 => v ⟨8 * t.val + h.val, by omega⟩)) := by
  rw [sum_fin64]
  simp only [pkv_block]
  rw [Finset.sum_eq_single t]
  · unfold code
    rw [iotaF_sum]
    refine Finset.sum_congr rfl fun h _ => ?_
    rw [if_pos rfl, bit01_mul_iotaF]
  · intro t' _ hne
    simp [hne]
  · intro hh
    exact absurd (Finset.mem_univ t) hh

/-- A bucket number is below 256. -/
theorem code_lt (v : Fin 8 → EReal) : code v < 256 := by
  have h1 : code v ≤ ∑ h : Fin 8, 2 ^ h.val :=
    Finset.sum_le_sum fun h _ => by split_ifs <;> simp
  have h2 : (∑ h : Fin 8, 2 ^ h.val : ℕ) = 255 := by simp [Fin.sum_univ_eight]
  omega

/-! ## The float bucket numbers of the matrix-unit form -/

section operands

variable (x : I3 1 2048 1024 → EReal) (W : I2 4096 1024 → EReal) (b : I1 4096 → EReal) (p : I3 8 8 1024 → EReal)
  (x2 : I2 2048 1024 → EReal) (b2 : I2 1 4096 → EReal) (p2 : I2 64 1024 → EReal) (pk : I2 64 8 → EReal) (pkt : I2 8 64 → EReal)

/-- Projection `8 t + h` of token `s` in the flattened direction matrix is hash `h` of table `t`. -/
theorem proj2_x
    (hx : ∀ (s : Fin 2048) (d : Fin 1024), x2 (ix2 s d) = x (ix3 0 s d))
    (hp : ∀ (t h : Fin 8) (d : Fin 1024), p2 (ix2 (⟨8 * t.val + h.val, by omega⟩ : Fin 64) d) = p (ix3 t h d))
    (s : Fin 2048) (t h : Fin 8) :
    proj2 x2 p2 s ⟨8 * t.val + h.val, by omega⟩ = projX x p s t h := by
  unfold proj2 projX
  exact Finset.sum_congr rfl fun d _ => by rw [hx, hp]

/-- Projection `8 t + h` of weight row `o` in the flattened direction matrix is hash `h` of table `t`. -/
theorem proj2_w
    (hp : ∀ (t h : Fin 8) (d : Fin 1024), p2 (ix2 (⟨8 * t.val + h.val, by omega⟩ : Fin 64) d) = p (ix3 t h d))
    (o : Fin 4096) (t h : Fin 8) :
    proj2 W p2 o ⟨8 * t.val + h.val, by omega⟩ = projW W p o t h := by
  unfold proj2 projW
  exact Finset.sum_congr rfl fun d _ => by rw [hp]

/-- The token's float bucket number is its bucket number. -/
theorem codesK_eq
    (hx : ∀ (s : Fin 2048) (d : Fin 1024), x2 (ix2 s d) = x (ix3 0 s d))
    (hp : ∀ (t h : Fin 8) (d : Fin 1024), p2 (ix2 (⟨8 * t.val + h.val, by omega⟩ : Fin 64) d) = p (ix3 t h d))
    (hpk : ∀ (j : Fin 64) (t : Fin 8), pk (ix2 j t) = pkv j t)
    (s : Fin 2048) (t : Fin 8) :
    codesK x2 p2 pk s t = iotaF (code (projX x p s t)) := by
  unfold codesK
  simp only [hpk]
  rw [codes_sum]
  have e : (fun h : Fin 8 => proj2 x2 p2 s ⟨8 * t.val + h.val, by omega⟩) = projX x p s t :=
    funext fun h => proj2_x x p x2 p2 hx hp s t h
  rw [e]

/-- The weight row's float bucket number is its bucket number. -/
theorem wctK_eq
    (hp : ∀ (t h : Fin 8) (d : Fin 1024), p2 (ix2 (⟨8 * t.val + h.val, by omega⟩ : Fin 64) d) = p (ix3 t h d))
    (hpkt : ∀ (t : Fin 8) (j : Fin 64), pkt (ix2 t j) = pkv j t)
    (t : Fin 8) (o : Fin 4096) :
    wctK W p2 pkt t o = iotaF (code (projW W p o t)) := by
  unfold wctK
  simp only [hpkt]
  have e0 : ∑ j : Fin 64, pkv j t * bit01 (proj2 W p2 o j) = ∑ j : Fin 64, bit01 (proj2 W p2 o j) * pkv j t :=
    Finset.sum_congr rfl fun j _ => mul_comm _ _
  rw [e0, codes_sum]
  have e : (fun h : Fin 8 => proj2 W p2 o ⟨8 * t.val + h.val, by omega⟩) = projW W p o t :=
    funext fun h => proj2_w W p p2 hp o t h
  rw [e]

/-! ## The one-hot rows test the bucket number -/

/-- Column `k` of the token's one-hot row is one exactly where table `k / 256` has bucket number `k % 256`. -/
theorem xohK_eq
    (hx : ∀ (s : Fin 2048) (d : Fin 1024), x2 (ix2 s d) = x (ix3 0 s d))
    (hp : ∀ (t h : Fin 8) (d : Fin 1024), p2 (ix2 (⟨8 * t.val + h.val, by omega⟩ : Fin 64) d) = p (ix3 t h d))
    (hpk : ∀ (j : Fin 64) (t : Fin 8), pk (ix2 j t) = pkv j t)
    (s k : Fin 2048) :
    xohK x2 p2 pk (ix2 s k)
      = if code (projX x p s ⟨k.val / 256, by omega⟩) = k.val % 256 then 1 else 0 := by
  unfold xohK
  refine if_congr ?_ rfl rfl
  show codesK x2 p2 pk s ⟨k.val / 256, _⟩ = iotaF (k.val % 256) ↔ _
  rw [codesK_eq x p x2 p2 pk hx hp hpk, iotaF_inj]

/-- Row `k` of the weight row's one-hot column is one exactly where table `k / 256` has bucket number `k % 256`. -/
theorem wohK_eq
    (hp : ∀ (t h : Fin 8) (d : Fin 1024), p2 (ix2 (⟨8 * t.val + h.val, by omega⟩ : Fin 64) d) = p (ix3 t h d))
    (hpkt : ∀ (t : Fin 8) (j : Fin 64), pkt (ix2 t j) = pkv j t)
    (k : Fin 2048) (o : Fin 4096) :
    wohK W p2 pkt (ix2 k o)
      = if k.val % 256 = code (projW W p o ⟨k.val / 256, by omega⟩) then 1 else 0 := by
  unfold wohK
  refine if_congr ?_ rfl rfl
  show iotaF (k.val % 256) = wctK W p2 pkt ⟨k.val / 256, _⟩ o ↔ _
  rw [wctK_eq W p p2 pkt hp hpkt, iotaF_inj]

/-! ## The one-hot product counts the colliding tables -/

/-- The product of two indicators is the indicator of the conjunction. -/
theorem ite_mul_ite (A B : Prop) [Decidable A] [Decidable B] :
    (if A then (1 : EReal) else 0) * (if B then 1 else 0) = if A ∧ B then 1 else 0 := by
  by_cases hA : A <;> by_cases hB : B <;> simp [hA, hB]

/-- A finite sum of indicators is positive exactly when one of the conditions holds. -/
theorem sum_ind_pos {ι : Type} [Fintype ι] (C : ι → Prop) [DecidablePred C] :
    0 < ∑ k : ι, (if C k then (1 : EReal) else 0) ↔ ∃ k, C k := by
  constructor
  · intro h
    by_contra hne
    have hz : ∑ k : ι, (if C k then (1 : EReal) else 0) = 0 :=
      Finset.sum_eq_zero fun k _ => if_neg fun hk => hne ⟨k, hk⟩
    rw [hz] at h
    exact lt_irrefl _ h
  · rintro ⟨k, hk⟩
    have h1 : (fun k => if C k then (1 : EReal) else 0) k ≤ ∑ k : ι, (if C k then (1 : EReal) else 0) :=
      Finset.single_le_sum (f := fun k => if C k then (1 : EReal) else 0)
        (fun i _ => by show (0 : EReal) ≤ if C i then 1 else 0; split_ifs <;> simp) (Finset.mem_univ k)
    simp only [if_pos hk] at h1
    exact lt_of_lt_of_le zero_lt_one h1

/-- The one-hot product is positive exactly when some table collides. -/
theorem cntK_pos_iff
    (hx : ∀ (s : Fin 2048) (d : Fin 1024), x2 (ix2 s d) = x (ix3 0 s d))
    (hp : ∀ (t h : Fin 8) (d : Fin 1024), p2 (ix2 (⟨8 * t.val + h.val, by omega⟩ : Fin 64) d) = p (ix3 t h d))
    (hpk : ∀ (j : Fin 64) (t : Fin 8), pk (ix2 j t) = pkv j t)
    (hpkt : ∀ (t : Fin 8) (j : Fin 64), pkt (ix2 t j) = pkv j t)
    (s : Fin 2048) (o : Fin 4096) :
    0 < cntK x2 W p2 pk pkt s o ↔ hit x W p s o := by
  unfold cntK hit
  simp only [xohK_eq x p x2 p2 pk hx hp hpk, wohK_eq W p p2 pkt hp hpkt, ite_mul_ite]
  rw [sum_ind_pos]
  constructor
  · rintro ⟨k, hA, hB⟩
    exact ⟨⟨k.val / 256, by omega⟩, hA.trans hB⟩
  · rintro ⟨t, ht⟩
    have hc := code_lt (projX x p s t)
    have hk : 256 * t.val + code (projX x p s t) < 2048 := by omega
    have hdiv : (⟨(256 * t.val + code (projX x p s t)) / 256, by omega⟩ : Fin 8) = t := Fin.ext (by simp only []; omega)
    have hmod : (256 * t.val + code (projX x p s t)) % 256 = code (projX x p s t) := by omega
    refine ⟨⟨256 * t.val + code (projX x p s t), hk⟩, ?_, ?_⟩
    · simp only [hdiv, hmod]
    · simp only [hdiv, hmod]
      exact ht

end operands

/-! ## The two forms agree -/

theorem Gk_eq_G (x : I3 1 2048 1024 → EReal) (W : I2 4096 1024 → EReal) (b : I1 4096 → EReal) (p : I3 8 8 1024 → EReal)
    (x2 : I2 2048 1024 → EReal) (b2 : I2 1 4096 → EReal) (p2 : I2 64 1024 → EReal) (pk : I2 64 8 → EReal) (pkt : I2 8 64 → EReal)
    (hx : ∀ (s : Fin 2048) (d : Fin 1024), x2 (ix2 s d) = x (ix3 0 s d))
    (hb : ∀ o : Fin 4096, b2 (ix2 0 o) = b (ix1 o))
    (hp : ∀ (t h : Fin 8) (d : Fin 1024), p2 (ix2 (⟨8 * t.val + h.val, by omega⟩ : Fin 64) d) = p (ix3 t h d))
    (hpk : ∀ (j : Fin 64) (t : Fin 8), pk (ix2 j t) = pkv j t)
    (hpkt : ∀ (t : Fin 8) (j : Fin 64), pkt (ix2 t j) = pkv j t)
    (s : Fin 2048) (o : Fin 4096) :
    Gk x2 W b2 p2 pk pkt (ix2 s o) = G x W b p (ix3 0 s o) := by
  classical
  unfold Gk G
  refine if_congr ?_ ?_ rfl
  · exact cntK_pos_iff x W p x2 p2 pk pkt hx hp hpk hpkt s o
  · show (∑ d : Fin 1024, x2 (ix2 s d) * W (ix2 o d)) + b2 (ix2 0 o) = dense x W b s o
    unfold dense
    rw [hb]
    congr 1
    exact Finset.sum_congr rfl fun d _ => by rw [hx]

end Cert.Spec

end
-- ==== Proof.KernelRun.lean ====
/-
  The kernel program's run, read: the result buffer ends holding the reference's form `G` of the four arguments.

  Before the region the program reshapes the tokens, the projections and the bias and writes the two packing
  matrices as constants; after it, it reshapes the region's result array. Read at an index, a reshape between these
  shapes keeps the row-major position, and the constants are the packing matrix `pkv` and its transpose.
-/
import proofs.«163952_g61529701483102_cont_9to1_m_177_18_alg».proof.Proof.KernelArr
import proofs.«163952_g61529701483102_cont_9to1_m_177_18_alg».proof.Proof.Bridge
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.Spec Cert.KernelIdeal.Arr
open Idealize.ShloMosaic.StableHlo

variable (m : (ℓ : Loc nD τ sig) → Buf (Elt Ideal) ℓ) (ρ : Dev nD → PrngReg)

/-! ## The three reshaped operands -/

/-- The tokens' operand array is the reshape of the tokens. -/
theorem X2_eq (c : Dev nD) :
    (V m c main_call0_v0 : S2048x1024.Idx → EReal)
      = shapeCast S2048x1024 (m ((c : Thread nD τ).loc main_arg0)) shapeCasts_S1x2048x1024_S2048x1024 := by
  show StableHlo.after hostOps0 (fun b => m (c, b)) (Proc.devRef .tc main_call0_v0) = _
  after_results
  rfl

/-- The reshaped tokens, row by row. -/
theorem X2_apply (c : Dev nD) (s : Fin 2048) (d : Fin 1024) :
    X2 m c (ix2 s d) = m ((c : Thread nD τ).loc main_arg0) (ix3 0 s d) := by
  show (V m c main_call0_v0 : S2048x1024.Idx → EReal) (ix2 s d) = _
  rw [X2_eq]
  refine shapeCast_apply _ _ _ (ix3 0 s d) ?_
  rw [Shape.rowMajor_val_two, Shape.rowMajor_val_three]
  simp

/-- The bias's operand array is the reshape of the bias. -/
theorem B2_eq (c : Dev nD) :
    (V m c main_call0_v2 : S1x4096.Idx → EReal)
      = shapeCast S1x4096 (m ((c : Thread nD τ).loc main_arg2)) shapeCasts_S4096_S1x4096 := by
  show StableHlo.after hostOps0 (fun b => m (c, b)) (Proc.devRef .tc main_call0_v2) = _
  after_results
  rfl

/-- The reshaped bias. -/
theorem B2_apply (c : Dev nD) (o : Fin 4096) :
    B2 m c (ix2 0 o) = m ((c : Thread nD τ).loc main_arg2) (ix1 o) := by
  show (V m c main_call0_v2 : S1x4096.Idx → EReal) (ix2 0 o) = _
  rw [B2_eq]
  refine shapeCast_apply _ _ _ (ix1 o) ?_
  rw [Shape.rowMajor_val_two, Shape.rowMajor_val_one]
  simp

/-- The projections' operand array is the reshape of the projections. -/
theorem P2_eq (c : Dev nD) :
    (V m c main_call0_v1 : S64x1024.Idx → EReal)
      = shapeCast S64x1024 (m ((c : Thread nD τ).loc main_arg3)) shapeCasts_S8x8x1024_S64x1024 := by
  show StableHlo.after hostOps0 (fun b => m (c, b)) (Proc.devRef .tc main_call0_v1) = _
  after_results
  rfl

/-- The reshaped projections: row `8 t + h` is hash `h` of table `t`. -/
theorem P2_apply (c : Dev nD) (t h : Fin 8) (d : Fin 1024) :
    P2 m c (ix2 (⟨8 * t.val + h.val, by omega⟩ : Fin 64) d) = m ((c : Thread nD τ).loc main_arg3) (ix3 t h d) := by
  show (V m c main_call0_v1 : S64x1024.Idx → EReal) (ix2 (⟨8 * t.val + h.val, by omega⟩ : Fin 64) d) = _
  rw [P2_eq]
  refine shapeCast_apply _ _ _ (ix3 t h d) ?_
  rw [Shape.rowMajor_val_two, Shape.rowMajor_val_three]
  show (t.val * 8 + h.val) * 1024 + d.val = (8 * t.val + h.val) * 1024 + d.val
  omega

/-! ## The two constants -/

/-- The words of the packing matrix's table: position `8 j + t` holds the float `2 ^ (j % 8)` where `j / 8 = t`, zero elsewhere. -/
theorem lit1_words : ∀ i : Fin 512, lit1 i
    = (if (i.val / 8) / 8 = i.val % 8 then BitVec.ofNat 32 (0x3F800000 + ((i.val / 8) % 8) * 0x800000) else 0#32) := by
  decide +kernel

/-- The words of the transposed table: position `64 t + j` holds the float `2 ^ (j % 8)` where `j / 8 = t`, zero elsewhere. -/
theorem lit0_words : ∀ i : Fin 512, lit0 i
    = (if (i.val % 64) / 8 = i.val / 64 then BitVec.ofNat 32 (0x3F800000 + ((i.val % 64) % 8) * 0x800000) else 0#32) := by
  decide +kernel

/-- The eight float words: exponent field `127 + h`, no fraction, is `2 ^ h`. -/
theorem pow_word (h : Fin 8) :
    Ideal.ofBits .f32 (BitVec.ofNat 32 (0x3F800000 + h.val * 0x800000)) = (((2 ^ h.val : ℕ) : ℝ) : EReal) := by
  fin_cases h
  all_goals (simp [Ideal.ofBits, Ideal.ieee, -EReal.coe_mul]; try norm_num)

/-- The zero word. -/
theorem zero_word : Ideal.ofBits .f32 0#32 = 0 := by simp [Ideal.ofBits, Ideal.ieee]

/-- The packing matrix's operand array is the constant's table read row-major. -/
theorem PK_eq (c : Dev nD) :
    (V m c main_call0_cst_0 : S64x8.Idx → EReal)
      = fun i => FloatOps.ofBits (F := Ideal) .f32 (lit1 (S64x8.rowMajor i)) := by
  show StableHlo.after hostOps0 (fun b => m (c, b)) (Proc.devRef .tc main_call0_cst_0) = _
  after_results
  rfl

/-- The packing matrix. -/
theorem PK_apply (c : Dev nD) (j : Fin 64) (t : Fin 8) : PK m c (ix2 j t) = pkv j t := by
  show (V m c main_call0_cst_0 : S64x8.Idx → EReal) (ix2 j t) = _
  rw [PK_eq]
  show Ideal.ofBits .f32 (lit1 (S64x8.rowMajor (ix2 j t))) = _
  have hpos : (S64x8.rowMajor (ix2 j t)) = (⟨8 * j.val + t.val, by omega⟩ : Fin 512) := by
    apply Fin.ext
    rw [Shape.rowMajor_val_two]
    show j.val * 8 + t.val = 8 * j.val + t.val
    omega
  rw [hpos, lit1_words]
  unfold pkv
  have h1 : (8 * j.val + t.val) / 8 = j.val := by omega
  have h2 : (8 * j.val + t.val) % 8 = t.val := by omega
  simp only [h1, h2]
  by_cases hjt : j.val / 8 = t.val
  · rw [if_pos hjt, if_pos hjt]
    exact pow_word ⟨j.val % 8, by omega⟩
  · rw [if_neg hjt, if_neg hjt]
    exact zero_word

/-- The transposed packing matrix's operand array is the constant's table read row-major. -/
theorem PKT_eq (c : Dev nD) :
    (V m c main_call0_cst : S8x64.Idx → EReal)
      = fun i => FloatOps.ofBits (F := Ideal) .f32 (lit0 (S8x64.rowMajor i)) := by
  show StableHlo.after hostOps0 (fun b => m (c, b)) (Proc.devRef .tc main_call0_cst) = _
  after_results
  rfl

/-- The transposed packing matrix. -/
theorem PKT_apply (c : Dev nD) (t : Fin 8) (j : Fin 64) : PKT m c (ix2 t j) = pkv j t := by
  show (V m c main_call0_cst : S8x64.Idx → EReal) (ix2 t j) = _
  rw [PKT_eq]
  show Ideal.ofBits .f32 (lit0 (S8x64.rowMajor (ix2 t j))) = _
  have hpos : (S8x64.rowMajor (ix2 t j)) = (⟨64 * t.val + j.val, by omega⟩ : Fin 512) := by
    apply Fin.ext
    rw [Shape.rowMajor_val_two]
    show t.val * 64 + j.val = 64 * t.val + j.val
    omega
  rw [hpos, lit0_words]
  unfold pkv
  have h1 : (64 * t.val + j.val) % 64 = j.val := by omega
  have h2 : (64 * t.val + j.val) / 64 = t.val := by omega
  simp only [h1, h2]
  by_cases hjt : j.val / 8 = t.val
  · rw [if_pos hjt, if_pos hjt]
    exact pow_word ⟨j.val % 8, by omega⟩
  · rw [if_neg hjt, if_neg hjt]
    exact zero_word

/-- The weights are an argument no host line touches. -/
theorem WV_eq (c : Dev nD) : WV m c = m ((c : Thread nD τ).loc main_arg1) := V_main_arg1 m c

/-! ## The line after the region, and the run -/

/-- The result buffer after the last line is the reshape of the region's result array. -/
theorem tail_eq (c : Dev nD) :
    (Pipeline.afterTail₀ cfgs (dats m) 0 (V0 m) [hostOps1] c main_v0 : S1x2048x4096.Idx → EReal)
      = shapeCast S1x2048x4096 (Gk (X2 m c) (WV m c) (B2 m c) (P2 m c) (PK m c) (PKT m c)) shapeCasts_S2048x4096_S1x2048x4096 := by
  have hw : (Pipeline.withArrays (cfgs 0).spec c (V0 m c) (fun w => (dats m 0 c).arrAt w (cfgs 0).N)
        (Proc.devRef .tc main_call0_v3) : S2048x4096.Idx → EReal)
      = Gk (X2 m c) (WV m c) (B2 m c) (P2 m c) (PK m c) (PKT m c) :=
    (Pipeline.withArrays_arr spec0 launch0.win.arr_inj c _ _ 6).trans (final_out m c)
  unfold Pipeline.afterTail₀
  show StableHlo.after hostOps1 _ (Proc.devRef .tc main_v0) = _
  after_results
  exact congrArg (fun a => shapeCast S1x2048x4096 a shapeCasts_S2048x4096_S1x2048x4096) hw

/-- The reshaped result at row `s`, column `o` is the reference's form there. -/
theorem res_apply (c : Dev nD) (s : Fin 2048) (o : Fin 4096) :
    shapeCast S1x2048x4096 (Gk (X2 m c) (WV m c) (B2 m c) (P2 m c) (PK m c) (PKT m c)) shapeCasts_S2048x4096_S1x2048x4096 (ix3 0 s o)
      = G (m ((c : Thread nD τ).loc main_arg0)) (m ((c : Thread nD τ).loc main_arg1))
          (m ((c : Thread nD τ).loc main_arg2)) (m ((c : Thread nD τ).loc main_arg3)) (ix3 0 s o) := by
  have hk : ((S2048x4096 : Shape).rowMajor (ix2 s o)).val = ((S1x2048x4096 : Shape).rowMajor (ix3 0 s o)).val := by
    rw [Shape.rowMajor_val_two, Shape.rowMajor_val_three]
    show s.val * 4096 + o.val = (0 * 2048 + s.val) * 4096 + o.val
    omega
  rw [shapeCast_apply _ _ (ix3 0 s o) (ix2 s o) hk, WV_eq]
  exact Cert.Spec.Gk_eq_G _ _ _ _ _ _ _ _ _ (X2_apply m c) (B2_apply m c) (P2_apply m c) (PK_apply m c) (PKT_apply m c) s o

/-- Every weakly fair execution of the kernel program ends with the result buffer at `G` of the arguments,
    and the arguments unchanged. -/
theorem run : θ_run defs (onTc (τ := τ) (main (F := Ideal))) ⟨m, fun _ => 0, ρ⟩ fun r => ∀ c : Dev nD,
      r.2.mem ((c.tc : Thread nD τ).loc main_v0)
        = (G (m ((c.tc : Thread nD τ).loc main_arg0)) (m ((c.tc : Thread nD τ).loc main_arg1))
            (m ((c.tc : Thread nD τ).loc main_arg2)) (m ((c.tc : Thread nD τ).loc main_arg3)) : I3 1 2048 4096 → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main m ρ)
  refine ⟨?_,
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩
  refine ((h c).2 main_v0 (Pipeline.mem_restRefs_of main_v0 (by decide) (by decide))).trans ((tail_eq m c).trans ?_)
  funext i
  have h0 : @Eq (Fin 1) (i 0) 0 := Fin.ext (Nat.lt_one_iff.mp (i 0).isLt)
  have hi : i = ix3 (0 : Fin 1) (i 1 : Fin 2048) (i 2 : Fin 4096) := (eq_ix3 i).trans (congrArg (fun a : Fin 1 => ix3 a (i 1 : Fin 2048) (i 2 : Fin 4096)) h0)
  rw [hi]
  exact res_apply m c (i 1) (i 2)

end Cert.KernelIdeal.Run

end
-- ==== Proof.RefValue.lean ====
import proofs.«163952_g61529701483102_cont_9to1_m_177_18_alg».proof.Proof.RefRead
import proofs.«163952_g61529701483102_cont_9to1_m_177_18_alg».proof.Proof.Spec
import Idealize.ShloMosaic.PureOps.Reduce
import Idealize.ShloMosaic.Lib.StableHlo.Predicate
import Idealize.ShloMosaic.Lib.ValueIdx
import Idealize.ShloMosaic.PureOps.Ideal.Laws

/-
  The reference program's result is the function `G` of the specification.

  The reference hashes a token row and a weight row by eight tables of eight sign bits each. A table's bucket number is
  the sum over its eight hashes of (sign bit, widened to a word) times (a weight word); the weight words are a closed
  integer computation whose value at hash `h` is `2 ^ h`, so the bucket number is `Spec.code` of the table's
  projections. Two rows collide when some table gives them equal bucket numbers (an OR over the tables of a word
  comparison), and the result element is the dense element under that condition and zero otherwise.

  Two reductions are read here by hand, at the literal shapes: the word sum over a table's eight hashes does not wrap
  (it is below 256), so its value is the sum of the values; the OR over the eight tables is one exactly when one of its
  eight operands is.
-/

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.ShloMosaic.StableHlo Idealize.ShloMosaic.ValueIdx Idealize.ShloMosaic.StableHlo.Predicate

/-! ## Words -/

/-- An OR of two bits is one exactly when one of them is. -/
theorem ori_eq_one_iff (a b : BitVec 1) : IntOp.ori a b = 1#1 ↔ a = 1#1 ∨ b = 1#1 := by
  rcases BitVec.eq_zero_or_eq_one a with rfl | rfl <;> rcases BitVec.eq_zero_or_eq_one b with rfl | rfl <;> decide

/-- A set fold of OR from zero is one exactly when some member's bit is. -/
theorem fold_ori_eq_one_iff {ι : Type} (S : Finset ι) (f : ι → BitVec 1) :
    S.fold IntOp.ori 0#1 f = 1#1 ↔ ∃ i ∈ S, f i = 1#1 := by
  induction S using Finset.cons_induction with
  | empty => simp
  | cons a S ha ih =>
    rw [Finset.fold_cons, ori_eq_one_iff, ih]
    simp only [Finset.mem_cons, exists_eq_or_imp]

/-- A widened bit times the word `2 ^ h`, `h` below 8: the value is `2 ^ h` where the bit is set, zero elsewhere. -/
theorem bit_mul_pow (b : BitVec 1) (h : Fin 8) :
    (IntOp.muli (b.setWidth 32) (BitVec.ofNat 32 (2 ^ h.val))).toNat = if b = 1#1 then 2 ^ h.val else 0 := by
  rcases BitVec.eq_zero_or_eq_one b with rfl | rfl <;> fin_cases h <;> rfl

/-- A bucket number is below 256: at most the sum of the eight powers of two. -/
theorem code_lt (v : Fin 8 → EReal) : Cert.Spec.code v < 256 := by
  unfold Cert.Spec.code
  have h1 : (∑ h : Fin 8, if 0 < v h then 2 ^ h.val else 0) ≤ ∑ h : Fin 8, 2 ^ h.val :=
    Finset.sum_le_sum fun h _ => by split <;> simp
  have h2 : (∑ h : Fin 8, 2 ^ h.val) = 255 := by decide
  omega

/-! ## The three reductions, at their literal shapes -/

theorem red_x : S1x2048x8x8.Reduces [3] S1x2048x8 := by decide
theorem red_w : S4096x8x8.Reduces [2] S4096x8 := by decide
theorem red_or : S1x2048x4096x8.Reduces [3] S1x2048x4096 := by decide

/-- The source indices over result index `(0, s, t)` are `(0, s, t, h)`, `h` the reduced coordinate. -/
theorem lift_x (s : Fin 2048) (t h : Fin 8) : red_x.lift (ix3 0 s t) h = ix4 0 s t h := by
  funext a
  match a with
  | ⟨0, _⟩ => rfl
  | ⟨1, _⟩ => rfl
  | ⟨2, _⟩ => rfl
  | ⟨3, _⟩ => rfl

theorem lift_w (o : Fin 4096) (t h : Fin 8) : red_w.lift (ix2 o t) h = ix3 o t h := by
  funext a
  match a with
  | ⟨0, _⟩ => rfl
  | ⟨1, _⟩ => rfl
  | ⟨2, _⟩ => rfl

theorem lift_or (s : Fin 2048) (o : Fin 4096) (t : Fin 8) : red_or.lift (ix3 0 s o) t = ix4 0 s o t := by
  funext a
  match a with
  | ⟨0, _⟩ => rfl
  | ⟨1, _⟩ => rfl
  | ⟨2, _⟩ => rfl
  | ⟨3, _⟩ => rfl

/-- The word sum over the last axis of a `[1, 2048, 8, 8]` array, from zero: where the eight values' sum does not wrap,
    its value is that sum. -/
theorem add_reduce_x (src : S1x2048x8x8.Idx → BitVec 32) (init : S_.Idx → BitVec 32)
    (h' : S1x2048x8x8.ReducesTo [3] S1x2048x8) (hu : 0 < S_.numel) (hinit : init (Shape.Idx.first hu) = 0#32)
    (s : Fin 2048) (t : Fin 8) (hlt : ∑ h : Fin 8, (src (ix4 0 s t h)).toNat < 2 ^ 32) :
    (Host.reduce IntOp.addi src init h' hu (ix3 0 s t)).toNat = ∑ h : Fin 8, (src (ix4 0 s t h)).toNat := by
  rw [Host.reduce_eq_fold_single IntOp.addi src init h' red_x hu, hinit]
  have hs : ∑ h : Fin 8, ((src ∘ red_x.lift (ix3 0 s t)) h).toNat = ∑ h : Fin 8, (src (ix4 0 s t h)).toNat :=
    Finset.sum_congr rfl fun h _ => by show (src (red_x.lift (ix3 0 s t) h)).toNat = _; rw [lift_x]
  exact (toNat_fold_addi (Finset.univ : Finset (Fin 8)) (src ∘ red_x.lift (ix3 0 s t)) (hs ▸ hlt)).trans hs

/-- The same over the last axis of a `[4096, 8, 8]` array. -/
theorem add_reduce_w (src : S4096x8x8.Idx → BitVec 32) (init : S_.Idx → BitVec 32)
    (h' : S4096x8x8.ReducesTo [2] S4096x8) (hu : 0 < S_.numel) (hinit : init (Shape.Idx.first hu) = 0#32)
    (o : Fin 4096) (t : Fin 8) (hlt : ∑ h : Fin 8, (src (ix3 o t h)).toNat < 2 ^ 32) :
    (Host.reduce IntOp.addi src init h' hu (ix2 o t)).toNat = ∑ h : Fin 8, (src (ix3 o t h)).toNat := by
  rw [Host.reduce_eq_fold_single IntOp.addi src init h' red_w hu, hinit]
  have hs : ∑ h : Fin 8, ((src ∘ red_w.lift (ix2 o t)) h).toNat = ∑ h : Fin 8, (src (ix3 o t h)).toNat :=
    Finset.sum_congr rfl fun h _ => by show (src (red_w.lift (ix2 o t) h)).toNat = _; rw [lift_w]
  exact (toNat_fold_addi (Finset.univ : Finset (Fin 8)) (src ∘ red_w.lift (ix2 o t)) (hs ▸ hlt)).trans hs

/-- The OR over the last axis of a `[1, 2048, 4096, 8]` array of bits, from zero, is one exactly when one of the eight
    bits is. -/
theorem or_reduce (src : S1x2048x4096x8.Idx → BitVec 1) (init : S_.Idx → BitVec 1)
    (h' : S1x2048x4096x8.ReducesTo [3] S1x2048x4096) (hu : 0 < S_.numel) (hinit : init (Shape.Idx.first hu) = 0#1)
    (s : Fin 2048) (o : Fin 4096) :
    Host.reduce IntOp.ori src init h' hu (ix3 0 s o) = 1#1 ↔ ∃ t : Fin 8, src (ix4 0 s o t) = 1#1 := by
  rw [Host.reduce_eq_fold_single IntOp.ori src init h' red_or hu, hinit, fold_ori_eq_one_iff]
  constructor
  · rintro ⟨t, _, ht⟩
    exact ⟨t, (congrArg src (lift_or s o t)).symm.trans ht⟩
  · rintro ⟨t, ht⟩
    exact ⟨t, Finset.mem_univ _, (congrArg src (lift_or s o t)).trans ht⟩

/-! ## The weight words: `2 ^ h` at hash `h` -/

/-- The token side's weight vector (an integer power of two by repeated squaring, a closed computation over words). -/
theorem weight_x (h : Fin 8) : val_main_v54 (F := Ideal) (ix1 h) = BitVec.ofNat 32 (2 ^ h.val) := by
  fin_cases h <;> decide +kernel

/-- The weight-row side's weight vector, the same computation printed a second time. -/
theorem weight_w (h : Fin 8) : val_main_v117 (F := Ideal) (ix1 h) = BitVec.ofNat 32 (2 ^ h.val) := by
  fin_cases h <;> decide +kernel

/-! ## The sign bits -/

/-- A token's sign bit for hash `h` of table `t` is set exactly when its projection is positive. -/
theorem bit_x (x0 : (⟨S1x2048x1024, .f32⟩ : BufTy).Contents (Elt Ideal)) (x3 : (⟨S8x8x1024, .f32⟩ : BufTy).Contents (Elt Ideal))
    (s : Fin 2048) (t h : Fin 8) :
    val_main_v2 (F := Ideal) x0 x3 (ix4 0 s t h) = 1#1 ↔ 0 < Cert.Spec.projX x0 x3 s t h := by
  rw [val_main_v2_apply, val_main_v0_apply, val_main_v1_apply, val_main_cst_apply]
  have el : ∀ k, lidx_main_v0 (ix4 0 s t h) k = ix3 0 s k := fun k => funext fun a => by
    match a with
    | ⟨0, _⟩ => rfl
    | ⟨1, _⟩ => rfl
    | ⟨2, _⟩ => rfl
  have er : ∀ k, ridx_main_v0 (ix4 0 s t h) k = ix3 t h k := fun k => funext fun a => by
    match a with
    | ⟨0, _⟩ => rfl
    | ⟨1, _⟩ => rfl
    | ⟨2, _⟩ => rfl
  simp only [el, er]
  show Ideal.cmp .ogt _ (Ideal.ofBits .f32 0x00000000#32) = 1#1 ↔ _
  rw [Ideal.ofBits_zero_f32]
  simp only [Ideal.cmp, ofBool_eq_one_iff, decide_eq_true_eq]
  rfl

/-- A weight row's sign bit likewise. -/
theorem bit_w (x1 : (⟨S4096x1024, .f32⟩ : BufTy).Contents (Elt Ideal)) (x3 : (⟨S8x8x1024, .f32⟩ : BufTy).Contents (Elt Ideal))
    (o : Fin 4096) (t h : Fin 8) :
    val_main_v65 (F := Ideal) x1 x3 (ix3 o t h) = 1#1 ↔ 0 < Cert.Spec.projW x1 x3 o t h := by
  rw [val_main_v65_apply, val_main_v63_apply, val_main_v64_apply, val_main_cst_20_apply]
  have el : ∀ k, lidx_main_v63 (ix3 o t h) k = ix2 o k := fun k => funext fun a => by
    match a with
    | ⟨0, _⟩ => rfl
    | ⟨1, _⟩ => rfl
  have er : ∀ k, ridx_main_v63 (ix3 o t h) k = ix3 t h k := fun k => funext fun a => by
    match a with
    | ⟨0, _⟩ => rfl
    | ⟨1, _⟩ => rfl
    | ⟨2, _⟩ => rfl
  simp only [el, er]
  show Ideal.cmp .ogt _ (Ideal.ofBits .f32 0x00000000#32) = 1#1 ↔ _
  rw [Ideal.ofBits_zero_f32]
  simp only [Ideal.cmp, ofBool_eq_one_iff, decide_eq_true_eq]
  rfl

/-! ## The bucket numbers -/

/-- One summand of a token's bucket number: `2 ^ h` where the projection is positive. -/
theorem term_x (x0 : (⟨S1x2048x1024, .f32⟩ : BufTy).Contents (Elt Ideal)) (x3 : (⟨S8x8x1024, .f32⟩ : BufTy).Contents (Elt Ideal))
    (s : Fin 2048) (t h : Fin 8) :
    (val_main_v61 (F := Ideal) x0 x3 (ix4 0 s t h)).toNat = if 0 < Cert.Spec.projX x0 x3 s t h then 2 ^ h.val else 0 := by
  rw [val_main_v61_apply, val_main_v58_apply, val_main_v60_apply, val_main_v59_apply]
  have e : idx_main_v59 (idx_main_v60 (ix4 0 s t h)) = ix1 h := funext fun a => by
    match a with
    | ⟨0, _⟩ => rfl
  rw [e, weight_x, bit_mul_pow]
  exact if_congr (bit_x x0 x3 s t h) rfl rfl

theorem term_w (x1 : (⟨S4096x1024, .f32⟩ : BufTy).Contents (Elt Ideal)) (x3 : (⟨S8x8x1024, .f32⟩ : BufTy).Contents (Elt Ideal))
    (o : Fin 4096) (t h : Fin 8) :
    (val_main_v124 (F := Ideal) x1 x3 (ix3 o t h)).toNat = if 0 < Cert.Spec.projW x1 x3 o t h then 2 ^ h.val else 0 := by
  rw [val_main_v124_apply, val_main_v121_apply, val_main_v123_apply, val_main_v122_apply]
  have e : idx_main_v122 (idx_main_v123 (ix3 o t h)) = ix1 h := funext fun a => by
    match a with
    | ⟨0, _⟩ => rfl
  rw [e, weight_w, bit_mul_pow]
  exact if_congr (bit_w x1 x3 o t h) rfl rfl

/-- A token's bucket number in table `t`, as the reference computes it. -/
theorem code_x (x0 : (⟨S1x2048x1024, .f32⟩ : BufTy).Contents (Elt Ideal)) (x3 : (⟨S8x8x1024, .f32⟩ : BufTy).Contents (Elt Ideal))
    (s : Fin 2048) (t : Fin 8) :
    (val_main_v62 (F := Ideal) x0 x3 (ix3 0 s t)).toNat = Cert.Spec.code (Cert.Spec.projX x0 x3 s t) := by
  have hs : ∑ h : Fin 8, (val_main_v61 (F := Ideal) x0 x3 (ix4 0 s t h)).toNat = Cert.Spec.code (Cert.Spec.projX x0 x3 s t) := by
    unfold Cert.Spec.code
    exact Finset.sum_congr rfl fun h _ => term_x x0 x3 s t h
  have hlt : ∑ h : Fin 8, (val_main_v61 (F := Ideal) x0 x3 (ix4 0 s t h)).toNat < 2 ^ 32 := by
    rw [hs]; exact lt_trans (code_lt _) (by norm_num)
  exact (add_reduce_x (val_main_v61 (F := Ideal) x0 x3) (val_main_c_19 (F := Ideal)) reducesTo_S1x2048x8x8_S1x2048x8_d3 h_S_ rfl s t hlt).trans hs

/-- A weight row's bucket number in table `t`. -/
theorem code_w (x1 : (⟨S4096x1024, .f32⟩ : BufTy).Contents (Elt Ideal)) (x3 : (⟨S8x8x1024, .f32⟩ : BufTy).Contents (Elt Ideal))
    (o : Fin 4096) (t : Fin 8) :
    (val_main_v125 (F := Ideal) x1 x3 (ix2 o t)).toNat = Cert.Spec.code (Cert.Spec.projW x1 x3 o t) := by
  have hs : ∑ h : Fin 8, (val_main_v124 (F := Ideal) x1 x3 (ix3 o t h)).toNat = Cert.Spec.code (Cert.Spec.projW x1 x3 o t) := by
    unfold Cert.Spec.code
    exact Finset.sum_congr rfl fun h _ => term_w x1 x3 o t h
  have hlt : ∑ h : Fin 8, (val_main_v124 (F := Ideal) x1 x3 (ix3 o t h)).toNat < 2 ^ 32 := by
    rw [hs]; exact lt_trans (code_lt _) (by norm_num)
  exact (add_reduce_w (val_main_v124 (F := Ideal) x1 x3) (val_main_c_41 (F := Ideal)) reducesTo_S4096x8x8_S4096x8_d2 h_S_ rfl o t hlt).trans hs

/-! ## The collision condition, the dense element, the zero -/

/-- The select's condition bit at `(0, s, o)` is set exactly when token `s` and weight row `o` collide. -/
theorem cond_iff (x0 : (⟨S1x2048x1024, .f32⟩ : BufTy).Contents (Elt Ideal)) (x1 : (⟨S4096x1024, .f32⟩ : BufTy).Contents (Elt Ideal))
    (x3 : (⟨S8x8x1024, .f32⟩ : BufTy).Contents (Elt Ideal)) (s : Fin 2048) (o : Fin 4096) :
    val_main_v131 (F := Ideal) x0 x1 x3 (ix3 0 s o) = 1#1 ↔ Cert.Spec.hit x0 x1 x3 s o := by
  refine (or_reduce (val_main_v130 (F := Ideal) x0 x1 x3) (val_main_c_42 (F := Ideal))
    reducesTo_S1x2048x4096x8_S1x2048x4096_d3 h_S_ rfl s o).trans (exists_congr fun t => ?_)
  rw [val_main_v130_apply, cmpi_eq_iff, val_main_v128_apply, val_main_v126_apply, val_main_v129_apply, val_main_v127_apply]
  have e1 : idx_main_v126 (idx_main_v128 (ix4 0 s o t)) = ix3 0 s t := funext fun a => by
    match a with
    | ⟨0, _⟩ => rfl
    | ⟨1, _⟩ => rfl
    | ⟨2, _⟩ => rfl
  have e2 : idx_main_v127 (idx_main_v129 (ix4 0 s o t)) = ix2 o t := funext fun a => by
    match a with
    | ⟨0, _⟩ => rfl
    | ⟨1, _⟩ => rfl
  rw [e1, e2, ← BitVec.toNat_inj, code_x, code_w]

/-- The selected value at `(0, s, o)` is the dense layer's element. -/
theorem dense_eq (x0 : (⟨S1x2048x1024, .f32⟩ : BufTy).Contents (Elt Ideal)) (x1 : (⟨S4096x1024, .f32⟩ : BufTy).Contents (Elt Ideal))
    (x2 : (⟨S4096, .f32⟩ : BufTy).Contents (Elt Ideal)) (s : Fin 2048) (o : Fin 4096) :
    val_main_v135 (F := Ideal) x0 x1 x2 (ix3 0 s o) = Cert.Spec.dense x0 x1 x2 s o := by
  rw [val_main_v135_apply, val_main_v132_apply, val_main_v134_apply, val_main_v133_apply]
  have el : ∀ k, lidx_main_v132 (ix3 0 s o) k = ix3 0 s k := fun k => funext fun a => by
    match a with
    | ⟨0, _⟩ => rfl
    | ⟨1, _⟩ => rfl
    | ⟨2, _⟩ => rfl
  have er : ∀ k, ridx_main_v132 (ix3 0 s o) k = ix2 o k := fun k => funext fun a => by
    match a with
    | ⟨0, _⟩ => rfl
    | ⟨1, _⟩ => rfl
  have eb : idx_main_v133 (idx_main_v134 (ix3 0 s o)) = ix1 o := funext fun a => by
    match a with
    | ⟨0, _⟩ => rfl
  simp only [el, er, eb]
  rfl

/-- The other branch of the select is the zero. -/
theorem zero_eq (i : S1x2048x4096.Idx) : val_main_call14_v1 (F := Ideal) i = 0 := by
  rw [val_main_call14_v1_apply, val_main_call14_v0_apply, val_main_cst_43_apply]
  exact Ideal.ofBits_zero_f32

/-! ## The reference's result -/

theorem ref_eq_G (x0 : (⟨S1x2048x1024, .f32⟩ : BufTy).Contents (Elt Ideal)) (x1 : (⟨S4096x1024, .f32⟩ : BufTy).Contents (Elt Ideal))
    (x2 : (⟨S4096, .f32⟩ : BufTy).Contents (Elt Ideal)) (x3 : (⟨S8x8x1024, .f32⟩ : BufTy).Contents (Elt Ideal)) :
    Cert.ReferenceIdeal.ReadP.val_main_v136 (F := Ideal) x0 x1 x2 x3 = Cert.Spec.G x0 x1 x2 x3 := by
  funext i
  obtain ⟨s, o, rfl⟩ : ∃ (s : Fin 2048) (o : Fin 4096), i = ix3 0 s o :=
    ⟨⟨(i 1).val, (i 1).isLt⟩, ⟨(i 2).val, (i 2).isLt⟩, funext fun a => by
      match a with
      | ⟨0, _⟩ => exact Fin.ext (by have := (i 0).isLt; change _ < 1 at this; show (i 0).val = 0; omega)
      | ⟨1, _⟩ => rfl
      | ⟨2, _⟩ => rfl⟩
  rw [val_main_v136_apply]
  by_cases hh : Cert.Spec.hit x0 x1 x3 s o
  · rw [(cond_iff x0 x1 x3 s o).2 hh, select_one, dense_eq]
    exact (if_pos hh).symm
  · rw [eq_zero_of_ne_one (fun h1 => hh ((cond_iff x0 x1 x3 s o).1 h1)), select_zero, zero_eq]
    exact (if_neg hh).symm

end Cert.ReferenceIdeal.RefValue

end
-- ==== Proof.lean ====
/-
  The kernel — a fused hashing, dense product and masking pass on the matrix unit — computes what the reference
  states with integer bucket numbers.

  Both programs hash every token row and every weight row by eight tables of eight signed random projections, take
  the inner product of a token row and a weight row plus a bias, and keep it where the two rows share a bucket in at
  least one table, writing zero elsewhere. The reference packs a table's eight sign bits into an integer and compares
  integers. The kernel keeps everything in floats: the sign bits times a packing matrix give the bucket number as a
  float, each bucket number is expanded to a one-hot row of 256 entries per table, and the product of the tokens'
  one-hot rows with the weight rows' one-hot columns counts the colliding tables; the mask is "count positive". Over the
  extended reals the changes of float format are the identity and every product is the exact sum, so both are the one
  function `Cert.Spec.G` of the four arguments (`Cert.KernelIdeal.Run.run`, `Cert.ReferenceIdeal.RefValue.ref_eq_G`).
  No law used needs finite inputs: the same extended-real sums stand on both sides.

  The three frames are the generated frame certificates' (the reference's is its run with the result dropped); the
  ideal pass rewrote nothing, so the idealization claim is trivial.
-/
import proofs.«163952_g61529701483102_cont_9to1_m_177_18_alg».proof.Defs
import proofs.«163952_g61529701483102_cont_9to1_m_177_18_alg».proof.Proof.Gen.Kernel
import proofs.«163952_g61529701483102_cont_9to1_m_177_18_alg».proof.Proof.Gen.Kernel.Frame
import proofs.«163952_g61529701483102_cont_9to1_m_177_18_alg».proof.Proof.Gen.KernelIdeal
import proofs.«163952_g61529701483102_cont_9to1_m_177_18_alg».proof.Proof.Gen.KernelIdeal.Frame
import proofs.«163952_g61529701483102_cont_9to1_m_177_18_alg».proof.Proof.Gen.ReferenceIdeal
import proofs.«163952_g61529701483102_cont_9to1_m_177_18_alg».proof.Proof.Gen.Pre_finite_inputs
import proofs.«163952_g61529701483102_cont_9to1_m_177_18_alg».proof.Proof.KernelRun
import proofs.«163952_g61529701483102_cont_9to1_m_177_18_alg».proof.Proof.RefValue
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result buffer at `G` of the (agreeing) arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v136_eq, Cert.ReferenceIdeal.RefValue.ref_eq_G,
    (hagree c).1, (hagree c).2.1, (hagree c).2.2.1, (hagree c).2.2.2]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
